-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x5x4194304 : Shape := ⟨3, ![1, 5, 4194304]⟩
abbrev S1x4194304 : Shape := ⟨2, ![1, 4194304]⟩
abbrev S_ : Shape := ⟨0, ![]⟩

class Facts : Prop where
  bcast_S_S1x5x4194304 : S_.BroadcastsInDim S1x5x4194304 (![] : Fin 0 → Fin S1x5x4194304.rank)
  reducesTo_S1x5x4194304_S_d0_1_2 : S1x5x4194304.ReducesTo [0, 1, 2] S_
  h_S_ : 0 < S_.numel

variable [Facts]

def fn {F : FTy → Type} [FloatOps F] (main_arg0 : FVec F S1x5x4194304 .f32) (main_arg1 : IVec S1x4194304 32) : IVec S_ 1 :=
  let main_v0 : FVec F S1x5x4194304 .f32 := Host.absf main_arg0
  let main_cst : FVec F S_ .f32 := constant S_ .f32 0x7F800000#32
  let main_v1 : FVec F S1x5x4194304 .f32 := broadcastInDim S1x5x4194304 ![] bcast_S_S1x5x4194304 main_cst
  let main_v2 : IVec S1x5x4194304 1 := cmpf .olt main_v0 main_v1
  let main_c : IVec S_ 1 := constantI S_ 1 1#1
  let main_v3 : IVec S_ 1 := (fun x v => Host.reduce IntOp.andi x v reducesTo_S1x5x4194304_S_d0_1_2 h_S_) main_v2 main_c
  main_v3
-- ==== Kernel.lean ====
abbrev S1x5x4194304 : Shape := ⟨3, ![1, 5, 4194304]⟩
abbrev S1x4194304 : Shape := ⟨2, ![1, 4194304]⟩
abbrev S5x4194304 : Shape := ⟨2, ![5, 4194304]⟩
abbrev S4194304 : Shape := ⟨1, ![4194304]⟩
abbrev S2x5x33 : Shape := ⟨3, ![2, 5, 33]⟩
abbrev S2x1x33 : Shape := ⟨3, ![2, 1, 33]⟩
abbrev S5x131072 : Shape := ⟨2, ![5, 131072]⟩
abbrev S1x131072 : Shape := ⟨2, ![1, 131072]⟩
abbrev S1x5x33 : Shape := ⟨3, ![1, 5, 33]⟩
abbrev S1x1x33 : Shape := ⟨3, ![1, 1, 33]⟩
abbrev S33x131072 : Shape := ⟨2, ![33, 131072]⟩
abbrev S5x33 : Shape := ⟨2, ![5, 33]⟩
abbrev S1x33 : Shape := ⟨2, ![1, 33]⟩
abbrev S33 : Shape := ⟨1, ![33]⟩
abbrev S_ : Shape := ⟨0, ![]⟩
abbrev S131072 : Shape := ⟨1, ![131072]⟩
abbrev S5x33x1 : Shape := ⟨3, ![5, 33, 1]⟩
abbrev S5x1x33 : Shape := ⟨3, ![5, 1, 33]⟩
abbrev S5x33x33 : Shape := ⟨3, ![5, 33, 33]⟩
abbrev S33x33 : Shape := ⟨2, ![33, 33]⟩
abbrev S33x1 : Shape := ⟨2, ![33, 1]⟩

abbrev nBuf : Space → Nat
  | .hbm => 119
  | .vmem => 15
  | .smem => 0
  | _ => 0

abbrev bufTy : (tb : Table) → Fin (tcTables nBuf tb) → BufTy
  | .hbm, ⟨0, _⟩ => ⟨S1x5x4194304, .f32⟩
  | .hbm, ⟨1, _⟩ => ⟨S1x4194304, .i32⟩
  | .hbm, ⟨2, _⟩ => ⟨S5x4194304, .f32⟩
  | .hbm, ⟨3, _⟩ => ⟨S4194304, .i32⟩
  | .hbm, ⟨4, _⟩ => ⟨S1x4194304, .i32⟩
  | .hbm, ⟨5, _⟩ => ⟨S2x5x33, .f32⟩
  | .hbm, ⟨6, _⟩ => ⟨S2x1x33, .f32⟩
  | .hbm, ⟨7, _⟩ => ⟨S1x5x33, .f32⟩
  | .hbm, ⟨8, _⟩ => ⟨S5x33, .f32⟩
  | .hbm, ⟨9, _⟩ => ⟨S1x5x33, .f32⟩
  | .hbm, ⟨10, _⟩ => ⟨S5x33, .f32⟩
  | .hbm, ⟨11, _⟩ => ⟨S5x33, .f32⟩
  | .hbm, ⟨12, _⟩ => ⟨S1x1x33, .f32⟩
  | .hbm, ⟨13, _⟩ => ⟨S33, .f32⟩
  | .hbm, ⟨14, _⟩ => ⟨S1x1x33, .f32⟩
  | .hbm, ⟨15, _⟩ => ⟨S33, .f32⟩
  | .hbm, ⟨16, _⟩ => ⟨S33, .f32⟩
  | .hbm, ⟨17, _⟩ => ⟨S_, .f32⟩
  | .hbm, ⟨18, _⟩ => ⟨S33, .f32⟩
  | .hbm, ⟨19, _⟩ => ⟨S33, .f32⟩
  | .hbm, ⟨20, _⟩ => ⟨S1x33, .f32⟩
  | .hbm, ⟨21, _⟩ => ⟨S5x33, .f32⟩
  | .hbm, ⟨22, _⟩ => ⟨S5x33, .f32⟩
  | .hbm, ⟨23, _⟩ => ⟨S_, .f32⟩
  | .hbm, ⟨24, _⟩ => ⟨S33, .f32⟩
  | .hbm, ⟨25, _⟩ => ⟨S33, .i1⟩
  | .hbm, ⟨26, _⟩ => ⟨S33, .i32⟩
  | .hbm, ⟨27, _⟩ => ⟨S_, .i32⟩
  | .hbm, ⟨28, _⟩ => ⟨S33, .i32⟩
  | .hbm, ⟨29, _⟩ => ⟨S33, .i1⟩
  | .hbm, ⟨30, _⟩ => ⟨S33, .i1⟩
  | .hbm, ⟨31, _⟩ => ⟨S_, .i32⟩
  | .hbm, ⟨32, _⟩ => ⟨S33, .i32⟩
  | .hbm, ⟨33, _⟩ => ⟨S33, .i1⟩
  | .hbm, ⟨34, _⟩ => ⟨S33, .f32⟩
  | .hbm, ⟨35, _⟩ => ⟨S1x33, .f32⟩
  | .hbm, ⟨36, _⟩ => ⟨S5x33, .f32⟩
  | .hbm, ⟨37, _⟩ => ⟨S5x33, .f32⟩
  | .hbm, ⟨38, _⟩ => ⟨S2x1x33, .f32⟩
  | .hbm, ⟨39, _⟩ => ⟨S1x1x33, .f32⟩
  | .hbm, ⟨40, _⟩ => ⟨S33, .f32⟩
  | .hbm, ⟨41, _⟩ => ⟨S1x1x33, .f32⟩
  | .hbm, ⟨42, _⟩ => ⟨S33, .f32⟩
  | .hbm, ⟨43, _⟩ => ⟨S33, .f32⟩
  | .hbm, ⟨44, _⟩ => ⟨S33, .f32⟩
  | .hbm, ⟨45, _⟩ => ⟨S33, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S33, .f32⟩
  | .hbm, ⟨51, _⟩ => ⟨S33, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S1x33, .i1⟩
  | .hbm, ⟨56, _⟩ => ⟨S1x33, .f32⟩
  | .hbm, ⟨57, _⟩ => ⟨S5x33, .f32⟩
  | .hbm, ⟨58, _⟩ => ⟨S5x33, .f32⟩
  | .hbm, ⟨59, _⟩ => ⟨S5x33x1, .f32⟩
  | .hbm, ⟨60, _⟩ => ⟨S5x1x33, .f32⟩
  | .hbm, ⟨61, _⟩ => ⟨S5x33x33, .f32⟩
  | .hbm, ⟨62, _⟩ => ⟨S5x33x33, .f32⟩
  | .hbm, ⟨63, _⟩ => ⟨S5x33x33, .f32⟩
  | .hbm, ⟨64, _⟩ => ⟨S5x33x33, .f32⟩
  | .hbm, ⟨65, _⟩ => ⟨S_, .f32⟩
  | .hbm, ⟨66, _⟩ => ⟨S33x33, .f32⟩
  | .hbm, ⟨67, _⟩ => ⟨S33x33, .i32⟩
  | .hbm, ⟨68, _⟩ => ⟨S33x33, .i32⟩
  | .hbm, ⟨69, _⟩ => ⟨S_, .i32⟩
  | .hbm, ⟨70, _⟩ => ⟨S33x33, .i32⟩
  | .hbm, ⟨71, _⟩ => ⟨S33x33, .i32⟩
  | .hbm, ⟨72, _⟩ => ⟨S33x33, .i1⟩
  | .hbm, ⟨73, _⟩ => ⟨S33x1, .i1⟩
  | .hbm, ⟨74, _⟩ => ⟨S1x33, .i1⟩
  | .hbm, ⟨75, _⟩ => ⟨S33x33, .i1⟩
  | .hbm, ⟨76, _⟩ => ⟨S33x33, .i1⟩
  | .hbm, ⟨77, _⟩ => ⟨S33x33, .i1⟩
  | .hbm, ⟨78, _⟩ => ⟨S33x33, .i1⟩
  | .hbm, ⟨79, _⟩ => ⟨S33x33, .i1⟩
  | .hbm, ⟨80, _⟩ => ⟨S_, .f32⟩
  | .hbm, ⟨81, _⟩ => ⟨S33x33, .f32⟩
  | .hbm, ⟨82, _⟩ => ⟨S33x33, .f32⟩
  | .hbm, ⟨83, _⟩ => ⟨S_, .f32⟩
  | .hbm, ⟨84, _⟩ => ⟨S33x33, .f32⟩
  | .hbm, ⟨85, _⟩ => ⟨S33x33, .f32⟩
  | .hbm, ⟨86, _⟩ => ⟨S33x33, .f32⟩
  | .hbm, ⟨87, _⟩ => ⟨S33, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S33x33, .f32⟩
  | .hbm, ⟨93, _⟩ => ⟨S33x33, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S5x33, .f32⟩
  | .hbm, ⟨101, _⟩ => ⟨S_, .f32⟩
  | .hbm, ⟨102, _⟩ => ⟨S33, .f32⟩
  | .hbm, ⟨103, _⟩ => ⟨S_, .f32⟩
  | .hbm, ⟨104, _⟩ => ⟨S_, .f32⟩
  | .hbm, ⟨105, _⟩ => ⟨S33, .f32⟩
  | .hbm, ⟨106, _⟩ => ⟨S33, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .local _ .vmem, ⟨0, _⟩ => ⟨S5x131072, .f32⟩
  | .local _ .vmem, ⟨1, _⟩ => ⟨S5x131072, .f32⟩
  | .local _ .vmem, ⟨2, _⟩ => ⟨S1x131072, .i32⟩
  | .local _ .vmem, ⟨3, _⟩ => ⟨S1x131072, .i32⟩
  | .local _ .vmem, ⟨4, _⟩ => ⟨S1x5x33, .f32⟩
  | .local _ .vmem, ⟨5, _⟩ => ⟨S1x5x33, .f32⟩
  | .local _ .vmem, ⟨6, _⟩ => ⟨S1x1x33, .f32⟩
  | .local _ .vmem, ⟨7, _⟩ => ⟨S1x1x33, .f32⟩
  | .local _ .vmem, ⟨8, _⟩ => ⟨S5x131072, .f32⟩
  | .local _ .vmem, ⟨9, _⟩ => ⟨S5x131072, .f32⟩
  | .local _ .vmem, ⟨10, _⟩ => ⟨S1x131072, .i32⟩
  | .local _ .vmem, ⟨11, _⟩ => ⟨S1x131072, .i32⟩
  | .local _ .vmem, ⟨12, _⟩ => ⟨S5x33, .f32⟩
  | .local _ .vmem, ⟨13, _⟩ => ⟨S1x1x33, .f32⟩
  | .local _ .vmem, ⟨14, _⟩ => ⟨S1x1x33, .f32⟩
  | _, _ => ⟨S1x5x4194304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_2 : Ref sig .tc := ⟨.hbm, 46, rfl⟩
abbrev main_v39 : Ref sig .tc := ⟨.hbm, 47, rfl⟩
abbrev main_cst_3 : Ref sig .tc := ⟨.hbm, 48, rfl⟩
abbrev main_call0_v0 : Ref sig .tc := ⟨.hbm, 49, rfl⟩
abbrev main_call0_v1 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_5 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_c_6 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_7 : Ref sig .tc := ⟨.hbm, 80, rfl⟩
abbrev main_v66 : Ref sig .tc := ⟨.hbm, 81, rfl⟩
abbrev main_v67 : Ref sig .tc := ⟨.hbm, 82, rfl⟩
abbrev main_cst_8 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_9 : Ref sig .tc := ⟨.hbm, 88, rfl⟩
abbrev main_v72 : Ref sig .tc := ⟨.hbm, 89, rfl⟩
abbrev main_cst_10 : Ref sig .tc := ⟨.hbm, 90, rfl⟩
abbrev main_call1_v0 : Ref sig .tc := ⟨.hbm, 91, rfl⟩
abbrev main_call1_v1 : Ref sig .tc := ⟨.hbm, 92, rfl⟩
abbrev main_v73 : Ref sig .tc := ⟨.hbm, 93, rfl⟩
abbrev main_cst_11 : Ref sig .tc := ⟨.hbm, 94, rfl⟩
abbrev main_v74 : Ref sig .tc := ⟨.hbm, 95, rfl⟩
abbrev main_cst_12 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_13 : Ref sig .tc := ⟨.hbm, 101, rfl⟩
abbrev main_v79 : Ref sig .tc := ⟨.hbm, 102, rfl⟩
abbrev main_cst_14 : Ref sig .tc := ⟨.hbm, 103, rfl⟩
abbrev main_call2_v0 : Ref sig .tc := ⟨.hbm, 104, rfl⟩
abbrev main_call2_v1 : Ref sig .tc := ⟨.hbm, 105, rfl⟩
abbrev main_v80 : Ref sig .tc := ⟨.hbm, 106, rfl⟩
abbrev main_cst_15 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_16 : Ref sig .tc := ⟨.hbm, 111, rfl⟩
abbrev main_v84 : Ref sig .tc := ⟨.hbm, 112, rfl⟩
abbrev main_cst_17 : Ref sig .tc := ⟨.hbm, 113, rfl⟩
abbrev main_v85 : Ref sig .tc := ⟨.hbm, 114, rfl⟩
abbrev main_v86 : Ref sig .tc := ⟨.hbm, 115, rfl⟩
abbrev main_cst_18 : Ref sig .tc := ⟨.hbm, 116, rfl⟩
abbrev main_v87 : Ref sig .tc := ⟨.hbm, 117, rfl⟩
abbrev main_v88 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x131072 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x5x33 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x33 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5x131072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x131072 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S5x33 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x33 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S1x5x4194304_S5x4194304 : S1x5x4194304.ShapeCasts S5x4194304
  shapeCasts_S1x4194304_S4194304 : S1x4194304.ShapeCasts S4194304
  bcast_S4194304_S1x4194304_1 : S4194304.BroadcastsInDim S1x4194304 (![1] : Fin 1 → Fin S1x4194304.rank)
  inb_S1x5x33_S1x5x33_0_0_0 : ∀ a, (![0, 0, 0] : Fin 3 → Nat) a + S1x5x33.size a ≤ S1x5x33.size a
  h_S1x5x33 : 0 < S1x5x33.numel
  inb_S1x1x33_S1x1x33_0_0_0 : ∀ a, (![0, 0, 0] : Fin 3 → Nat) a + S1x1x33.size a ≤ S1x1x33.size a
  h_S1x1x33 : 0 < S1x1x33.numel
  inb_S1x131072_S1x131072_0_0 : ∀ a, (![0, 0] : Fin 2 → Nat) a + S1x131072.size a ≤ S1x131072.size a
  h_S1x131072 : 0 < S1x131072.numel
  shapeCasts_S1x131072_S1x131072 : S1x131072.ShapeCasts S1x131072
  iota_S33x131072_d0_w32 : S33x131072.Iotas .tc 32 [0]
  broadcasts_S1x131072_S33x131072 : S1x131072.Broadcasts S33x131072
  natLt_1_32 : 1 < 32
  bitsLt_bf16_f32 : FTy.bits .bf16 < FTy.bits .f32
  inb_S5x131072_S5x131072_0_0 : ∀ a, (![0, 0] : Fin 2 → Nat) a + S5x131072.size a ≤ S5x131072.size a
  h_S5x131072 : 0 < S5x131072.numel
  shapeCasts_S5x131072_S5x131072 : S5x131072.ShapeCasts S5x131072
  shapeCasts_S1x5x33_S1x5x33 : S1x5x33.ShapeCasts S1x5x33
  shapeCasts_S5x33_S1x5x33 : S5x33.ShapeCasts S1x5x33
  shapeCasts_S1x1x33_S1x1x33 : S1x1x33.ShapeCasts S1x1x33
  shapeCasts_S1x33_S1x1x33 : S1x33.ShapeCasts S1x1x33
  slices_S2x5x33_S1x5x33_0_0_0 : S2x5x33.Slices ![0, 0, 0] S1x5x33
  shapeCasts_S1x5x33_S5x33 : S1x5x33.ShapeCasts S5x33
  slices_S2x5x33_S1x5x33_1_0_0 : S2x5x33.Slices ![1, 0, 0] S1x5x33
  slices_S2x1x33_S1x1x33_0_0_0 : S2x1x33.Slices ![0, 0, 0] S1x1x33
  shapeCasts_S1x1x33_S33 : S1x1x33.ShapeCasts S33
  slices_S2x1x33_S1x1x33_1_0_0 : S2x1x33.Slices ![1, 0, 0] S1x1x33
  bcast_S_S33 : S_.BroadcastsInDim S33 (![] : Fin 0 → Fin S33.rank)
  bcast_S33_S1x33_1 : S33.BroadcastsInDim S1x33 (![1] : Fin 1 → Fin S1x33.rank)
  bcast_S1x33_S5x33_0_1 : S1x33.BroadcastsInDim S5x33 (![0, 1] : Fin 2 → Fin S5x33.rank)
  inb_S5x33_S5x33_0_0 : ∀ a, (![0, 0] : Fin 2 → Nat) a + S5x33.size a ≤ S5x33.size a
  h_S5x33 : 0 < S5x33.numel
  shapeCasts_S5x33_S5x33 : S5x33.ShapeCasts S5x33
  reduces_S5x131072_S131072 : S5x131072.Reduces [0] S131072
  shapeCasts_S131072_S1x131072 : S131072.ShapeCasts S1x131072
  reducesTo_S33_S_d0 : S33.ReducesTo [0] S_
  h_S_ : 0 < S_.numel
  bcast_S5x33_S5x33x1_0_1 : S5x33.BroadcastsInDim S5x33x1 (![0, 1] : Fin 2 → Fin S5x33x1.rank)
  bcast_S5x33_S5x1x33_0_2 : S5x33.BroadcastsInDim S5x1x33 (![0, 2] : Fin 2 → Fin S5x1x33.rank)
  bcast_S5x33x1_S5x33x33_0_1_2 : S5x33x1.BroadcastsInDim S5x33x33 (![0, 1, 2] : Fin 3 → Fin S5x33x33.rank)
  bcast_S5x1x33_S5x33x33_0_1_2 : S5x1x33.BroadcastsInDim S5x33x33 (![0, 1, 2] : Fin 3 → Fin S5x33x33.rank)
  reducesTo_S5x33x33_S33x33_d0 : S5x33x33.ReducesTo [0] S33x33
  bcast_S_S33x33 : S_.BroadcastsInDim S33x33 (![] : Fin 0 → Fin S33x33.rank)
  bcast_S33_S33x1_0 : S33.BroadcastsInDim S33x1 (![0] : Fin 1 → Fin S33x1.rank)
  bcast_S33x1_S33x33_0_1 : S33x1.BroadcastsInDim S33x33 (![0, 1] : Fin 2 → Fin S33x33.rank)
  bcast_S1x33_S33x33_0_1 : S1x33.BroadcastsInDim S33x33 (![0, 1] : Fin 2 → Fin S33x33.rank)
  reducesTo_S33x33_S_d0_1 : S33x33.ReducesTo [0, 1] S_
  reducesTo_S5x33_S33_d0 : S5x33.ReducesTo [0] S33
  dot_S5x131072_S33x131072_S5x33_1_1_0_0_n_n_wf : DotDims.WF S5x131072 S33x131072 S5x33 [1] [1] [0] [0] [] []
  dot_S1x131072_S33x131072_S1x33_1_1_0_0_n_n_wf : DotDims.WF S1x131072 S33x131072 S1x33 [1] [1] [0] [0] [] []
  dot_S5x33_S33x131072_S5x131072_1_0_0_1_n_n_wf : DotDims.WF S5x33 S33x131072 S5x131072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x131072.size a ≤ S5x4194304.size a
  hwx0_0 : ∀ i : grid0.Coords, EltTy.bits .f32 = 32 ∨ (Rect.block (s := S5x4194304) S5x131072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x131072.size a ≤ S1x4194304.size a
  hwx0_1 : ∀ i : grid0.Coords, EltTy.bits .i32 = 32 ∨ (Rect.block (s := S1x4194304) S1x131072.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5x33.size a ≤ S2x5x33.size a
  hwx0_2 : ∀ i : grid0.Coords, EltTy.bits .f32 = 32 ∨ (Rect.block (s := S2x5x33) S1x5x33.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x33.size a ≤ S2x1x33.size a
  hwx0_3 : ∀ i : grid0.Coords, EltTy.bits .f32 = 32 ∨ (Rect.block (s := S2x1x33) S1x1x33.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5x131072.size a ≤ S5x4194304.size a
  hwx1_0 : ∀ i : grid1.Coords, EltTy.bits .f32 = 32 ∨ (Rect.block (s := S5x4194304) S5x131072.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x131072.size a ≤ S1x4194304.size a
  hwx1_1 : ∀ i : grid1.Coords, EltTy.bits .i32 = 32 ∨ (Rect.block (s := S1x4194304) S1x131072.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5x33.size a ≤ S5x33.size a
  hwx1_2 : ∀ i : grid1.Coords, EltTy.bits .f32 = 32 ∨ (Rect.block (s := S5x33) S5x33.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x33.size a ≤ S2x1x33.size a
  hwx1_3 : ∀ i : grid1.Coords, EltTy.bits .f32 = 32 ∨ (Rect.block (s := S2x1x33) S1x1x33.size (cc1_transform_3 i) (hinb1_3 i)).WholeWords (EltTy.packing .f32)

variable [Facts₀]

def dot_S5x131072_S33x131072_S5x33_1_1_0_0_n_n : DotDims S5x131072 S33x131072 S5x33 where
  lhsContracting := [1]
  rhsContracting := [1]
  lhsNonContracting := [0]
  rhsNonContracting := [0]
  lhsBatch := []
  rhsBatch := []
  wf := dot_S5x131072_S33x131072_S5x33_1_1_0_0_n_n_wf
def dot_S1x131072_S33x131072_S1x33_1_1_0_0_n_n : DotDims S1x131072 S33x131072 S1x33 where
  lhsContracting := [1]
  rhsContracting := [1]
  lhsNonContracting := [0]
  rhsNonContracting := [0]
  lhsBatch := []
  rhsBatch := []
  wf := dot_S1x131072_S33x131072_S1x33_1_1_0_0_n_n_wf
def dot_S5x33_S33x131072_S5x131072_1_0_0_1_n_n : DotDims S5x33 S33x131072 S5x131072 where
  lhsContracting := [1]
  rhsContracting := [0]
  lhsNonContracting := [0]
  rhsNonContracting := [1]
  lhsBatch := []
  rhsBatch := []
  wf := dot_S5x33_S33x131072_S5x131072_1_0_0_1_n_n_wf

abbrev win0_0 : Pipeline.Window sig grid0 :=
  Pipeline.Window.ofSpec (Memref.whole main_v0) S5x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x131072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x5x33.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x1x33.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S5x131072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x131072.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S5x33.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x1x33.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1x5x4194304 : Shape := ⟨3, ![1, 5, 4194304]⟩
abbrev S1x4194304 : Shape := ⟨2, ![1, 4194304]⟩
abbrev S5x4194304 : Shape := ⟨2, ![5, 4194304]⟩
abbrev S4194304 : Shape := ⟨1, ![4194304]⟩
abbrev S_ : Shape := ⟨0, ![]⟩
abbrev S33 : Shape := ⟨1, ![33]⟩
abbrev S4194304x1 : Shape := ⟨2, ![4194304, 1]⟩
abbrev S4194304x5 : Shape := ⟨2, ![4194304, 5]⟩
abbrev S33x5 : Shape := ⟨2, ![33, 5]⟩
abbrev S33x1 : Shape := ⟨2, ![33, 1]⟩
abbrev S33x1x5 : Shape := ⟨3, ![33, 1, 5]⟩
abbrev S1x33x5 : Shape := ⟨3, ![1, 33, 5]⟩
abbrev S33x33x5 : Shape := ⟨3, ![33, 33, 5]⟩
abbrev S33x33 : Shape := ⟨2, ![33, 33]⟩
abbrev S1x33 : Shape := ⟨2, ![1, 33]⟩

abbrev nBuf : Space → Nat
  | .hbm => 140
  | .vmem => 0
  | .smem => 0
  | _ => 0

abbrev hbmTy0_0 (i : Nat) : BufTy := match i % 128 with
  | 0 => ⟨S1x5x4194304, .f32⟩
  | 1 => ⟨S1x4194304, .i32⟩
  | 2 => ⟨S5x4194304, .f32⟩
  | 3 => ⟨S4194304, .i32⟩
  | 4 => ⟨S_, .f32⟩
  | 5 => ⟨S4194304, .f32⟩
  | 6 => ⟨S_, .f32⟩
  | 7 => ⟨S33, .f32⟩
  | 8 => ⟨S4194304x1, .i32⟩
  | 9 => ⟨S33, .f32⟩
  | 10 => ⟨S4194304x5, .f32⟩
  | 11 => ⟨S_, .f32⟩
  | 12 => ⟨S33x5, .f32⟩
  | 13 => ⟨S4194304x1, .i32⟩
  | 14 => ⟨S33x5, .f32⟩
  | 15 => ⟨S_, .f32⟩
  | 16 => ⟨S33, .f32⟩
  | 17 => ⟨S33, .f32⟩
  | 18 => ⟨S33x1, .f32⟩
  | 19 => ⟨S33x5, .f32⟩
  | 20 => ⟨S33x5, .f32⟩
  | 21 => ⟨S_, .f32⟩
  | 22 => ⟨S33, .f32⟩
  | 23 => ⟨S33, .i1⟩
  | 24 => ⟨S33, .i32⟩
  | 25 => ⟨S_, .i32⟩
  | 26 => ⟨S33, .i32⟩
  | 27 => ⟨S33, .i1⟩
  | 28 => ⟨S33, .i1⟩
  | 29 => ⟨S_, .i32⟩
  | 30 => ⟨S4194304, .i32⟩
  | 31 => ⟨S4194304, .i1⟩
  | 32 => ⟨S4194304x1, .i1⟩
  | 33 => ⟨S_, .i32⟩
  | 34 => ⟨S4194304, .i32⟩
  | 35 => ⟨S4194304, .i1⟩
  | 36 => ⟨S_, .i32⟩
  | 37 => ⟨S4194304, .i32⟩
  | 38 => ⟨S4194304, .i32⟩
  | 39 => ⟨S4194304, .i32⟩
  | 40 => ⟨S4194304x1, .i32⟩
  | 41 => ⟨S4194304x5, .f32⟩
  | 42 => ⟨S_, .f32⟩
  | 43 => ⟨S_, .f32⟩
  | 44 => ⟨S4194304x5, .i1⟩
  | 45 => ⟨S4194304x5, .f32⟩
  | 46 => ⟨S4194304x5, .f32⟩
  | 47 => ⟨S5x4194304, .f32⟩
  | 48 => ⟨S5x4194304, .f32⟩
  | 49 => ⟨S5x4194304, .f32⟩
  | 50 => ⟨S_, .f32⟩
  | 51 => ⟨S4194304, .f32⟩
  | 52 => ⟨S_, .f32⟩
  | 53 => ⟨S4194304, .f32⟩
  | 54 => ⟨S4194304, .f32⟩
  | 55 => ⟨S_, .f32⟩
  | 56 => ⟨S4194304, .f32⟩
  | 57 => ⟨S4194304, .f32⟩
  | 58 => ⟨S4194304, .f32⟩
  | 59 => ⟨S_, .f32⟩
  | 60 => ⟨S33, .f32⟩
  | 61 => ⟨S4194304x1, .i32⟩
  | 62 => ⟨S33, .f32⟩
  | 63 => ⟨S33, .f32⟩
  | 64 => ⟨S33, .f32⟩
  | 65 => ⟨S_, .f32⟩
  | 66 => ⟨S_, .f32⟩
  | 67 => ⟨S_, .f32⟩
  | 68 => ⟨S_, .f32⟩
  | 69 => ⟨S33, .f32⟩
  | 70 => ⟨S33, .f32⟩
  | 71 => ⟨S_, .f32⟩
  | 72 => ⟨S_, .f32⟩
  | 73 => ⟨S_, .f32⟩
  | 74 => ⟨S33x1, .i1⟩
  | 75 => ⟨S_, .f32⟩
  | 76 => ⟨S_, .f32⟩
  | 77 => ⟨S33x5, .i1⟩
  | 78 => ⟨S33x5, .f32⟩
  | 79 => ⟨S33x5, .f32⟩
  | 80 => ⟨S33x1x5, .f32⟩
  | 81 => ⟨S1x33x5, .f32⟩
  | 82 => ⟨S33x33x5, .f32⟩
  | 83 => ⟨S33x33x5, .f32⟩
  | 84 => ⟨S33x33x5, .f32⟩
  | 85 => ⟨S33x33x5, .f32⟩
  | 86 => ⟨S_, .f32⟩
  | 87 => ⟨S33x33, .f32⟩
  | 88 => ⟨S33x1, .i1⟩
  | 89 => ⟨S1x33, .i1⟩
  | 90 => ⟨S33x33, .i1⟩
  | 91 => ⟨S33x33, .i1⟩
  | 92 => ⟨S33x33, .i1⟩
  | 93 => ⟨S33x33, .i32⟩
  | 94 => ⟨S33x33, .i32⟩
  | 95 => ⟨S_, .i32⟩
  | 96 => ⟨S33x33, .i32⟩
  | 97 => ⟨S33x33, .i32⟩
  | 98 => ⟨S33x33, .i1⟩
  | 99 => ⟨S33x33, .i1⟩
  | 100 => ⟨S33x33, .i1⟩
  | 101 => ⟨S_, .f32⟩
  | 102 => ⟨S33x33, .f32⟩
  | 103 => ⟨S33x33, .f32⟩
  | 104 => ⟨S_, .f32⟩
  | 105 => ⟨S33x33, .f32⟩
  | 106 => ⟨S33x33, .f32⟩
  | 107 => ⟨S33x33, .f32⟩
  | 108 => ⟨S33, .f32⟩
  | 109 => ⟨S_, .f32⟩
  | 110 => ⟨S_, .f32⟩
  | 111 => ⟨S_, .f32⟩
  | 112 => ⟨S_, .f32⟩
  | 113 => ⟨S33x33, .f32⟩
  | 114 => ⟨S33x33, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S33x5, .f32⟩
  | 122 => ⟨S_, .f32⟩
  | 123 => ⟨S33, .f32⟩
  | 124 => ⟨S_, .f32⟩
  | 125 => ⟨S_, .f32⟩
  | 126 => ⟨S33, .f32⟩
  | 127 => ⟨S33, .f32⟩
  | _ => ⟨S1x5x4194304, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | _ => ⟨S1x5x4194304, .f32⟩

abbrev hbmTy (i : Nat) : BufTy := match i / 128 with
  | 0 => hbmTy0_0 i
  | 1 => hbmTy0_1 i
  | _ => ⟨S1x5x4194304, .f32⟩

abbrev bufTy : (tb : Table) → Fin (tcTables nBuf tb) → BufTy
  | .hbm, ⟨i, _⟩ => hbmTy i
  | _, _ => ⟨S1x5x4194304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_5 : Ref sig .tc := ⟨.hbm, 33, rfl⟩
abbrev main_v24 : Ref sig .tc := ⟨.hbm, 34, rfl⟩
abbrev main_v25 : Ref sig .tc := ⟨.hbm, 35, rfl⟩
abbrev main_c_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_cst_13 : Ref sig .tc := ⟨.hbm, 67, rfl⟩
abbrev main_call1_v0 : Ref sig .tc := ⟨.hbm, 68, rfl⟩
abbrev main_call1_v1 : Ref sig .tc := ⟨.hbm, 69, rfl⟩
abbrev main_v47 : Ref sig .tc := ⟨.hbm, 70, rfl⟩
abbrev main_cst_14 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_15 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_16 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_17 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_18 : Ref sig .tc := ⟨.hbm, 101, rfl⟩
abbrev main_v71 : Ref sig .tc := ⟨.hbm, 102, rfl⟩
abbrev main_v72 : Ref sig .tc := ⟨.hbm, 103, rfl⟩
abbrev main_cst_19 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_20 : Ref sig .tc := ⟨.hbm, 109, rfl⟩
abbrev main_v77 : Ref sig .tc := ⟨.hbm, 110, rfl⟩
abbrev main_cst_21 : Ref sig .tc := ⟨.hbm, 111, rfl⟩
abbrev main_call3_v0 : Ref sig .tc := ⟨.hbm, 112, rfl⟩
abbrev main_call3_v1 : Ref sig .tc := ⟨.hbm, 113, rfl⟩
abbrev main_v78 : Ref sig .tc := ⟨.hbm, 114, rfl⟩
abbrev main_cst_22 : Ref sig .tc := ⟨.hbm, 115, rfl⟩
abbrev main_v79 : Ref sig .tc := ⟨.hbm, 116, rfl⟩
abbrev main_cst_23 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_24 : Ref sig .tc := ⟨.hbm, 122, rfl⟩
abbrev main_v84 : Ref sig .tc := ⟨.hbm, 123, rfl⟩
abbrev main_cst_25 : Ref sig .tc := ⟨.hbm, 124, rfl⟩
abbrev main_call4_v0 : Ref sig .tc := ⟨.hbm, 125, rfl⟩
abbrev main_call4_v1 : Ref sig .tc := ⟨.hbm, 126, rfl⟩
abbrev main_v85 : Ref sig .tc := ⟨.hbm, 127, rfl⟩
abbrev main_cst_26 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_27 : Ref sig .tc := ⟨.hbm, 132, rfl⟩
abbrev main_v89 : Ref sig .tc := ⟨.hbm, 133, rfl⟩
abbrev main_cst_28 : Ref sig .tc := ⟨.hbm, 134, rfl⟩
abbrev main_v90 : Ref sig .tc := ⟨.hbm, 135, rfl⟩
abbrev main_v91 : Ref sig .tc := ⟨.hbm, 136, rfl⟩
abbrev main_cst_29 : Ref sig .tc := ⟨.hbm, 137, rfl⟩
abbrev main_v92 : Ref sig .tc := ⟨.hbm, 138, rfl⟩
abbrev main_v93 : Ref sig .tc := ⟨.hbm, 139, rfl⟩

abbrev nD : Nat := 1
abbrev τ : Topo := Topo.v7x

variable {F : FTy → Type} [FloatOps F]

class Facts₀ : Prop where
  shapeCasts_S1x5x4194304_S5x4194304 : S1x5x4194304.ShapeCasts S5x4194304
  shapeCasts_S1x4194304_S4194304 : S1x4194304.ShapeCasts S4194304
  bcast_S_S4194304 : S_.BroadcastsInDim S4194304 (![] : Fin 0 → Fin S4194304.rank)
  bcast_S_S33 : S_.BroadcastsInDim S33 (![] : Fin 0 → Fin S33.rank)
  bcast_S4194304_S4194304x1_0 : S4194304.BroadcastsInDim S4194304x1 (![0] : Fin 1 → Fin S4194304x1.rank)
  transposes_S5x4194304_S4194304x5_1_0 : S5x4194304.Transposes [1, 0] S4194304x5
  bcast_S_S33x5 : S_.BroadcastsInDim S33x5 (![] : Fin 0 → Fin S33x5.rank)
  bcast_S33_S33x1_0 : S33.BroadcastsInDim S33x1 (![0] : Fin 1 → Fin S33x1.rank)
  bcast_S33x1_S33x5_0_1 : S33x1.BroadcastsInDim S33x5 (![0, 1] : Fin 2 → Fin S33x5.rank)
  bcast_S4194304x1_S4194304x5_0_1 : S4194304x1.BroadcastsInDim S4194304x5 (![0, 1] : Fin 2 → Fin S4194304x5.rank)
  bcast_S_S4194304x5 : S_.BroadcastsInDim S4194304x5 (![] : Fin 0 → Fin S4194304x5.rank)
  transposes_S4194304x5_S5x4194304_1_0 : S4194304x5.Transposes [1, 0] S5x4194304
  reducesTo_S5x4194304_S4194304_d0 : S5x4194304.ReducesTo [0] S4194304
  h_S_ : 0 < S_.numel
  reducesTo_S33_S_d0 : S33.ReducesTo [0] S_
  bcast_S33x5_S33x1x5_0_2 : S33x5.BroadcastsInDim S33x1x5 (![0, 2] : Fin 2 → Fin S33x1x5.rank)
  bcast_S33x5_S1x33x5_1_2 : S33x5.BroadcastsInDim S1x33x5 (![1, 2] : Fin 2 → Fin S1x33x5.rank)
  bcast_S33x1x5_S33x33x5_0_1_2 : S33x1x5.BroadcastsInDim S33x33x5 (![0, 1, 2] : Fin 3 → Fin S33x33x5.rank)
  bcast_S1x33x5_S33x33x5_0_1_2 : S1x33x5.BroadcastsInDim S33x33x5 (![0, 1, 2] : Fin 3 → Fin S33x33x5.rank)
  reducesTo_S33x33x5_S33x33_d2 : S33x33x5.ReducesTo [2] S33x33
  bcast_S33_S1x33_1 : S33.BroadcastsInDim S1x33 (![1] : Fin 1 → Fin S1x33.rank)
  bcast_S33x1_S33x33_0_1 : S33x1.BroadcastsInDim S33x33 (![0, 1] : Fin 2 → Fin S33x33.rank)
  bcast_S1x33_S33x33_0_1 : S1x33.BroadcastsInDim S33x33 (![0, 1] : Fin 2 → Fin S33x33.rank)
  bcast_S_S33x33 : S_.BroadcastsInDim S33x33 (![] : Fin 0 → Fin S33x33.rank)
  reducesTo_S33x33_S_d0_1 : S33x33.ReducesTo [0, 1] S_
  reducesTo_S33x5_S33_d1 : S33x5.ReducesTo [1] S33
  scatter_S33_S4194304x1_S4194304_n_0_0_1_wf : ScatterDims.WF S33 S4194304x1 S4194304 [] [0] [0] 1
  scatter_S33x5_S4194304x1_S4194304x5_1_0_0_1_wf : ScatterDims.WF S33x5 S4194304x1 S4194304x5 [1] [0] [0] 1
  gather_S33x5_S4194304x1_S4194304x5_1_0_n_n_0_1_15_wf : GatherDims.WF S33x5 S4194304x1 S4194304x5 [1] [0] [] [0] [] 1 ![1, 5]

variable [Facts₀]

def scatter_S33_S4194304x1_S4194304_n_0_0_1 : ScatterDims S33 S4194304x1 S4194304 where
  updateWindowDims := []
  insertedWindowDims := [0]
  scatterDimsToOperandDims := [0]
  indexVectorDim := 1
  wf := scatter_S33_S4194304x1_S4194304_n_0_0_1_wf
def scatter_S33x5_S4194304x1_S4194304x5_1_0_0_1 : ScatterDims S33x5 S4194304x1 S4194304x5 where
  updateWindowDims := [1]
  insertedWindowDims := [0]
  scatterDimsToOperandDims := [0]
  indexVectorDim := 1
  wf := scatter_S33x5_S4194304x1_S4194304x5_1_0_0_1_wf
def gather_S33x5_S4194304x1_S4194304x5_1_0_n_n_0_1_15 : GatherDims S33x5 S4194304x1 S4194304x5 where
  offsetDims := [1]
  collapsedSliceDims := [0]
  operandBatchingDims := []
  startIndicesBatchingDims := []
  startIndexMap := [0]
  indexVectorDim := 1
  sliceSizes := ![1, 5]
  wf := gather_S33x5_S4194304x1_S4194304x5_1_0_n_n_0_1_15_wf

class Facts : Prop extends Facts₀ where

variable [Facts]
-- ==== Proof.Spec.lean ====
/-
  The mathematics both programs compute, over the extended reals, with every operation exact.

  Points are numbered 0 … 4194303, each with five features and an integer label; classes are 0 … 32 and class 0 is
  background. A point belongs to class `k` when its label, read as a signed integer, is `k`; a label outside 0 … 32
  belongs to no class. From the per-class counts, feature sums and variance sums the loss is
  `1 · var + 1 · dist + 0.001 · reg`:
    var  — the mean over present classes of the non-background classes' variance sums divided by their counts,
    dist — the pairwise hinge `max(3 − ‖mean_i − mean_j‖₁, 0)²` over ordered pairs of distinct present non-background classes,
    reg  — the mean L1 norm of the present non-background classes' means, divided once more by their number.
  Divisions by a zero count of classes are the instance's `Ideal.div` on both sides alike.
-/
import Idealize.ShloMosaic.PureOps.Ideal
import Idealize.ShloMosaic.PureOps.Ideal.Laws
import Idealize.ShloMosaic.Lib.ValueIdx

open scoped BigOperators

noncomputable section

namespace Cert.Proof.Spec

open Idealize.ShloMosaic

/-- The number of points. -/
abbrev NPts : Nat := 4194304

/-- The float literals of the two programs, each the exact value of its word. -/
def zeroF : EReal := FloatOps.ofBits (F := Ideal) .f32 0x00000000#32
def oneF : EReal := FloatOps.ofBits (F := Ideal) .f32 0x3F800000#32
def halfF : EReal := FloatOps.ofBits (F := Ideal) .f32 0x3F000000#32
def threeF : EReal := FloatOps.ofBits (F := Ideal) .f32 0x40400000#32
def milliF : EReal := FloatOps.ofBits (F := Ideal) .f32 0x3A83126F#32

/-- Class `k` as a 32-bit word. -/
abbrev cls (k : Fin 33) : BitVec 32 := BitVec.ofNat 32 k.val

/-- The one-hot entry of a label word `l` at class `k`: both converted exactly to reals, compared for equality, the
    one-bit answer widened and converted back: `1` when the label read signed is `k`, else `0`. -/
def hot (l : BitVec 32) (k : Fin 33) : EReal :=
  FloatOps.sitofp (F := Ideal) .f32
    ((FloatOps.cmpf (F := Ideal) (φ := .bf16) .oeq (FloatOps.sitofp (F := Ideal) .bf16 (cls k))
      (FloatOps.sitofp (F := Ideal) .bf16 l)).setWidth 32)

/-! ## The loss as a function of the three aggregates -/

section Loss

variable (cnt : Fin 33 → EReal) (sm : Fin 33 → Fin 5 → EReal) (vs : Fin 33 → EReal)

/-- Class `k` has a point. -/
def present (k : Fin 33) : BitVec 1 := FloatOps.cmpf (F := Ideal) (φ := .f32) .ogt (cnt k) zeroF
/-- Class `k` is not the background class. -/
def notBg (k : Fin 33) : BitVec 1 := IntOp.cmpi .ne (cls k) 0#32
/-- Class `k` is present and not background. -/
def nz (k : Fin 33) : BitVec 1 := IntOp.andi (present cnt k) (notBg k)
/-- The count, at least one. -/
def safe (k : Fin 33) : EReal := max (cnt k) oneF
/-- The class mean of feature `f`. -/
def mean (k : Fin 33) (f : Fin 5) : EReal := Ideal.div (sm k f) (safe cnt k)
/-- The mean, zeroed outside the present non-background classes. -/
def ms (k : Fin 33) (f : Fin 5) : EReal := Scalar.select (nz cnt k) (mean cnt sm k f) zeroF
/-- The class variance: its variance sum over its count. -/
def cvar (k : Fin 33) : EReal := Ideal.div (vs k) (safe cnt k)
/-- The number of present classes, background included. -/
def nUnique : EReal := zeroF + ∑ k : Fin 33, FloatOps.uitofp (F := Ideal) .f32 (present cnt k)
/-- The number of present non-background classes. -/
def nC : EReal := zeroF + ∑ k : Fin 33, FloatOps.uitofp (F := Ideal) .f32 (nz cnt k)
def varTerm : EReal :=
  Ideal.div (zeroF + ∑ k : Fin 33, Scalar.select (nz cnt k) (cvar cnt vs k) zeroF) (nUnique cnt)
/-- The L1 distance of two classes' zeroed means. -/
def dist (i j : Fin 33) : EReal := zeroF + ∑ f : Fin 5, FloatOps.absf (F := Ideal) (φ := .f32) (ms cnt sm i f - ms cnt sm j f)
/-- `i ≠ j`, as the programs test it on class words. -/
def offDiag (i j : Fin 33) : BitVec 1 := ~~~(IntOp.cmpi .eq (IntOp.addi (cls i) 0#32) (cls j))
def pairMask (i j : Fin 33) : BitVec 1 := IntOp.andi (IntOp.andi (nz cnt i) (nz cnt j)) (offDiag i j)
def hinge (i j : Fin 33) : EReal :=
  max (threeF - dist cnt sm i j) zeroF * max (threeF - dist cnt sm i j) zeroF
def distTerm : EReal :=
  Ideal.div (zeroF + ∑ i : Fin 33, ∑ j : Fin 33, Scalar.select (pairMask cnt i j) (hinge cnt sm i j) zeroF)
    (nC cnt * (nC cnt - oneF))
def regTerm : EReal :=
  Ideal.div (Ideal.div (zeroF + ∑ k : Fin 33, Scalar.select (nz cnt k)
    (zeroF + ∑ f : Fin 5, FloatOps.absf (F := Ideal) (φ := .f32) (ms cnt sm k f)) zeroF) (nC cnt)) (nC cnt)
/-- The loss. -/
def loss : EReal := (oneF * varTerm cnt vs + oneF * distTerm cnt sm) + milliF * regTerm cnt sm

end Loss

/-! ## The aggregates over the points -/

section Points

variable (X : Fin 5 → Fin NPts → EReal) (L : Fin NPts → BitVec 32)

/-- A point's variance contribution given the table `M` of zeroed class means (feature, class): the hinge
    `max(‖x − mean of its own class‖₁ − 0.5, 0)²`, the own-class mean picked by the one-hot row. -/
def varOf (M : Fin 5 → Fin 33 → EReal) (n : Fin NPts) : EReal :=
  max ((∑ f : Fin 5, FloatOps.absf (F := Ideal) (φ := .f32) (X f n - ∑ k : Fin 33, M f k * hot (L n) k)) - halfF) zeroF
    * max ((∑ f : Fin 5, FloatOps.absf (F := Ideal) (φ := .f32) (X f n - ∑ k : Fin 33, M f k * hot (L n) k)) - halfF) zeroF

/-- The count of class `k`. -/
def cntS (k : Fin 33) : EReal := ∑ n : Fin NPts, hot (L n) k
/-- The feature sums of class `k`. -/
def smS (k : Fin 33) (f : Fin 5) : EReal := ∑ n : Fin NPts, X f n * hot (L n) k
/-- The class means with the background column zeroed by a 0/1 factor (feature, class). -/
def mmS (f : Fin 5) (k : Fin 33) : EReal :=
  mean (cntS L) (smS X L) k f * FloatOps.uitofp (F := Ideal) .f32 (notBg k)
/-- The variance sum of class `k`. -/
def vsS (k : Fin 33) : EReal := ∑ n : Fin NPts, varOf X L (mmS X L) n * hot (L n) k

/-- The loss of the points. -/
def lossS : EReal := loss (cntS L) (smS X L) (vsS X L)

end Points

/-! ## The points in blocks

  The kernel walks the points in 32 blocks of 131072, the first sixteen on one core and the last sixteen on the
  other, and keeps one partial aggregate per core. -/

/-- Block `i` of core `c'`. -/
def pt (c' : Fin 2) (i : Fin 16) : Fin 32 := ⟨c'.val * 16 + i.val, by omega⟩
/-- Point `n` of block `t`. -/
def gidx (t : Fin 32) (n : Fin 131072) : Fin NPts := ⟨t.val * 131072 + n.val, by have := t.isLt; have := n.isLt; show t.val * 131072 + n.val < 4194304; omega⟩
/-- One core's partial sum of a per-point quantity: over its sixteen blocks, over each block's points. -/
def blockSum (g : Fin NPts → EReal) (c' : Fin 2) : EReal := ∑ i : Fin 16, ∑ n : Fin 131072, g (gidx (pt c' i) n)

/-! ## The aggregates as a scatter forms them

  A scatter-add into 33 slots lands point `e`'s update on slot `k` exactly when `e`'s label read signed is `k`; a gather
  of a row of a 33-row table by a label first wraps a negative label by 33 and then clamps it into 0 … 32. -/

section Scattered

variable (X : Fin 5 → Fin NPts → EReal) (L : Fin NPts → BitVec 32)

/-- The points of class `k`. -/
def members (k : Fin 33) : Finset (Fin NPts) := Finset.univ.filter fun e : Fin NPts => (L e).toInt = (k.val : Int)
/-- The label as the gather's index: a negative one wrapped by 33. -/
def wrapIdx (l : BitVec 32) : BitVec 32 := Scalar.select (IntOp.cmpi .slt l 0#32) (IntOp.addi l 33#32) l
/-- The table row the gather reads for a label: the wrapped index read signed and clamped into 0 … 32. -/
def rowOf (l : BitVec 32) : Fin 33 := ⟨min (wrapIdx l).toInt.toNat 32, by omega⟩
/-- A point's variance contribution given the table `T` of class means (class, feature): its own class's row, gathered
    by its label and zeroed at a background label. -/
def varR (T : Fin 33 → Fin 5 → EReal) (n : Fin NPts) : EReal :=
  max ((zeroF + ∑ f : Fin 5, FloatOps.absf (F := Ideal) (φ := .f32)
      (X f n - Scalar.select (IntOp.cmpi .ne (L n) 0#32) (T (rowOf (L n)) f) zeroF)) - halfF) zeroF
    * max ((zeroF + ∑ f : Fin 5, FloatOps.absf (F := Ideal) (φ := .f32)
      (X f n - Scalar.select (IntOp.cmpi .ne (L n) 0#32) (T (rowOf (L n)) f) zeroF)) - halfF) zeroF
def cntR (k : Fin 33) : EReal := zeroF + ∑ _e ∈ members L k, oneF
def smR (k : Fin 33) (f : Fin 5) : EReal := zeroF + ∑ e ∈ members L k, X f e
def vsR (k : Fin 33) : EReal := zeroF + ∑ e ∈ members L k, varR X L (mean (cntR L) (smR X L)) e
/-- The loss of the points, from the scattered aggregates. -/
def lossR : EReal := loss (cntR L) (smR X L) (vsR X L)

end Scattered

/-- The word `1.0` in the 16-bit format, the entry of the row of ones the kernel multiplies the one-hot matrix by. -/
def oneB : EReal := FloatOps.ofBits (F := Ideal) .bf16 0x3F80#16

end Cert.Proof.Spec

end
-- ==== Proof.KDefs.lean ====
/-
  The kernel's arrays read as the mathematics' tables: the features, the labels and the table of zeroed means as a
  region finds them in the buffer contents `V` at its entry; each region's result arrays after its run; and the three
  aggregates the host forms by adding the two cores' partial results.
-/
import proofs.«422653_j65403761984267_3_alg».proof.Proof.Gen.KernelIdeal.Frame
import proofs.«422653_j65403761984267_3_alg».proof.Proof.Spec
import Idealize.ShloMosaic.Lib.ValueIdx

open scoped BigOperators

noncomputable section

namespace Cert.KernelIdeal.KV

open Cert.KernelIdeal Cert.KernelIdeal.Gen Cert.Proof.Spec
open Idealize.ShloMosaic Idealize.ShloMosaic.ValueIdx Idealize.ShloMosaic.TcCoe Idealize.SL.Sem
open Idealize.ShloMosaic.Pipeline (Dat)

section AtEntry

variable (V : (c : Dev nD) → (b : Ref sig .tc) → Buf (Elt Ideal) ((c : Thread nD τ).loc b))

/-- Feature `f` of point `n`: the reshaped feature array at `(f, n)`. -/
def Xof (c : Dev nD) (f : Fin 5) (n : Fin NPts) : EReal := (V c main_v0 : S5x4194304.Idx → EReal) (ix2 f n)
/-- The label word of point `n`: the one-row label array at `(0, n)`. -/
def Lof (c : Dev nD) (n : Fin NPts) : BitVec 32 := (V c main_v2 : S1x4194304.Idx → BitVec 32) (ix2 (0 : Fin 1) n)
/-- The table of zeroed class means the second region reads, at (feature, class). -/
def Mof (c : Dev nD) (f : Fin 5) (k : Fin 33) : EReal := (V c main_v30 : S5x33.Idx → EReal) (ix2 f k)

/-- The first region's first result array (per core, feature, class) after its run from the entry contents `V`. -/
def sumsArr (c : Dev nD) : S2x5x33.Idx → EReal := (dat0 (F := Ideal) V c).arrAt 2 cfg0.N
/-- The first region's second result array (per core, one row, class). -/
def cntsArr (c : Dev nD) : S2x1x33.Idx → EReal := (dat0 (F := Ideal) V c).arrAt 3 cfg0.N
/-- The second region's result array (per core, one row, class). -/
def varsArr (c : Dev nD) : S2x1x33.Idx → EReal := (dat1 (F := Ideal) V c).arrAt 3 cfg1.N

end AtEntry

section Aggregates

variable (m : (ℓ : Loc nD τ sig) → Buf (Elt Ideal) ℓ) (ρ : Dev nD → PrngReg)

/-- Class `k`'s count: the two cores' partial counts added. -/
def cntK (c : Dev nD) (k : Fin 33) : EReal :=
  cntsArr (V1 m ρ) c (ix3 (0 : Fin 2) (0 : Fin 1) k) + cntsArr (V1 m ρ) c (ix3 (1 : Fin 2) (0 : Fin 1) k)
/-- Class `k`'s feature sums: the two cores' partial sums added. -/
def smK (c : Dev nD) (k : Fin 33) (f : Fin 5) : EReal :=
  sumsArr (V1 m ρ) c (ix3 (0 : Fin 2) f k) + sumsArr (V1 m ρ) c (ix3 (1 : Fin 2) f k)
/-- Class `k`'s variance sum: the two cores' partial variance sums added. -/
def vsK (c : Dev nD) (k : Fin 33) : EReal :=
  varsArr (V3 m ρ) c (ix3 (0 : Fin 2) (0 : Fin 1) k) + varsArr (V3 m ρ) c (ix3 (1 : Fin 2) (0 : Fin 1) k)
/-- The result buffer after the last host operation. -/
def resVal (c : Dev nD) : S_.Idx → EReal := W11 m ρ c (Proc.devRef .tc main_v88)

end Aggregates

end Cert.KernelIdeal.KV

end
-- ==== Proof.KReg0.lean ====
/-
  The first region's two result arrays: per core, the feature sums and the counts of each class over that core's
  sixteen blocks of points.

  A point of the grid (2, 16) is t = 16 c' + i. It reads block column t of the features [5, 4194304] and of the labels
  [1, 4194304], forms the one-hot matrix of its 131072 labels against the 33 classes, and adds to a [1, 5, 33] block the
  product of the features with the transposed one-hot matrix and to a [1, 1, 33] block the product of a row of ones with
  it; at i = 0 both blocks are first set to zero, and after i = 15 they are written back as block c' of the result arrays.
  So after point t each block holds, entry by entry, the sum over the blocks 16 c', …, t of that block's contribution
  (by induction on t), the block written back for core c' is the sum over its sixteen blocks, and the two written-back
  blocks cover the result arrays. Addition of extended reals is associative and commutative and zero is neutral, which is
  all the re-grouping uses.
-/
import proofs.«422653_j65403761984267_3_alg».proof.Proof.KDefs
import Idealize.ShloMosaic.Lib.Pipeline.Value
import Idealize.ShloMosaic.PureOps.Ideal.Laws
import Idealize.ShloMosaic.Lib.ValueLayout
import Idealize.ShloMosaic.Lib.Tactic

open scoped BigOperators

noncomputable section

namespace Cert.KernelIdeal.KV

open Cert.KernelIdeal Cert.KernelIdeal.Gen Cert.Proof.Spec
open Idealize.ShloMosaic Idealize.ShloMosaic.ValueIdx Idealize.ShloMosaic.TcCoe Idealize.SL.Sem
open Idealize.ShloMosaic.Pipeline (Dat)

namespace Reg0

/-! ## What each case of the body leaves in the two blocks -/

variable {F : FTy → Type} [FloatOps F]

/-- The zero offsets of a whole block, as the stores and loads spell them. -/
theorem off3_zero : (![0, 0, 0] : Fin 3 → Nat) = fun _ => 0 := funext fun a => by fin_cases a <;> rfl
theorem off2_zero : (![0, 0] : Fin 2 → Nat) = fun _ => 0 := funext fun a => by fin_cases a <;> rfl

/-- At a later point of a core the body leaves in the feature-sum block its update of what the block held. -/
theorem sums_later_piece (c : Dev nD) (i : grid0.Coords) (a2 : Memref sig .tc .vmem S5x131072 .f32) (h2 : a2.IsWhole)
    (a3 : Memref sig .tc .vmem S1x131072 .i32) (h3 : a3.IsWhole) (a4 : Memref sig .tc .vmem S1x5x33 .f32) (h4 : a4.IsWhole)
    (a5 : Memref sig .tc .vmem S1x1x33 .f32) (h5 : a5.IsWhole) (hc : ¬cond0_0 i)
    (x0 : Vec F S5x131072 .f32) (x1 : Vec F S1x131072 .i32) (xo2 : Vec F S1x5x33 .f32) (xo3 : Vec F S1x1x33 .f32) :
    out0_B_2 c i a2 h2 a3 h3 a4 h4 a5 h5 hc x0 x1 xo2 xo3 = k0_pay4 x1 x0 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero off3_zero]
  simp only [View.readAt_eq_ld, h2.read_unread, h3.read_unread, h4.read_unread, View.ld_unit_zero (S := S1x5x33) off3_zero,
    View.ld_unit_zero (S := S5x131072) off2_zero, View.ld_unit_zero (S := S1x131072) off2_zero]

/-- At a later point of a core the body leaves in the count block its update of what the block held. -/
theorem cnts_later_piece (c : Dev nD) (i : grid0.Coords) (a2 : Memref sig .tc .vmem S5x131072 .f32) (h2 : a2.IsWhole)
    (a3 : Memref sig .tc .vmem S1x131072 .i32) (h3 : a3.IsWhole) (a4 : Memref sig .tc .vmem S1x5x33 .f32) (h4 : a4.IsWhole)
    (a5 : Memref sig .tc .vmem S1x1x33 .f32) (h5 : a5.IsWhole) (hc : ¬cond0_0 i)
    (x0 : Vec F S5x131072 .f32) (x1 : Vec F S1x131072 .i32) (xo2 : Vec F S1x5x33 .f32) (xo3 : Vec F S1x1x33 .f32) :
    out0_B_3 c i a2 h2 a3 h3 a4 h4 a5 h5 hc x0 x1 xo2 xo3 = k0_pay5 x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero off3_zero]
  simp only [View.readAt_eq_ld, h3.read_unread, h5.read_unread, View.ld_unit_zero (S := S1x1x33) off3_zero,
    View.ld_unit_zero (S := S1x131072) off2_zero]

/-- At the first point of a core the body stores the zero block, reads it back, and leaves its update of that. -/
theorem sums_first_piece (c : Dev nD) (i : grid0.Coords) (a2 : Memref sig .tc .vmem S5x131072 .f32) (h2 : a2.IsWhole)
    (a3 : Memref sig .tc .vmem S1x131072 .i32) (h3 : a3.IsWhole) (a4 : Memref sig .tc .vmem S1x5x33 .f32) (h4 : a4.IsWhole)
    (a5 : Memref sig .tc .vmem S1x1x33 .f32) (h5 : a5.IsWhole) (hc : cond0_0 i)
    (x0 : Vec F S5x131072 .f32) (x1 : Vec F S1x131072 .i32) :
    out0_A_2 c i a2 h2 a3 h3 a4 h4 a5 h5 hc x0 x1 = k0_pay4 x1 x0 (k0_pay1 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x5x33) off3_zero, View.readCov_unit_zero (S := S1x5x33) _ off3_zero]
  simp only [View.readAt_eq_ld, h2.read_unread, h3.read_unread, View.ld_unit_zero (S := S5x131072) off2_zero,
    View.ld_unit_zero (S := S1x131072) off2_zero]

/-- The same for the count block. -/
theorem cnts_first_piece (c : Dev nD) (i : grid0.Coords) (a2 : Memref sig .tc .vmem S5x131072 .f32) (h2 : a2.IsWhole)
    (a3 : Memref sig .tc .vmem S1x131072 .i32) (h3 : a3.IsWhole) (a4 : Memref sig .tc .vmem S1x5x33 .f32) (h4 : a4.IsWhole)
    (a5 : Memref sig .tc .vmem S1x1x33 .f32) (h5 : a5.IsWhole) (hc : cond0_0 i)
    (x0 : Vec F S5x131072 .f32) (x1 : Vec F S1x131072 .i32) :
    out0_A_3 c i a2 h2 a3 h3 a4 h4 a5 h5 hc x0 x1 = k0_pay5 x1 (k0_pay2 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x33) off3_zero, View.readCov_unit_zero (S := S1x1x33) _ off3_zero]
  simp only [View.readAt_eq_ld, h3.read_unread, View.ld_unit_zero (S := S1x131072) off2_zero]

/-! ## The updates at an entry, over the extended reals -/

/-- The one-hot matrix at (class, point). -/
theorem onehot_apply (lab : Vec Ideal S1x131072 .i32) (k : Fin 33) (n : Fin 131072) :
    k0_pay3 (F := Ideal) lab (ix2 k n) = hot (lab (ix2 (0 : Fin 1) n)) k := by
  have e1 : iota .tc S33x131072 32 [0] iota_S33x131072_d0_w32 (ix2 k n) = cls k :=
    iota_single_apply .tc S33x131072 32 0 iota_S33x131072_d0_w32 (ix2 k n)
  have e2 : broadcastTo S33x131072 (sitofp (F := Ideal) .bf16 (shapeCast S1x131072 lab shapeCasts_S1x131072_S1x131072))
      broadcasts_S1x131072_S33x131072 (ix2 k n) = FloatOps.sitofp (F := Ideal) .bf16 (lab (ix2 (0 : Fin 1) n)) := by
    refine (broadcastTo_1b_ab_apply _ _ k n).trans ?_
    rw [shapeCast_self]
    rfl
  unfold k0_pay3 hot
  simp only [truncf_apply, sitofp_apply, extui_apply, cmpf_apply, e1, e2]

theorem sumsDot_lhs_0 (i : S5x33.Idx) (q : dot_S5x131072_S33x131072_S5x33_1_1_0_0_n_n.contr.Idx) :
    (dot_S5x131072_S33x131072_S5x33_1_1_0_0_n_n.lhsIdx i q 0).val = (i 0).val := by
  unfold DotDims.lhsIdx
  rw [dif_neg (show ¬(0 : Fin S5x131072.rank) ∈ dot_S5x131072_S33x131072_S5x33_1_1_0_0_n_n.lhsBatch by decide), dif_pos (show (0 : Fin S5x131072.rank) ∈ dot_S5x131072_S33x131072_S5x33_1_1_0_0_n_n.lhsNonContracting by decide)]
  rfl
theorem sumsDot_lhs_1 (i : S5x33.Idx) (q : dot_S5x131072_S33x131072_S5x33_1_1_0_0_n_n.contr.Idx) :
    (dot_S5x131072_S33x131072_S5x33_1_1_0_0_n_n.lhsIdx i q 1).val = (q ⟨0, by decide⟩).val :=
  dot_S5x131072_S33x131072_S5x33_1_1_0_0_n_n.lhsIdx_val_of_single rfl i q
theorem sumsDot_rhs_0 (i : S5x33.Idx) (q : dot_S5x131072_S33x131072_S5x33_1_1_0_0_n_n.contr.Idx) :
    (dot_S5x131072_S33x131072_S5x33_1_1_0_0_n_n.rhsIdx i q 0).val = (i 1).val := by
  unfold DotDims.rhsIdx
  rw [dif_neg (show ¬(0 : Fin S33x131072.rank) ∈ dot_S5x131072_S33x131072_S5x33_1_1_0_0_n_n.rhsBatch by decide), dif_pos (show (0 : Fin S33x131072.rank) ∈ dot_S5x131072_S33x131072_S5x33_1_1_0_0_n_n.rhsNonContracting by decide)]
  rfl
theorem sumsDot_rhs_1 (i : S5x33.Idx) (q : dot_S5x131072_S33x131072_S5x33_1_1_0_0_n_n.contr.Idx) :
    (dot_S5x131072_S33x131072_S5x33_1_1_0_0_n_n.rhsIdx i q 1).val = (q ⟨0, by decide⟩).val :=
  dot_S5x131072_S33x131072_S5x33_1_1_0_0_n_n.rhsIdx_val_of_single rfl i q

/-- The product of a [5, 131072] matrix with the transpose of a [33, 131072] matrix into zeros, at (feature, class). -/
theorem sumsDot_apply (x : FVec Ideal S5x131072 .bf16) (y : FVec Ideal S33x131072 .bf16) (f : Fin 5) (k : Fin 33) :
    matmul dot_S5x131072_S33x131072_S5x33_1_1_0_0_n_n none x y (constant (F := Ideal) S5x33 .f32 0x00000000#32) (ix2 f k)
      = ∑ n : Fin 131072, x (ix2 f n) * y (ix2 k n) := by
  refine (Ideal.matmul_constant_zero_apply dot_S5x131072_S33x131072_S5x33_1_1_0_0_n_n none x y (ix2 f k)).trans ?_
  rw [← Equiv.sum_comp (contrEquiv1 dot_S5x131072_S33x131072_S5x33_1_1_0_0_n_n 131072 rfl rfl).symm]
  refine Finset.sum_congr rfl fun n _ => ?_
  have hk := contrEquiv1_symm_val dot_S5x131072_S33x131072_S5x33_1_1_0_0_n_n 131072 rfl rfl n
  have el : dot_S5x131072_S33x131072_S5x33_1_1_0_0_n_n.lhsIdx (ix2 f k) ((contrEquiv1 dot_S5x131072_S33x131072_S5x33_1_1_0_0_n_n 131072 rfl rfl).symm n) = ix2 f n :=
    funext fun a => Fin.ext (by
      match a with
      | ⟨0, _⟩ => exact sumsDot_lhs_0 _ _
      | ⟨1, _⟩ => exact (sumsDot_lhs_1 _ _).trans hk)
  have er : dot_S5x131072_S33x131072_S5x33_1_1_0_0_n_n.rhsIdx (ix2 f k) ((contrEquiv1 dot_S5x131072_S33x131072_S5x33_1_1_0_0_n_n 131072 rfl rfl).symm n) = ix2 k n :=
    funext fun a => Fin.ext (by
      match a with
      | ⟨0, _⟩ => exact sumsDot_rhs_0 _ _
      | ⟨1, _⟩ => exact (sumsDot_rhs_1 _ _).trans hk)
  rw [el, er]

theorem cntsDot_lhs_0 (i : S1x33.Idx) (q : dot_S1x131072_S33x131072_S1x33_1_1_0_0_n_n.contr.Idx) :
    (dot_S1x131072_S33x131072_S1x33_1_1_0_0_n_n.lhsIdx i q 0).val = (i 0).val := by
  unfold DotDims.lhsIdx
  rw [dif_neg (show ¬(0 : Fin S1x131072.rank) ∈ dot_S1x131072_S33x131072_S1x33_1_1_0_0_n_n.lhsBatch by decide), dif_pos (show (0 : Fin S1x131072.rank) ∈ dot_S1x131072_S33x131072_S1x33_1_1_0_0_n_n.lhsNonContracting by decide)]
  rfl
theorem cntsDot_lhs_1 (i : S1x33.Idx) (q : dot_S1x131072_S33x131072_S1x33_1_1_0_0_n_n.contr.Idx) :
    (dot_S1x131072_S33x131072_S1x33_1_1_0_0_n_n.lhsIdx i q 1).val = (q ⟨0, by decide⟩).val :=
  dot_S1x131072_S33x131072_S1x33_1_1_0_0_n_n.lhsIdx_val_of_single rfl i q
theorem cntsDot_rhs_0 (i : S1x33.Idx) (q : dot_S1x131072_S33x131072_S1x33_1_1_0_0_n_n.contr.Idx) :
    (dot_S1x131072_S33x131072_S1x33_1_1_0_0_n_n.rhsIdx i q 0).val = (i 1).val := by
  unfold DotDims.rhsIdx
  rw [dif_neg (show ¬(0 : Fin S33x131072.rank) ∈ dot_S1x131072_S33x131072_S1x33_1_1_0_0_n_n.rhsBatch by decide), dif_pos (show (0 : Fin S33x131072.rank) ∈ dot_S1x131072_S33x131072_S1x33_1_1_0_0_n_n.rhsNonContracting by decide)]
  rfl
theorem cntsDot_rhs_1 (i : S1x33.Idx) (q : dot_S1x131072_S33x131072_S1x33_1_1_0_0_n_n.contr.Idx) :
    (dot_S1x131072_S33x131072_S1x33_1_1_0_0_n_n.rhsIdx i q 1).val = (q ⟨0, by decide⟩).val :=
  dot_S1x131072_S33x131072_S1x33_1_1_0_0_n_n.rhsIdx_val_of_single rfl i q

/-- The product of a [1, 131072] row with the transpose of a [33, 131072] matrix into zeros, at (row, class). -/
theorem cntsDot_apply (x : FVec Ideal S1x131072 .bf16) (y : FVec Ideal S33x131072 .bf16) (r : Fin 1) (k : Fin 33) :
    matmul dot_S1x131072_S33x131072_S1x33_1_1_0_0_n_n none x y (constant (F := Ideal) S1x33 .f32 0x00000000#32) (ix2 r k)
      = ∑ n : Fin 131072, x (ix2 r n) * y (ix2 k n) := by
  refine (Ideal.matmul_constant_zero_apply dot_S1x131072_S33x131072_S1x33_1_1_0_0_n_n none x y (ix2 r k)).trans ?_
  rw [← Equiv.sum_comp (contrEquiv1 dot_S1x131072_S33x131072_S1x33_1_1_0_0_n_n 131072 rfl rfl).symm]
  refine Finset.sum_congr rfl fun n _ => ?_
  have hk := contrEquiv1_symm_val dot_S1x131072_S33x131072_S1x33_1_1_0_0_n_n 131072 rfl rfl n
  have el : dot_S1x131072_S33x131072_S1x33_1_1_0_0_n_n.lhsIdx (ix2 r k) ((contrEquiv1 dot_S1x131072_S33x131072_S1x33_1_1_0_0_n_n 131072 rfl rfl).symm n) = ix2 r n :=
    funext fun a => Fin.ext (by
      match a with
      | ⟨0, _⟩ => exact cntsDot_lhs_0 _ _
      | ⟨1, _⟩ => exact (cntsDot_lhs_1 _ _).trans hk)
  have er : dot_S1x131072_S33x131072_S1x33_1_1_0_0_n_n.rhsIdx (ix2 r k) ((contrEquiv1 dot_S1x131072_S33x131072_S1x33_1_1_0_0_n_n 131072 rfl rfl).symm n) = ix2 k n :=
    funext fun a => Fin.ext (by
      match a with
      | ⟨0, _⟩ => exact cntsDot_rhs_0 _ _
      | ⟨1, _⟩ => exact (cntsDot_rhs_1 _ _).trans hk)
  rw [el, er]

/-- The feature-sum update at (block row, feature, class): the accumulator there plus, over the block's points, the
    feature times the one-hot entry. -/
theorem sumsUpdate_apply (lab : Vec Ideal S1x131072 .i32) (x : Vec Ideal S5x131072 .f32) (acc : Vec Ideal S1x5x33 .f32)
    (u : Fin 1) (f : Fin 5) (k : Fin 33) :
    k0_pay4 (F := Ideal) lab x acc (ix3 u f k)
      = acc (ix3 u f k) + ∑ n : Fin 131072, x (ix2 f n) * hot (lab (ix2 (0 : Fin 1) n)) k := by
  unfold k0_pay4
  refine (addf_apply _ _ (ix3 u f k)).trans ?_
  refine congrArg₂ (· + ·) (congrFun (shapeCast_self acc shapeCasts_S1x5x33_S1x5x33) (ix3 u f k)) ?_
  refine (shapeCast_ab_1ab_apply _ shapeCasts_S5x33_S1x5x33 u f k).trans ?_
  refine (sumsDot_apply _ _ f k).trans ?_
  refine Finset.sum_congr rfl fun n _ => ?_
  refine congrArg₂ (· * ·) ?_ (onehot_apply lab k n)
  refine (truncf_apply _ bitsLt_bf16_f32 (ix2 f n)).trans ?_
  exact congrFun (shapeCast_self x shapeCasts_S5x131072_S5x131072) (ix2 f n)

/-- The count update at (block row, row, class): the accumulator there plus, over the block's points, one times the
    one-hot entry. -/
theorem cntsUpdate_apply (lab : Vec Ideal S1x131072 .i32) (acc : Vec Ideal S1x1x33 .f32)
    (u : Fin 1) (r : Fin 1) (k : Fin 33) :
    k0_pay5 (F := Ideal) lab acc (ix3 u r k)
      = acc (ix3 u r k) + ∑ n : Fin 131072, oneB * hot (lab (ix2 (0 : Fin 1) n)) k := by
  unfold k0_pay5
  refine (addf_apply _ _ (ix3 u r k)).trans ?_
  refine congrArg₂ (· + ·) (congrFun (shapeCast_self acc shapeCasts_S1x1x33_S1x1x33) (ix3 u r k)) ?_
  refine (shapeCast_ab_1ab_apply _ shapeCasts_S1x33_S1x1x33 u r k).trans ?_
  refine (cntsDot_apply _ _ r k).trans ?_
  refine Finset.sum_congr rfl fun n _ => ?_
  exact congrArg₂ (· * ·) rfl (onehot_apply lab k n)

/-- The zero blocks the first point of a core stores. -/
theorem zeroSums_apply (j : S1x5x33.Idx) : k0_pay1 (F := Ideal) j = 0 := Ideal.ofBits_zero_f32
theorem zeroCnts_apply (j : S1x1x33.Idx) : k0_pay2 (F := Ideal) j = 0 := Ideal.ofBits_zero_f32

/-! ## A point's blocks are blocks of the feature and label arrays -/

section AtIdeal

variable (V : (c : Dev nD) → (b : Ref sig .tc) → Buf (Elt Ideal) ((c : Thread nD τ).loc b))

/-- The feature block and the label block of a point. -/
abbrev xblk (c : Dev nD) (t : Fin cfg0.N) : Vec Ideal S5x131072 .f32 := iblk0 V c 0 t
abbrev lblk (c : Dev nD) (t : Fin cfg0.N) : Vec Ideal S1x131072 .i32 := iblk0 V c 1 t

/-- The index maps: point `t` reads block column `t` of the features and of the labels, and writes block `t / 16`
    of each result. -/
theorem blockIndex_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = 0 ∧ win0_3.index t (2 : Fin 3) = 0 :=
  (by decide +kernel : ∀ t : Fin grid0.N, _)

/-- The feature block of point `t` at (f, n) is feature `f` of point `131072 t + n`. -/
theorem xblk_apply (c : Dev nD) (t : Fin cfg0.N) (ht : t.val < 32) (f : Fin 5) (n : Fin 131072) :
    xblk V c t (ix2 f n) = Xof V c f (gidx ⟨t.val, ht⟩ n) := by
  obtain ⟨e0, e1, -⟩ := blockIndex_facts t
  show iblk0 V c 0 t (ix2 f n) = _
  unfold iblk0 Xof
  rw [View.read_apply]
  show V c main_v0 _ = V c main_v0 _
  congr 1
  funext a
  apply Fin.ext
  match a with
  | ⟨0, _⟩ => show win0_0.index t (0 : Fin 2) * 5 + 1 * f.val = f.val; omega
  | ⟨1, _⟩ => show win0_0.index t (1 : Fin 2) * 131072 + 1 * n.val = t.val * 131072 + n.val; omega

/-- The label block of point `t` at (0, n) is the label of point `131072 t + n`. -/
theorem lblk_apply (c : Dev nD) (t : Fin cfg0.N) (ht : t.val < 32) (n : Fin 131072) :
    lblk V c t (ix2 (0 : Fin 1) n) = Lof V c (gidx ⟨t.val, ht⟩ n) := by
  obtain ⟨-, -, e0, e1, -⟩ := blockIndex_facts t
  show iblk0 V c 1 t (ix2 (0 : Fin 1) n) = _
  unfold iblk0 Lof
  rw [View.read_apply]
  show V c main_v2 _ = V c main_v2 _
  congr 1
  funext a
  apply Fin.ext
  match a with
  | ⟨0, _⟩ => show win0_1.index t (0 : Fin 2) * 1 + 1 * 0 = 0; omega
  | ⟨1, _⟩ => show win0_1.index t (1 : Fin 2) * 131072 + 1 * n.val = t.val * 131072 + n.val; omega

end AtIdeal

/-! ## The running sums, by induction on the point -/

section Invariant

variable (V : (c : Dev nD) → (b : Ref sig .tc) → Buf (Elt Ideal) ((c : Thread nD τ).loc b))

/-- At the first point of a core the two staging blocks are the updates of the zero blocks. -/
theorem outsAt_first (c : Dev nD) (t : Fin cfg0.N) (h0 : t.val % 16 = 0) :
    (outsAt0 V c t.val t.isLt).1 = k0_pay4 (lblk V c t) (xblk V c t) (k0_pay1 (F := Ideal))
    ∧ (outsAt0 V c t.val t.isLt).2 = k0_pay5 (lblk V c t) (k0_pay2 (F := Ideal)) := by
  rw [outsAt0_A V c t h0]
  dsimp only
  exact ⟨sums_first_piece (F := Ideal) c (grid0.coords t) (ms0_0 t) (hs0_0 t) (ms0_1 t) (hs0_1 t) (ms0_2 t) (hs0_2 t) (ms0_3 t) (hs0_3 t)
      ((hcond0_0 t).mpr h0) (iblk0 V c 0 t) (iblk0 V c 1 t),
    cnts_first_piece (F := Ideal) c (grid0.coords t) (ms0_0 t) (hs0_0 t) (ms0_1 t) (hs0_1 t) (ms0_2 t) (hs0_2 t) (ms0_3 t) (hs0_3 t)
      ((hcond0_0 t).mpr h0) (iblk0 V c 0 t) (iblk0 V c 1 t)⟩

/-- At a later point of a core they are the updates of what the point before left. -/
theorem outsAt_later (c : Dev nD) (t : Fin cfg0.N) (h0 : ¬t.val % 16 = 0) :
    (outsAt0 V c t.val t.isLt).1
        = k0_pay4 (lblk V c t) (xblk V c t) (outsAt0 V c (t.val - 1) (Nat.lt_of_le_of_lt (Nat.sub_le _ _) t.isLt)).1
    ∧ (outsAt0 V c t.val t.isLt).2
        = k0_pay5 (lblk V c t) (outsAt0 V c (t.val - 1) (Nat.lt_of_le_of_lt (Nat.sub_le _ _) t.isLt)).2 := by
  rw [outsAt0_B V c t h0]
  dsimp only
  exact ⟨sums_later_piece (F := Ideal) c (grid0.coords t) (ms0_0 t) (hs0_0 t) (ms0_1 t) (hs0_1 t) (ms0_2 t) (hs0_2 t) (ms0_3 t) (hs0_3 t)
      (fun h => h0 ((hcond0_0 t).mp h)) (iblk0 V c 0 t) (iblk0 V c 1 t)
      (outsAt0 V c (t.val - 1) (Nat.lt_of_le_of_lt (Nat.sub_le _ _) t.isLt)).1
      (outsAt0 V c (t.val - 1) (Nat.lt_of_le_of_lt (Nat.sub_le _ _) t.isLt)).2,
    cnts_later_piece (F := Ideal) c (grid0.coords t) (ms0_0 t) (hs0_0 t) (ms0_1 t) (hs0_1 t) (ms0_2 t) (hs0_2 t) (ms0_3 t) (hs0_3 t)
      (fun h => h0 ((hcond0_0 t).mp h)) (iblk0 V c 0 t) (iblk0 V c 1 t)
      (outsAt0 V c (t.val - 1) (Nat.lt_of_le_of_lt (Nat.sub_le _ _) t.isLt)).1
      (outsAt0 V c (t.val - 1) (Nat.lt_of_le_of_lt (Nat.sub_le _ _) t.isLt)).2⟩

/-- Block `p`'s contribution to the feature sum of (f, k): over its points, the feature times the one-hot entry. -/
def sumsAt (c : Dev nD) (f : Fin 5) (k : Fin 33) (p : ℕ) : EReal :=
  if h : p < 32 then ∑ n : Fin 131072, Xof V c f (gidx ⟨p, h⟩ n) * hot (Lof V c (gidx ⟨p, h⟩ n)) k else 0
/-- Block `p`'s contribution to the count of class k for a factor `o`: over its points, `o` times the one-hot entry.
    The counts hold for any factor; the kernel's is the entry of its row of ones. -/
def cntsAt (o : EReal) (c : Dev nD) (k : Fin 33) (p : ℕ) : EReal :=
  if h : p < 32 then ∑ n : Fin 131072, o * hot (Lof V c (gidx ⟨p, h⟩ n)) k else 0

/-- The sum a point adds to the feature sums is its block's contribution. -/
theorem block_sums (c : Dev nD) (t : Fin cfg0.N) (f : Fin 5) (k : Fin 33) :
    ∑ n : Fin 131072, xblk V c t (ix2 f n) * hot (lblk V c t (ix2 (0 : Fin 1) n)) k = sumsAt V c f k t.val := by
  have ht : t.val < 32 := lt_of_lt_of_eq t.isLt (show cfg0.N = 32 from N_0)
  unfold sumsAt
  rw [dif_pos ht]
  refine Finset.sum_congr rfl fun n _ => ?_
  rw [xblk_apply V c t ht f n, lblk_apply V c t ht n]

/-- The sum a point adds to the counts is its block's contribution. -/
theorem block_cnts (o : EReal) (ho : oneB = o) (c : Dev nD) (t : Fin cfg0.N) (k : Fin 33) :
    ∑ n : Fin 131072, oneB * hot (lblk V c t (ix2 (0 : Fin 1) n)) k = cntsAt V o c k t.val := by
  subst ho
  have ht : t.val < 32 := lt_of_lt_of_eq t.isLt (show cfg0.N = 32 from N_0)
  unfold cntsAt
  rw [dif_pos ht]
  refine Finset.sum_congr rfl fun n _ => ?_
  rw [lblk_apply V c t ht n]

/-- THE RUNNING SUMS. After point `n` the staging blocks hold, entry by entry, the contributions of the blocks from the
    first of `n`'s core through `n`. -/
theorem running_sums (o : EReal) (ho : oneB = o) (c : Dev nD) : ∀ (n : ℕ) (h : n < cfg0.N),
    (∀ (u : Fin 1) (f : Fin 5) (k : Fin 33),
      (outsAt0 V c n h).1 (ix3 u f k) = ∑ p ∈ Finset.Ico (n - n % 16) (n + 1), sumsAt V c f k p)
    ∧ (∀ (u r : Fin 1) (k : Fin 33),
      (outsAt0 V c n h).2 (ix3 u r k) = ∑ p ∈ Finset.Ico (n - n % 16) (n + 1), cntsAt V o c k p) := by
  intro n
  induction n with
  | zero =>
    intro h
    obtain ⟨e2, e3⟩ := outsAt_first V c ⟨0, h⟩ rfl
    refine ⟨fun u f k => ?_, fun u r k => ?_⟩
    · refine (congrFun e2 (ix3 u f k)).trans ?_
      rw [sumsUpdate_apply, zeroSums_apply, zero_add, block_sums]
      simp
    · refine (congrFun e3 (ix3 u r k)).trans ?_
      rw [cntsUpdate_apply, zeroCnts_apply, zero_add, block_cnts V o ho]
      simp
  | succ n ih =>
    intro h
    by_cases h0 : (n + 1) % 16 = 0
    · obtain ⟨e2, e3⟩ := outsAt_first V c ⟨n + 1, h⟩ h0
      have hI : Finset.Ico (n + 1 - (n + 1) % 16) (n + 1 + 1) = {n + 1} := by
        rw [h0, Nat.sub_zero]; exact Nat.Ico_succ_singleton (n + 1)
      refine ⟨fun u f k => ?_, fun u r k => ?_⟩
      · refine (congrFun e2 (ix3 u f k)).trans ?_
        rw [sumsUpdate_apply, zeroSums_apply, zero_add, block_sums, hI, Finset.sum_singleton]
      · refine (congrFun e3 (ix3 u r k)).trans ?_
        rw [cntsUpdate_apply, zeroCnts_apply, zero_add, block_cnts V o ho, hI, Finset.sum_singleton]
    · obtain ⟨e2, e3⟩ := outsAt_later V c ⟨n + 1, h⟩ h0
      obtain ⟨i2, i3⟩ := ih (Nat.lt_of_succ_lt h)
      have hlo : n + 1 - (n + 1) % 16 = n - n % 16 := by omega
      have hle : n - n % 16 ≤ n + 1 := by omega
      refine ⟨fun u f k => ?_, fun u r k => ?_⟩
      · refine (congrFun e2 (ix3 u f k)).trans ?_
        rw [sumsUpdate_apply, block_sums, hlo, Finset.sum_Ico_succ_top hle]
        exact congrArg (· + sumsAt V c f k (n + 1)) (i2 u f k)
      · refine (congrFun e3 (ix3 u r k)).trans ?_
        rw [cntsUpdate_apply, block_cnts V o ho, hlo, Finset.sum_Ico_succ_top hle]
        exact congrArg (· + cntsAt V o c k (n + 1)) (i3 u r k)

/-- Over the sixteen blocks of core `c'` the contributions add up to the core's partial sum. -/
theorem sum_sumsAt (c : Dev nD) (c' : Fin 2) (f : Fin 5) (k : Fin 33) :
    ∑ p ∈ Finset.Ico (c'.val * 16) (c'.val * 16 + 15 + 1), sumsAt V c f k p
      = blockSum (fun n => Xof V c f n * hot (Lof V c n) k) c' := by
  rw [Finset.sum_Ico_eq_sum_range, show c'.val * 16 + 15 + 1 - c'.val * 16 = 16 by omega, Finset.sum_range]
  unfold blockSum
  refine Finset.sum_congr rfl fun i _ => ?_
  have hp : c'.val * 16 + i.val < 32 := by have := c'.isLt; have := i.isLt; omega
  unfold sumsAt
  rw [dif_pos hp]
  rfl

theorem sum_cntsAt (o : EReal) (c : Dev nD) (c' : Fin 2) (k : Fin 33) :
    ∑ p ∈ Finset.Ico (c'.val * 16) (c'.val * 16 + 15 + 1), cntsAt V o c k p
      = blockSum (fun n => o * hot (Lof V c n) k) c' := by
  rw [Finset.sum_Ico_eq_sum_range, show c'.val * 16 + 15 + 1 - c'.val * 16 = 16 by omega, Finset.sum_range]
  unfold blockSum
  refine Finset.sum_congr rfl fun i _ => ?_
  have hp : c'.val * 16 + i.val < 32 := by have := c'.isLt; have := i.isLt; omega
  unfold cntsAt
  rw [dif_pos hp]
  rfl

end Invariant

/-! ## The result arrays after the run -/

section Arrays

variable (V : (c : Dev nD) → (b : Ref sig .tc) → Buf (Elt Ideal) ((c : Thread nD τ).loc b))

/-- The first result array as the mathematics has it: entry (c', f, k) is core `c'`'s partial feature sum. -/
def sumsG (c : Dev nD) : S2x5x33.Idx → EReal := fun j =>
  blockSum (fun n => Xof V c (j 1) n * hot (Lof V c n) (j 2)) (j 0)
/-- The second result array as the mathematics has it, for a factor `o`: entry (c', 0, k) is core `c'`'s partial
    count, each point counted `o` times its one-hot entry. -/
def cntsG (o : EReal) (c : Dev nD) : S2x1x33.Idx → EReal := fun j =>
  blockSum (fun n => o * hot (Lof V c n) (j 2)) (j 0)

/-- The closed forms at an entry. -/
theorem sumsG_apply (c : Dev nD) (c' : Fin 2) (f : Fin 5) (k : Fin 33) :
    sumsG V c (ix3 c' f k) = blockSum (fun n => Xof V c f n * hot (Lof V c n) k) c' := rfl
theorem cntsG_apply (o : EReal) (c : Dev nD) (c' : Fin 2) (r : Fin 1) (k : Fin 33) :
    cntsG V o c (ix3 c' r k) = blockSum (fun n => o * hot (Lof V c n) k) c' := rfl

/-- A point that writes back is the last of its core, and what it writes back is block `t / 16` of the feature sums. -/
theorem sums_written_back (c : Dev nD) (t : Fin cfg0.N) (hf : (cfg0.win 2).flush t = true) :
    (dat0 V c).flushed 2 t = ((cfg0.win 2).blk t).view.read (Elt Ideal) (sumsG V c) := by
  have h15 : t.val % 16 = 15 := (flush0_2 t).mp hf
  have hN : t.val < 32 := lt_of_lt_of_eq t.isLt (show cfg0.N = 32 from N_0)
  have hc' : t.val / 16 < 2 := by omega
  obtain ⟨-, -, -, -, e0, e1, e2, -⟩ := blockIndex_facts t
  show (cfg0.win 2).cut (grid0.coords t) ((dat0 V c).after 2 t) = _
  rw [after0_2]
  funext j
  have hj0 : (j 0).val < 1 := (j 0).isLt
  have hj1 : (j 1).val < 5 := (j 1).isLt
  have hj2 : (j 2).val < 33 := (j 2).isLt
  show (outsAt0 V c t.val t.isLt).1 (win0_2.xinj (grid0.coords t) j) = _
  rw [View.read_apply]
  have hx : win0_2.xinj (grid0.coords t) j
      = ix3 (0 : Fin 1) (⟨(j 1).val, hj1⟩ : Fin 5) (⟨(j 2).val, hj2⟩ : Fin 33) := by
    funext a; apply Fin.ext
    match a with
    | ⟨0, _⟩ => show (j 0).val = 0; omega
    | ⟨1, _⟩ => rfl
    | ⟨2, _⟩ => rfl
  have he : ((cfg0.win 2).blk t).view.emb j
      = ix3 (⟨t.val / 16, hc'⟩ : Fin 2) (⟨(j 1).val, hj1⟩ : Fin 5) (⟨(j 2).val, hj2⟩ : Fin 33) := by
    funext a; apply Fin.ext
    match a with
    | ⟨0, _⟩ => show win0_2.index t (0 : Fin 3) * 1 + 1 * (j 0).val = t.val / 16; omega
    | ⟨1, _⟩ => show win0_2.index t (1 : Fin 3) * 5 + 1 * (j 1).val = (j 1).val; omega
    | ⟨2, _⟩ => show win0_2.index t (2 : Fin 3) * 33 + 1 * (j 2).val = (j 2).val; omega
  have hlo : t.val - t.val % 16 = (⟨t.val / 16, hc'⟩ : Fin 2).val * 16 := by show _ = t.val / 16 * 16; omega
  have hhi : t.val + 1 = (⟨t.val / 16, hc'⟩ : Fin 2).val * 16 + 15 + 1 := by show _ = t.val / 16 * 16 + 15 + 1; omega
  rw [hx, he, (running_sums V oneB rfl c t.val t.isLt).1 (0 : Fin 1) ⟨(j 1).val, hj1⟩ ⟨(j 2).val, hj2⟩, hlo, hhi, sumsG_apply]
  exact sum_sumsAt V c ⟨t.val / 16, hc'⟩ ⟨(j 1).val, hj1⟩ ⟨(j 2).val, hj2⟩

/-- The same for the counts. -/
theorem cnts_written_back (o : EReal) (ho : oneB = o) (c : Dev nD) (t : Fin cfg0.N) (hf : (cfg0.win 3).flush t = true) :
    (dat0 V c).flushed 3 t = ((cfg0.win 3).blk t).view.read (Elt Ideal) (cntsG V o c) := by
  have h15 : t.val % 16 = 15 := (flush0_3 t).mp hf
  have hN : t.val < 32 := lt_of_lt_of_eq t.isLt (show cfg0.N = 32 from N_0)
  have hc' : t.val / 16 < 2 := by omega
  obtain ⟨-, -, -, -, -, -, -, e0, e1, e2⟩ := blockIndex_facts t
  show (cfg0.win 3).cut (grid0.coords t) ((dat0 V c).after 3 t) = _
  rw [after0_3]
  funext j
  have hj0 : (j 0).val < 1 := (j 0).isLt
  have hj1 : (j 1).val < 1 := (j 1).isLt
  have hj2 : (j 2).val < 33 := (j 2).isLt
  show (outsAt0 V c t.val t.isLt).2 (win0_3.xinj (grid0.coords t) j) = _
  rw [View.read_apply]
  have hx : win0_3.xinj (grid0.coords t) j
      = ix3 (0 : Fin 1) (0 : Fin 1) (⟨(j 2).val, hj2⟩ : Fin 33) := by
    funext a; apply Fin.ext
    match a with
    | ⟨0, _⟩ => show (j 0).val = 0; omega
    | ⟨1, _⟩ => show (j 1).val = 0; omega
    | ⟨2, _⟩ => rfl
  have he : ((cfg0.win 3).blk t).view.emb j
      = ix3 (⟨t.val / 16, hc'⟩ : Fin 2) (0 : Fin 1) (⟨(j 2).val, hj2⟩ : Fin 33) := by
    funext a; apply Fin.ext
    match a with
    | ⟨0, _⟩ => show win0_3.index t (0 : Fin 3) * 1 + 1 * (j 0).val = t.val / 16; omega
    | ⟨1, _⟩ => show win0_3.index t (1 : Fin 3) * 1 + 1 * (j 1).val = 0; omega
    | ⟨2, _⟩ => show win0_3.index t (2 : Fin 3) * 33 + 1 * (j 2).val = (j 2).val; omega
  have hlo : t.val - t.val % 16 = (⟨t.val / 16, hc'⟩ : Fin 2).val * 16 := by show _ = t.val / 16 * 16; omega
  have hhi : t.val + 1 = (⟨t.val / 16, hc'⟩ : Fin 2).val * 16 + 15 + 1 := by show _ = t.val / 16 * 16 + 15 + 1; omega
  rw [hx, he, (running_sums V o ho c t.val t.isLt).2 (0 : Fin 1) (0 : Fin 1) ⟨(j 2).val, hj2⟩, hlo, hhi, cntsG_apply]
  exact sum_cntsAt V o c ⟨t.val / 16, hc'⟩ ⟨(j 2).val, hj2⟩

/-- Every entry (c', ·, ·) of the first result array is in the block the last point of core `c'` writes back. -/
theorem sums_covered (i : S2x5x33.Idx) : ∃ t : Fin cfg0.N, (cfg0.win 2).flush t = true ∧ i ∈ ((cfg0.win 2).blk t).view.set := by
  have h0 : (i 0).val < 2 := (i 0).isLt
  have h1 : (i 1).val < 5 := (i 1).isLt
  have h2 : (i 2).val < 33 := (i 2).isLt
  have ht : 16 * (i 0).val + 15 < cfg0.N := lt_of_lt_of_eq (by omega : 16 * (i 0).val + 15 < 32) (show cfg0.N = 32 from N_0).symm
  obtain ⟨-, -, -, -, e0, e1, e2, -⟩ := blockIndex_facts ⟨16 * (i 0).val + 15, ht⟩
  refine ⟨⟨16 * (i 0).val + 15, ht⟩, (flush0_2 _).mpr (by show (16 * (i 0).val + 15) % 16 = 15; omega), ?_⟩
  show i ∈ ((View.whole main_v3_0).slice (win0_2.rect ⟨16 * (i 0).val + 15, ht⟩)).set
  rw [View.set_slice_whole, Rect.mem_set_unit]
  intro a
  match a with
  | ⟨0, _⟩ =>
    show win0_2.index ⟨16 * (i 0).val + 15, ht⟩ (0 : Fin 3) * 1 ≤ (i 0).val ∧ (i 0).val < win0_2.index ⟨16 * (i 0).val + 15, ht⟩ (0 : Fin 3) * 1 + 1
    rw [e0]; show (16 * (i 0).val + 15) / 16 * 1 ≤ (i 0).val ∧ (i 0).val < (16 * (i 0).val + 15) / 16 * 1 + 1; omega
  | ⟨1, _⟩ =>
    show win0_2.index ⟨16 * (i 0).val + 15, ht⟩ (1 : Fin 3) * 5 ≤ (i 1).val ∧ (i 1).val < win0_2.index ⟨16 * (i 0).val + 15, ht⟩ (1 : Fin 3) * 5 + 5
    rw [e1]; omega
  | ⟨2, _⟩ =>
    show win0_2.index ⟨16 * (i 0).val + 15, ht⟩ (2 : Fin 3) * 33 ≤ (i 2).val ∧ (i 2).val < win0_2.index ⟨16 * (i 0).val + 15, ht⟩ (2 : Fin 3) * 33 + 33
    rw [e2]; omega

theorem cnts_covered (i : S2x1x33.Idx) : ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 33 := (i 2).isLt
  have ht : 16 * (i 0).val + 15 < cfg0.N := lt_of_lt_of_eq (by omega : 16 * (i 0).val + 15 < 32) (show cfg0.N = 32 from N_0).symm
  obtain ⟨-, -, -, -, -, -, -, e0, e1, e2⟩ := blockIndex_facts ⟨16 * (i 0).val + 15, ht⟩
  refine ⟨⟨16 * (i 0).val + 15, ht⟩, (flush0_3 _).mpr (by show (16 * (i 0).val + 15) % 16 = 15; omega), ?_⟩
  show i ∈ ((View.whole main_v3_1).slice (win0_3.rect ⟨16 * (i 0).val + 15, ht⟩)).set
  rw [View.set_slice_whole, Rect.mem_set_unit]
  intro a
  match a with
  | ⟨0, _⟩ =>
    show win0_3.index ⟨16 * (i 0).val + 15, ht⟩ (0 : Fin 3) * 1 ≤ (i 0).val ∧ (i 0).val < win0_3.index ⟨16 * (i 0).val + 15, ht⟩ (0 : Fin 3) * 1 + 1
    rw [e0]; show (16 * (i 0).val + 15) / 16 * 1 ≤ (i 0).val ∧ (i 0).val < (16 * (i 0).val + 15) / 16 * 1 + 1; omega
  | ⟨1, _⟩ =>
    show win0_3.index ⟨16 * (i 0).val + 15, ht⟩ (1 : Fin 3) * 1 ≤ (i 1).val ∧ (i 1).val < win0_3.index ⟨16 * (i 0).val + 15, ht⟩ (1 : Fin 3) * 1 + 1
    rw [e1]; omega
  | ⟨2, _⟩ =>
    show win0_3.index ⟨16 * (i 0).val + 15, ht⟩ (2 : Fin 3) * 33 ≤ (i 2).val ∧ (i 2).val < win0_3.index ⟨16 * (i 0).val + 15, ht⟩ (2 : Fin 3) * 33 + 33
    rw [e2]; omega

/-- So after the run the two result arrays hold the cores' partial sums and counts. -/
theorem sumsArr_eq (c : Dev nD) : sumsArr V c = sumsG V c :=
  (dat0 V c).arrAt_eq_of_cover 2 (sumsG V c) (sums_written_back V c) sums_covered
theorem cntsArr_eq (o : EReal) (ho : oneB = o) (c : Dev nD) : cntsArr V c = cntsG V o c :=
  (dat0 V c).arrAt_eq_of_cover 3 (cntsG V o c) (cnts_written_back V o ho c) cnts_covered

end Arrays

end Reg0

open Reg0

variable (V : (c : Dev nD) → (b : Ref sig .tc) → Buf (Elt Ideal) ((c : Thread nD τ).loc b))

/-- Core `c'`'s feature sums: entry `(c', f, k)` of the first result array is the sum over the core's blocks of
    feature `f` times the one-hot entry of class `k`. -/
theorem reg0_sums (c : Dev nD) (c' : Fin 2) (f : Fin 5) (k : Fin 33) :
    sumsArr V c (ix3 c' f k) = blockSum (fun n => Xof V c f n * hot (Lof V c n) k) c' :=
  congrFun (sumsArr_eq V c) (ix3 c' f k)

/-- Core `c'`'s counts: entry `(c', 0, k)` of the second result array is the sum over the core's blocks of one times
    the one-hot entry of class `k`. -/
theorem reg0_counts (c : Dev nD) (c' : Fin 2) (k : Fin 33) :
    cntsArr V c (ix3 c' (0 : Fin 1) k) = blockSum (fun n => oneB * hot (Lof V c n) k) c' :=
  (congrFun (cntsArr_eq V oneB rfl c) (ix3 c' (0 : Fin 1) k)).trans (cntsG_apply V oneB c c' (0 : Fin 1) k)

end Cert.KernelIdeal.KV

end
-- ==== Proof.KReg1.lean ====
/-
  The second region's result array: per core, each class's sum of its points' variance contributions over that
  core's sixteen blocks of points.

  The region walks 32 blocks of 131072 points, sixteen per core. At each block it forms the one-hot matrix of the
  block's labels, picks each point's own class mean out of the table of means by a product with that matrix, takes the
  point's hinge max(‖x − mean‖₁ − 0.5, 0)², and adds to a running row of 33 class sums the product of the hinges with
  the one-hot matrix; the row is zeroed at a core's first block and written to the core's row of the result at its
  last. Read entry by entry over the extended reals: one block adds to class k the sum over its points of the point's
  variance contribution times the one-hot entry of its label at k; the running row after a block is the sum of the
  core's blocks so far; so the core's row ends at the sum over its sixteen blocks.
-/
import proofs.«422653_j65403761984267_3_alg».proof.Proof.KDefs
import Idealize.ShloMosaic.Lib.Pipeline.Value
import Idealize.ShloMosaic.PureOps.Ideal.Laws
import Idealize.ShloMosaic.Lib.ValueLayout
import Idealize.ShloMosaic.Lib.Tactic

open scoped BigOperators

noncomputable section

namespace Cert.KernelIdeal.KV

open Cert.KernelIdeal Cert.KernelIdeal.Gen Cert.Proof.Spec
open Idealize.ShloMosaic Idealize.ShloMosaic.ValueIdx Idealize.ShloMosaic.TcCoe Idealize.SL.Sem
open Idealize.ShloMosaic.Pipeline (Dat)

namespace Reg1

section Pieces
variable {F : FTy → Type} [FloatOps F]

/-- The zero offsets of a rank-3 block, as a constant function. -/
theorem hz3 : (![0, 0, 0] : Fin 3 → Nat) = fun _ => 0 := funext fun a => by fin_cases a <;> rfl
/-- The zero offsets of a rank-2 block, as a constant function. -/
theorem hz2 : (![0, 0] : Fin 2 → Nat) = fun _ => 0 := funext fun a => by fin_cases a <;> rfl

/-- Away from a core's first block the body leaves, in the row of running sums holding `xo`, the update of `xo` by the
    block's labels `x1`, the table `x2` and the block's features `x0`: its one covering store's value, the loads reading
    the whole buffers. -/
theorem out_B (c : Dev nD) (i : grid1.Coords) (a0 : Memref sig .tc .vmem S5x131072 .f32) (h0 : a0.IsWhole)
    (a1 : Memref sig .tc .vmem S1x131072 .i32) (h1 : a1.IsWhole) (a2 : Memref sig .tc .vmem S5x33 .f32) (h2 : a2.IsWhole)
    (a3 : Memref sig .tc .vmem S1x1x33 .f32) (h3 : a3.IsWhole) (hc : ¬cond1_0 i)
    (x0 : Vec F S5x131072 .f32) (x1 : Vec F S1x131072 .i32) (x2 : Vec F S5x33 .f32) (xo : Vec F S1x1x33 .f32) :
    out1_B_3 c i a0 h0 a1 h1 a2 h2 a3 h3 hc x0 x1 x2 xo = k1_pay2 x1 x2 x0 xo := by
  unfold out1_B_3
  rw [View.read_writes_eq_canon _ _ _ (cover1_B_3 c i a0 h0 a1 h1 a2 h2 a3 h3 hc x0 x1 x2 xo)]
  unfold kernelRun1_B
  dsimp only
  sl_unfold_words
  rw [View.canon_unit_zero hz3]
  simp only [View.readAt_eq_ld, h0.read_unread, h1.read_unread, h2.read_unread, h3.read_unread,
    View.ld_unit_zero (S := S5x131072) hz2, View.ld_unit_zero (S := S1x131072) hz2, View.ld_unit_zero (S := S5x33) hz2,
    View.ld_unit_zero (S := S1x1x33) hz3]

/-- At a core's first block the body stores the zero row, reads it back, and leaves the update of the zero row. -/
theorem out_A (c : Dev nD) (i : grid1.Coords) (a0 : Memref sig .tc .vmem S5x131072 .f32) (h0 : a0.IsWhole)
    (a1 : Memref sig .tc .vmem S1x131072 .i32) (h1 : a1.IsWhole) (a2 : Memref sig .tc .vmem S5x33 .f32) (h2 : a2.IsWhole)
    (a3 : Memref sig .tc .vmem S1x1x33 .f32) (h3 : a3.IsWhole) (hc : cond1_0 i)
    (x0 : Vec F S5x131072 .f32) (x1 : Vec F S1x131072 .i32) (x2 : Vec F S5x33 .f32) :
    out1_A_3 c i a0 h0 a1 h1 a2 h2 a3 h3 hc x0 x1 x2 = k1_pay2 x1 x2 x0 (k1_pay1 (F := F)) := by
  unfold out1_A_3
  rw [View.read_writes_eq_canon _ _ _ (cover1_A_3 c i a0 h0 a1 h1 a2 h2 a3 h3 hc x0 x1 x2)]
  unfold kernelRun1_A
  dsimp only
  sl_unfold_words
  rw [View.canon_cons_unit_zero (S := S1x1x33) hz3, View.readCov_unit_zero (S := S1x1x33) _ hz3]
  simp only [View.readAt_eq_ld, h0.read_unread, h1.read_unread, h2.read_unread,
    View.ld_unit_zero (S := S5x131072) hz2, View.ld_unit_zero (S := S1x131072) hz2, View.ld_unit_zero (S := S5x33) hz2]

end Pieces

section Contractions

/-- The left operand of the means product at (f, n) and contraction position k is read at row f … -/
theorem meansDot_lhs_0 (j : S5x131072.Idx) (k : dot_S5x33_S33x131072_S5x131072_1_0_0_1_n_n.contr.Idx) :
    (dot_S5x33_S33x131072_S5x131072_1_0_0_1_n_n.lhsIdx j k 0).val = (j 0).val := by
  simp [DotDims.lhsIdx, dot_S5x33_S33x131072_S5x131072_1_0_0_1_n_n]; rfl
/-- … and column k; -/
theorem meansDot_lhs_1 (j : S5x131072.Idx) (k : dot_S5x33_S33x131072_S5x131072_1_0_0_1_n_n.contr.Idx) :
    (dot_S5x33_S33x131072_S5x131072_1_0_0_1_n_n.lhsIdx j k 1).val = (k ⟨0, Nat.one_pos⟩).val :=
  dot_S5x33_S33x131072_S5x131072_1_0_0_1_n_n.lhsIdx_val_of_single rfl j k
/-- the right operand at row k … -/
theorem meansDot_rhs_0 (j : S5x131072.Idx) (k : dot_S5x33_S33x131072_S5x131072_1_0_0_1_n_n.contr.Idx) :
    (dot_S5x33_S33x131072_S5x131072_1_0_0_1_n_n.rhsIdx j k 0).val = (k ⟨0, Nat.one_pos⟩).val :=
  dot_S5x33_S33x131072_S5x131072_1_0_0_1_n_n.rhsIdx_val_of_single rfl j k
/-- … and column n. -/
theorem meansDot_rhs_1 (j : S5x131072.Idx) (k : dot_S5x33_S33x131072_S5x131072_1_0_0_1_n_n.contr.Idx) :
    (dot_S5x33_S33x131072_S5x131072_1_0_0_1_n_n.rhsIdx j k 1).val = (j 1).val := by
  simp [DotDims.rhsIdx, dot_S5x33_S33x131072_S5x131072_1_0_0_1_n_n]; rfl

/-- A [5, 33] by [33, 131072] product into zeros, at (f, n): the sum over the 33 classes. -/
theorem meansDot_apply (A : FVec Ideal S5x33 .bf16) (B : FVec Ideal S33x131072 .bf16) (f : Fin 5) (n : Fin 131072) :
    matmul dot_S5x33_S33x131072_S5x131072_1_0_0_1_n_n none A B (constant (F := Ideal) S5x131072 .f32 0x00000000#32) (ix2 f n)
      = ∑ k : Fin 33, A (ix2 f k) * B (ix2 k n) := by
  refine (Ideal.matmul_constant_zero_apply dot_S5x33_S33x131072_S5x131072_1_0_0_1_n_n none A B (ix2 f n)).trans ?_
  rw [← Equiv.sum_comp (contrEquiv1 dot_S5x33_S33x131072_S5x131072_1_0_0_1_n_n 33 rfl rfl).symm]
  refine Finset.sum_congr rfl fun k _ => ?_
  have ck := contrEquiv1_symm_val dot_S5x33_S33x131072_S5x131072_1_0_0_1_n_n 33 rfl rfl k
  have l : dot_S5x33_S33x131072_S5x131072_1_0_0_1_n_n.lhsIdx (ix2 f n)
      ((contrEquiv1 dot_S5x33_S33x131072_S5x131072_1_0_0_1_n_n 33 rfl rfl).symm k) = ix2 f k := by
    funext ax; apply Fin.ext
    match ax with
    | ⟨0, _⟩ => exact meansDot_lhs_0 _ _
    | ⟨1, _⟩ => exact (meansDot_lhs_1 _ _).trans ck
  have r : dot_S5x33_S33x131072_S5x131072_1_0_0_1_n_n.rhsIdx (ix2 f n)
      ((contrEquiv1 dot_S5x33_S33x131072_S5x131072_1_0_0_1_n_n 33 rfl rfl).symm k) = ix2 k n := by
    funext ax; apply Fin.ext
    match ax with
    | ⟨0, _⟩ => exact (meansDot_rhs_0 _ _).trans ck
    | ⟨1, _⟩ => exact meansDot_rhs_1 _ _
  rw [l, r]

/-- The left operand of the class-sum product at (u, k) and contraction position n is read at row u … -/
theorem sumDot_lhs_0 (j : S1x33.Idx) (q : dot_S1x131072_S33x131072_S1x33_1_1_0_0_n_n.contr.Idx) :
    (dot_S1x131072_S33x131072_S1x33_1_1_0_0_n_n.lhsIdx j q 0).val = (j 0).val := by
  simp [DotDims.lhsIdx, dot_S1x131072_S33x131072_S1x33_1_1_0_0_n_n]; exact (Fin.val_eq_zero (j 0)).symm
/-- … and column n; -/
theorem sumDot_lhs_1 (j : S1x33.Idx) (q : dot_S1x131072_S33x131072_S1x33_1_1_0_0_n_n.contr.Idx) :
    (dot_S1x131072_S33x131072_S1x33_1_1_0_0_n_n.lhsIdx j q 1).val = (q ⟨0, Nat.one_pos⟩).val :=
  dot_S1x131072_S33x131072_S1x33_1_1_0_0_n_n.lhsIdx_val_of_single rfl j q
/-- the right operand at row k … -/
theorem sumDot_rhs_0 (j : S1x33.Idx) (q : dot_S1x131072_S33x131072_S1x33_1_1_0_0_n_n.contr.Idx) :
    (dot_S1x131072_S33x131072_S1x33_1_1_0_0_n_n.rhsIdx j q 0).val = (j 1).val := by
  simp [DotDims.rhsIdx, dot_S1x131072_S33x131072_S1x33_1_1_0_0_n_n]; rfl
/-- … and column n. -/
theorem sumDot_rhs_1 (j : S1x33.Idx) (q : dot_S1x131072_S33x131072_S1x33_1_1_0_0_n_n.contr.Idx) :
    (dot_S1x131072_S33x131072_S1x33_1_1_0_0_n_n.rhsIdx j q 1).val = (q ⟨0, Nat.one_pos⟩).val :=
  dot_S1x131072_S33x131072_S1x33_1_1_0_0_n_n.rhsIdx_val_of_single rfl j q

/-- A [1, 131072] by [33, 131072] product over the long axis into zeros, at (u, k): the sum over the block's points. -/
theorem sumDot_apply (A : FVec Ideal S1x131072 .bf16) (B : FVec Ideal S33x131072 .bf16) (u : Fin 1) (k : Fin 33) :
    matmul dot_S1x131072_S33x131072_S1x33_1_1_0_0_n_n none A B (constant (F := Ideal) S1x33 .f32 0x00000000#32) (ix2 u k)
      = ∑ n : Fin 131072, A (ix2 u n) * B (ix2 k n) := by
  refine (Ideal.matmul_constant_zero_apply dot_S1x131072_S33x131072_S1x33_1_1_0_0_n_n none A B (ix2 u k)).trans ?_
  rw [← Equiv.sum_comp (contrEquiv1 dot_S1x131072_S33x131072_S1x33_1_1_0_0_n_n 131072 rfl rfl).symm]
  refine Finset.sum_congr rfl fun n _ => ?_
  have cn := contrEquiv1_symm_val dot_S1x131072_S33x131072_S1x33_1_1_0_0_n_n 131072 rfl rfl n
  have l : dot_S1x131072_S33x131072_S1x33_1_1_0_0_n_n.lhsIdx (ix2 u k)
      ((contrEquiv1 dot_S1x131072_S33x131072_S1x33_1_1_0_0_n_n 131072 rfl rfl).symm n) = ix2 u n := by
    funext ax; apply Fin.ext
    match ax with
    | ⟨0, _⟩ => exact sumDot_lhs_0 _ _
    | ⟨1, _⟩ => exact (sumDot_lhs_1 _ _).trans cn
  have r : dot_S1x131072_S33x131072_S1x33_1_1_0_0_n_n.rhsIdx (ix2 u k)
      ((contrEquiv1 dot_S1x131072_S33x131072_S1x33_1_1_0_0_n_n 131072 rfl rfl).symm n) = ix2 k n := by
    funext ax; apply Fin.ext
    match ax with
    | ⟨0, _⟩ => exact sumDot_rhs_0 _ _
    | ⟨1, _⟩ => exact (sumDot_rhs_1 _ _).trans cn
  rw [l, r]

end Contractions

section Payload
variable {F : FTy → Type} [FloatOps F]

/-- The one-hot matrix of a block of labels: entry (k, n) is class k compared with the label of point n, as a float. -/
def hotBlock (lab : Vec F S1x131072 .i32) : FVec F S33x131072 .bf16 :=
  have v4 : IVec S1x131072 32 := shapeCast S1x131072 lab shapeCasts_S1x131072_S1x131072
  have v5 : FVec F S1x131072 .bf16 := sitofp .bf16 v4
  have v6 : IVec S33x131072 32 := iota .tc S33x131072 32 [0] iota_S33x131072_d0_w32
  have v7 : FVec F S33x131072 .bf16 := sitofp .bf16 v6
  have v8 : FVec F S33x131072 .bf16 := broadcastTo S33x131072 v5 broadcasts_S1x131072_S33x131072
  have v9 : IVec S33x131072 1 := cmpf .oeq v7 v8
  have v10 : IVec S33x131072 32 := extui 32 v9 natLt_1_32
  have v11 : FVec F S33x131072 .f32 := sitofp .f32 v10
  truncf .bf16 v11 bitsLt_bf16_f32

/-- Each point's own class mean, feature by feature: the table of means times the one-hot matrix. -/
def ownMeans (lab : Vec F S1x131072 .i32) (M : Vec F S5x33 .f32) : FVec F S5x131072 .f32 :=
  have v14 : FVec F S5x33 .f32 := shapeCast S5x33 M shapeCasts_S5x33_S5x33
  have v15 : FVec F S5x33 .bf16 := truncf .bf16 v14 bitsLt_bf16_f32
  matmul dot_S5x33_S33x131072_S5x131072_1_0_0_1_n_n none v15 (hotBlock lab) (constant S5x131072 .f32 0x00000000#32)

/-- Each point's hinge: the L1 distance to its own class mean, less one half, clipped at zero, squared. -/
def hingeRow (lab : Vec F S1x131072 .i32) (M : Vec F S5x33 .f32) (x : Vec F S5x131072 .f32) : FVec F S131072 .f32 :=
  have v18 : FVec F S5x131072 .f32 := shapeCast S5x131072 x shapeCasts_S5x131072_S5x131072
  have v19 : FVec F S5x131072 .f32 := subf v18 (ownMeans lab M)
  have v20 : FVec F S5x131072 .f32 := absf v19
  have v21 : FVec F S131072 .f32 := multiReduction .add [0] S131072 v20 0x00000000#32 reduces_S5x131072_S131072 (.inl rfl) rfl
  have v22 : FVec F S131072 .f32 := broadcast S131072 (Scalar.ofBits .f32 0x3F000000#32)
  have v23 : FVec F S131072 .f32 := subf v21 v22
  have v24 : FVec F S131072 .f32 := broadcast S131072 (Scalar.ofBits .f32 0x00000000#32)
  have v25 : FVec F S131072 .f32 := maximumf v23 v24
  mulf v25 v25

/-- The update of the running class sums by one block: the hinges times the one-hot matrix, added entry by entry. -/
theorem k1_pay2_eq (lab : Vec F S1x131072 .i32) (M : Vec F S5x33 .f32) (x : Vec F S5x131072 .f32) (acc : Vec F S1x1x33 .f32) :
    k1_pay2 lab M x acc
      = addf (shapeCast S1x1x33 acc shapeCasts_S1x1x33_S1x1x33)
          (shapeCast S1x1x33
            (matmul dot_S1x131072_S33x131072_S1x33_1_1_0_0_n_n none
              (truncf .bf16 (shapeCast S1x131072 (hingeRow lab M x) shapeCasts_S131072_S1x131072) bitsLt_bf16_f32 : FVec F S1x131072 .bf16)
              (hotBlock lab) (constant S1x33 .f32 0x00000000#32))
            shapeCasts_S1x33_S1x1x33) := rfl

end Payload

section AtIdeal

/-- One point's hinge from its five features `X`, its label `l` and the table of means `M`. -/
def hingeOf (X : Fin 5 → EReal) (l : BitVec 32) (M : Fin 5 → Fin 33 → EReal) : EReal :=
  max ((∑ f : Fin 5, FloatOps.absf (F := Ideal) (φ := .f32) (X f - ∑ k : Fin 33, M f k * hot l k)) - halfF) zeroF
    * max ((∑ f : Fin 5, FloatOps.absf (F := Ideal) (φ := .f32) (X f - ∑ k : Fin 33, M f k * hot l k)) - halfF) zeroF

/-- The specification's variance contribution of a point is its hinge. -/
theorem varOf_eq_hingeOf (X : Fin 5 → Fin NPts → EReal) (L : Fin NPts → BitVec 32) (M : Fin 5 → Fin 33 → EReal) (n : Fin NPts) :
    varOf X L M n = hingeOf (fun f => X f n) (L n) M := rfl

/-- The one-hot matrix at (k, n) is the specification's one-hot entry of point n's label at class k. -/
theorem hotBlock_apply (lab : Vec Ideal S1x131072 .i32) (k : Fin 33) (n : Fin 131072) :
    hotBlock (F := Ideal) lab (ix2 k n) = hot (lab (ix2 (0 : Fin 1) n)) k := by
  have e1 : iota .tc S33x131072 32 [0] iota_S33x131072_d0_w32 (ix2 k n) = cls k :=
    iota_single_apply .tc S33x131072 32 0 iota_S33x131072_d0_w32 (ix2 k n)
  have e2 : broadcastTo S33x131072 (sitofp (F := Ideal) .bf16 (shapeCast S1x131072 lab shapeCasts_S1x131072_S1x131072) : FVec Ideal S1x131072 .bf16)
        broadcasts_S1x131072_S33x131072 (ix2 k n)
      = FloatOps.sitofp (F := Ideal) .bf16 (lab (ix2 (0 : Fin 1) n)) := by
    refine (broadcastTo_1b_ab_apply _ broadcasts_S1x131072_S33x131072 k n).trans ?_
    show FloatOps.sitofp (F := Ideal) .bf16 (shapeCast S1x131072 lab shapeCasts_S1x131072_S1x131072 (ix2 (0 : Fin 1) n)) = _
    rw [shapeCast_self]
  show FloatOps.sitofp (F := Ideal) .f32 ((FloatOps.cmpf (F := Ideal) (φ := .bf16) .oeq
      (FloatOps.sitofp (F := Ideal) .bf16 (iota .tc S33x131072 32 [0] iota_S33x131072_d0_w32 (ix2 k n)))
      (broadcastTo S33x131072 (sitofp (F := Ideal) .bf16 (shapeCast S1x131072 lab shapeCasts_S1x131072_S1x131072) : FVec Ideal S1x131072 .bf16)
        broadcasts_S1x131072_S33x131072 (ix2 k n))).setWidth 32) = _
  rw [e1, e2]
  rfl

/-- A point's own class mean of feature f: the one-hot row picks it out of the table. -/
theorem ownMeans_apply (lab : Vec Ideal S1x131072 .i32) (M : Vec Ideal S5x33 .f32) (f : Fin 5) (n : Fin 131072) :
    ownMeans (F := Ideal) lab M (ix2 f n) = ∑ k : Fin 33, M (ix2 f k) * hot (lab (ix2 (0 : Fin 1) n)) k := by
  unfold ownMeans
  refine (meansDot_apply _ _ f n).trans ?_
  refine Finset.sum_congr rfl fun k _ => ?_
  rw [hotBlock_apply]
  show shapeCast S5x33 M shapeCasts_S5x33_S5x33 (ix2 f k) * _ = _
  rw [shapeCast_self]

/-- The sum over the five features of a [5, 131072] block, at point n. -/
theorem featSum_apply (src : FVec Ideal S5x131072 .f32) (hφ : FKind.Formats .f32)
    (hacc : (0x00000000#32 : BitVec 32) = FKind.add.neutral .f32 hφ) (n : Fin 131072) :
    multiReduction .add [0] S131072 src 0x00000000#32 reduces_S5x131072_S131072 hφ hacc (ix1 n) = ∑ f : Fin 5, src (ix2 f n) := by
  refine (Ideal.multiReduction_add_single src 0x00000000#32 reduces_S5x131072_S131072 hφ hacc (ix1 n)).trans ?_
  show ∑ f : Fin 5, src (reduces_S5x131072_S131072.lift (ix1 n) f) = _
  refine Finset.sum_congr rfl fun f _ => congrArg src ?_
  funext a; apply Fin.ext
  match a with
  | ⟨0, _⟩ => rfl
  | ⟨1, _⟩ => rfl

/-- The block's hinges at point n: the point's hinge from its features, its label and the table. -/
theorem hingeRow_apply (lab : Vec Ideal S1x131072 .i32) (M : Vec Ideal S5x33 .f32) (x : Vec Ideal S5x131072 .f32) (n : Fin 131072) :
    hingeRow (F := Ideal) lab M x (ix1 n)
      = hingeOf (fun f => x (ix2 f n)) (lab (ix2 (0 : Fin 1) n)) (fun f k => M (ix2 f k)) := by
  have e : multiReduction (F := Ideal) .add [0] S131072
        (absf (subf (shapeCast S5x131072 x shapeCasts_S5x131072_S5x131072) (ownMeans (F := Ideal) lab M)))
        0x00000000#32 reduces_S5x131072_S131072 (.inl rfl) rfl (ix1 n)
      = ∑ f : Fin 5, FloatOps.absf (F := Ideal) (φ := .f32) (x (ix2 f n) - ∑ k : Fin 33, M (ix2 f k) * hot (lab (ix2 (0 : Fin 1) n)) k) := by
    refine (featSum_apply _ _ _ n).trans ?_
    refine Finset.sum_congr rfl fun f _ => ?_
    show FloatOps.absf (F := Ideal) (φ := .f32) (shapeCast S5x131072 x shapeCasts_S5x131072_S5x131072 (ix2 f n) - ownMeans (F := Ideal) lab M (ix2 f n)) = _
    rw [shapeCast_self, ownMeans_apply]
  unfold hingeRow hingeOf
  show max (multiReduction (F := Ideal) .add [0] S131072
        (absf (subf (shapeCast S5x131072 x shapeCasts_S5x131072_S5x131072) (ownMeans (F := Ideal) lab M)))
        0x00000000#32 reduces_S5x131072_S131072 (.inl rfl) rfl (ix1 n) - halfF) zeroF
      * max (multiReduction (F := Ideal) .add [0] S131072
        (absf (subf (shapeCast S5x131072 x shapeCasts_S5x131072_S5x131072) (ownMeans (F := Ideal) lab M)))
        0x00000000#32 reduces_S5x131072_S131072 (.inl rfl) rfl (ix1 n) - halfF) zeroF = _
  rw [e]

/-- The update at class k: the running sum plus the block's hinges of the points of class k. -/
theorem pay2_apply (lab : Vec Ideal S1x131072 .i32) (M : Vec Ideal S5x33 .f32) (x : Vec Ideal S5x131072 .f32)
    (acc : Vec Ideal S1x1x33 .f32) (u v : Fin 1) (k : Fin 33) :
    k1_pay2 (F := Ideal) lab M x acc (ix3 u v k)
      = acc (ix3 u v k) + ∑ n : Fin 131072,
          hingeOf (fun f => x (ix2 f n)) (lab (ix2 (0 : Fin 1) n)) (fun f k => M (ix2 f k)) * hot (lab (ix2 (0 : Fin 1) n)) k := by
  rw [k1_pay2_eq]
  show shapeCast S1x1x33 acc shapeCasts_S1x1x33_S1x1x33 (ix3 u v k)
      + shapeCast S1x1x33
          (matmul dot_S1x131072_S33x131072_S1x33_1_1_0_0_n_n none
            (truncf .bf16 (shapeCast S1x131072 (hingeRow (F := Ideal) lab M x) shapeCasts_S131072_S1x131072) bitsLt_bf16_f32 : FVec Ideal S1x131072 .bf16)
            (hotBlock (F := Ideal) lab) (constant (F := Ideal) S1x33 .f32 0x00000000#32))
          shapeCasts_S1x33_S1x1x33 (ix3 u v k) = _
  rw [shapeCast_self, shapeCast_ab_1ab_apply, sumDot_apply]
  refine congrArg (acc (ix3 u v k) + ·) ?_
  refine Finset.sum_congr rfl fun n _ => ?_
  rw [hotBlock_apply]
  show shapeCast S1x131072 (hingeRow (F := Ideal) lab M x) shapeCasts_S131072_S1x131072 (ix2 v n) * _ = _
  rw [shapeCast_a_1a_apply, hingeRow_apply]

end AtIdeal

section Blocks

variable (V : (c : Dev nD) → (b : Ref sig .tc) → Buf (Elt Ideal) ((c : Thread nD τ).loc b))

/-- The feature window's block at point t is block column t, -/
theorem idx1_0 : ∀ t : Fin cfg1.N, win1_0.index t 0 = 0 ∧ win1_0.index t 1 = t.val :=
  (by decide +kernel : ∀ t : Fin grid1.N, win1_0.index t 0 = 0 ∧ win1_0.index t 1 = t.val)
/-- the label window's likewise, -/
theorem idx1_1 : ∀ t : Fin cfg1.N, win1_1.index t 0 = 0 ∧ win1_1.index t 1 = t.val :=
  (by decide +kernel : ∀ t : Fin grid1.N, win1_1.index t 0 = 0 ∧ win1_1.index t 1 = t.val)
/-- the table of means is one block, -/
theorem idx1_2 : ∀ t : Fin cfg1.N, win1_2.index t 0 = 0 ∧ win1_2.index t 1 = 0 :=
  (by decide +kernel : ∀ t : Fin grid1.N, win1_2.index t 0 = 0 ∧ win1_2.index t 1 = 0)
/-- and the result window's block at point t is the row of core t / 16. -/
theorem idx1_3 : ∀ t : Fin cfg1.N, win1_3.index t 0 = t.val / 16 ∧ win1_3.index t 1 = 0 ∧ win1_3.index t 2 = 0 :=
  (by decide +kernel : ∀ t : Fin grid1.N, win1_3.index t 0 = t.val / 16 ∧ win1_3.index t 1 = 0 ∧ win1_3.index t 2 = 0)

/-- The block of features at point t, -/
abbrev xblk (c : Dev nD) (t : Fin cfg1.N) : Vec Ideal S5x131072 .f32 := iblk1 V c 0 t
/-- the block of labels, -/
abbrev lblk (c : Dev nD) (t : Fin cfg1.N) : Vec Ideal S1x131072 .i32 := iblk1 V c 1 t
/-- and the table of means as the kernel reads it there. -/
abbrev mblk (c : Dev nD) (t : Fin cfg1.N) : Vec Ideal S5x33 .f32 := iblk1 V c 2 t

/-- Feature f of the n-th point of block t is feature f of point 131072·t + n. -/
theorem xblk_apply (c : Dev nD) (t : Fin cfg1.N) (f : Fin 5) (n : Fin 131072) (g : Fin NPts)
    (hg : g.val = t.val * 131072 + n.val) : xblk V c t (ix2 f n) = Xof V c f g := by
  unfold xblk iblk1 Xof
  rw [View.read_apply]
  show V c main_v0 _ = V c main_v0 _
  refine congrArg (V c main_v0) ?_
  funext a
  apply Fin.ext
  match a with
  | ⟨0, _⟩ => show win1_0.index t 0 * 5 + 1 * f.val = f.val; rw [(idx1_0 t).1]; omega
  | ⟨1, _⟩ => show win1_0.index t 1 * 131072 + 1 * n.val = g.val; rw [(idx1_0 t).2, hg]; omega

/-- The label of the n-th point of block t is the label of point 131072·t + n. -/
theorem lblk_apply (c : Dev nD) (t : Fin cfg1.N) (n : Fin 131072) (g : Fin NPts)
    (hg : g.val = t.val * 131072 + n.val) : lblk V c t (ix2 (0 : Fin 1) n) = Lof V c g := by
  unfold lblk iblk1 Lof
  rw [View.read_apply]
  show V c main_v2 _ = V c main_v2 _
  refine congrArg (V c main_v2) ?_
  funext a
  apply Fin.ext
  match a with
  | ⟨0, _⟩ => show win1_1.index t 0 * 1 + 1 * 0 = 0; rw [(idx1_1 t).1]
  | ⟨1, _⟩ => show win1_1.index t 1 * 131072 + 1 * n.val = g.val; rw [(idx1_1 t).2, hg]; omega

/-- The table's block is the whole table. -/
theorem mblk_apply (c : Dev nD) (t : Fin cfg1.N) (f : Fin 5) (k : Fin 33) : mblk V c t (ix2 f k) = Mof V c f k := by
  unfold mblk iblk1 Mof
  rw [View.read_apply]
  show V c main_v30 _ = V c main_v30 _
  refine congrArg (V c main_v30) ?_
  funext a
  apply Fin.ext
  match a with
  | ⟨0, _⟩ => show win1_2.index t 0 * 5 + 1 * f.val = f.val; rw [(idx1_2 t).1]; omega
  | ⟨1, _⟩ => show win1_2.index t 1 * 33 + 1 * k.val = k.val; rw [(idx1_2 t).2]; omega

end Blocks

section Accumulation

variable (V : (c : Dev nD) → (b : Ref sig .tc) → Buf (Elt Ideal) ((c : Thread nD τ).loc b))

/-- What block s adds to class k's sum: the variance contributions of its points of class k (nothing past the last block). -/
def blockTerm (c : Dev nD) (k : Fin 33) (s : Nat) : EReal :=
  if h : s < 32 then
    ∑ n : Fin 131072, varOf (Xof V c) (Lof V c) (Mof V c) (gidx ⟨s, h⟩ n) * hot (Lof V c (gidx ⟨s, h⟩ n)) k
  else 0

/-- The zero block is zero at every entry. -/
theorem pay1_apply (y : S1x1x33.Idx) : k1_pay1 (F := Ideal) y = 0 := Ideal.ofBits_zero_f32

/-- The update at point t, at class k: what the running sums held plus block t's term. -/
theorem pay2_block (c : Dev nD) (t : Fin cfg1.N) (acc : Vec Ideal S1x1x33 .f32) (k : Fin 33) :
    k1_pay2 (F := Ideal) (lblk V c t) (mblk V c t) (xblk V c t) acc (ix3 (0 : Fin 1) (0 : Fin 1) k)
      = acc (ix3 (0 : Fin 1) (0 : Fin 1) k) + blockTerm V c k t.val := by
  have ht : t.val < 32 := lt_of_lt_of_eq t.isLt N_1
  refine (pay2_apply (lblk V c t) (mblk V c t) (xblk V c t) acc 0 0 k).trans ?_
  unfold blockTerm
  rw [dif_pos ht]
  refine congrArg (acc (ix3 (0 : Fin 1) (0 : Fin 1) k) + ·) (Finset.sum_congr rfl fun n _ => ?_)
  have ex : (fun f => xblk V c t (ix2 f n)) = fun f => Xof V c f (gidx ⟨t.val, ht⟩ n) :=
    funext fun f => xblk_apply V c t f n (gidx ⟨t.val, ht⟩ n) rfl
  have em : (fun f k => mblk V c t (ix2 f k)) = Mof V c :=
    funext fun f => funext fun k => mblk_apply V c t f k
  rw [lblk_apply V c t n (gidx ⟨t.val, ht⟩ n) rfl, ex, em, varOf_eq_hingeOf]

/-- At a core's first point the running sums are reset and then updated; -/
theorem outsAt_first (c : Dev nD) (t : Fin cfg1.N) (h0 : t.val % 16 = 0) :
    outsAt1 V c t.val t.isLt
      = k1_pay2 (F := Ideal) (lblk V c t) (mblk V c t) (xblk V c t) (k1_pay1 (F := Ideal)) := by
  rw [outsAt1_A V c t h0]
  exact out_A (F := Ideal) c (grid1.coords t) (ms1_0 t) (hs1_0 t) (ms1_1 t) (hs1_1 t) (ms1_2 t) (hs1_2 t) (ms1_3 t) (hs1_3 t)
    ((hcond1_0 t).mpr h0) (xblk V c t) (lblk V c t) (mblk V c t)

/-- at its other points they are updated from what the point before left. -/
theorem outsAt_next (c : Dev nD) (t : Fin cfg1.N) (h0 : ¬t.val % 16 = 0) :
    outsAt1 V c t.val t.isLt
      = k1_pay2 (F := Ideal) (lblk V c t) (mblk V c t) (xblk V c t)
          (outsAt1 V c (t.val - 1) (Nat.lt_of_le_of_lt (Nat.sub_le _ _) t.isLt)) := by
  rw [outsAt1_B V c t h0]
  exact out_B (F := Ideal) c (grid1.coords t) (ms1_0 t) (hs1_0 t) (ms1_1 t) (hs1_1 t) (ms1_2 t) (hs1_2 t) (ms1_3 t) (hs1_3 t)
    (fun h => h0 ((hcond1_0 t).mp h)) (xblk V c t) (lblk V c t) (mblk V c t)
    (outsAt1 V c (t.val - 1) (Nat.lt_of_le_of_lt (Nat.sub_le _ _) t.isLt))

/-- After point n the running sum of class k is the sum of the terms of the core's blocks up to n. -/
theorem outsAt_eq (c : Dev nD) (k : Fin 33) : ∀ (n : ℕ) (h : n < cfg1.N),
    outsAt1 V c n h (ix3 (0 : Fin 1) (0 : Fin 1) k)
      = ∑ s ∈ Finset.range (n % 16 + 1), blockTerm V c k (16 * (n / 16) + s)
  | 0, h => by
    refine (congrFun (outsAt_first V c ⟨0, h⟩ rfl) (ix3 (0 : Fin 1) (0 : Fin 1) k)).trans ?_
    refine (pay2_block V c ⟨0, h⟩ (k1_pay1 (F := Ideal)) k).trans ?_
    rw [pay1_apply, zero_add]
    show blockTerm V c k 0 = ∑ s ∈ Finset.range 1, blockTerm V c k (16 * (0 / 16) + s)
    rw [Finset.sum_range_one]
  | n + 1, h => by
    by_cases h0 : (n + 1) % 16 = 0
    · refine (congrFun (outsAt_first V c ⟨n + 1, h⟩ h0) (ix3 (0 : Fin 1) (0 : Fin 1) k)).trans ?_
      refine (pay2_block V c ⟨n + 1, h⟩ (k1_pay1 (F := Ideal)) k).trans ?_
      rw [pay1_apply, zero_add, h0, Finset.sum_range_one]
      exact congrArg (blockTerm V c k) (by show n + 1 = 16 * ((n + 1) / 16) + 0; omega)
    · refine (congrFun (outsAt_next V c ⟨n + 1, h⟩ h0) (ix3 (0 : Fin 1) (0 : Fin 1) k)).trans ?_
      refine (pay2_block V c ⟨n + 1, h⟩ (outsAt1 V c n (Nat.lt_of_succ_lt h)) k).trans ?_
      rw [outsAt_eq c k n (Nat.lt_of_succ_lt h)]
      have e1 : (n + 1) % 16 = n % 16 + 1 := by omega
      have e2 : (n + 1) / 16 = n / 16 := by omega
      rw [e1, e2, Finset.sum_range_succ _ (n % 16 + 1)]
      refine congrArg (∑ s ∈ Finset.range (n % 16 + 1), blockTerm V c k (16 * (n / 16) + s) + ·) ?_
      exact congrArg (blockTerm V c k) (by show n + 1 = 16 * (n / 16) + (n % 16 + 1); omega)

end Accumulation

section Result

variable (V : (c : Dev nD) → (b : Ref sig .tc) → Buf (Elt Ideal) ((c : Thread nD τ).loc b))

/-- The result array as the specification has it: entry (c', ·, k) is core c''s sum of class k's variance contributions. -/
def varsG (c : Dev nD) : S2x1x33.Idx → EReal := fun j =>
  blockSum (fun n => varOf (Xof V c) (Lof V c) (Mof V c) n * hot (Lof V c n) (j 2)) (j 0)

/-- A core's last point writes back its row of that array. -/
theorem flushed_eq (c : Dev nD) (t : Fin cfg1.N) (hf : (cfg1.win 3).flush t = true) :
    (dat1 V c).flushed 3 t = ((cfg1.win 3).blk t).view.read (Elt Ideal) (varsG V c) := by
  have hN : t.val < 32 := lt_of_lt_of_eq t.isLt N_1
  have h15 : t.val % 16 = 15 := (flush1_3 t).mp hf
  obtain ⟨e0, e1, e2⟩ := idx1_3 t
  show (cfg1.win 3).cut (grid1.coords t) ((dat1 V c).after 3 t) = _
  rw [after1_3]
  funext j
  have hj0 : (j 0).val < 1 := (j 0).isLt
  have hj1 : (j 1).val < 1 := (j 1).isLt
  have hj2 : (j 2).val < 33 := (j 2).isLt
  show outsAt1 V c t.val t.isLt (win1_3.xinj (grid1.coords t) j) = varsG V c (((cfg1.win 3).blk t).view.emb j)
  have hx : win1_3.xinj (grid1.coords t) j = ix3 (0 : Fin 1) (0 : Fin 1) (⟨(j 2).val, hj2⟩ : Fin 33) := by
    funext a; apply Fin.ext
    match a with
    | ⟨0, _⟩ => show (j 0).val = 0; omega
    | ⟨1, _⟩ => show (j 1).val = 0; omega
    | ⟨2, _⟩ => rfl
  have he : ((cfg1.win 3).blk t).view.emb j
      = ix3 (⟨t.val / 16, by omega⟩ : Fin 2) (0 : Fin 1) (⟨(j 2).val, hj2⟩ : Fin 33) := by
    funext a; apply Fin.ext
    match a with
    | ⟨0, _⟩ => show win1_3.index t 0 * 1 + 1 * (j 0).val = t.val / 16; rw [e0]; omega
    | ⟨1, _⟩ => show win1_3.index t 1 * 1 + 1 * (j 1).val = 0; rw [e1]; omega
    | ⟨2, _⟩ => show win1_3.index t 2 * 33 + 1 * (j 2).val = (j 2).val; rw [e2]; omega
  rw [hx, he, outsAt_eq V c ⟨(j 2).val, hj2⟩ t.val t.isLt, h15]
  show _ = blockSum (fun n => varOf (Xof V c) (Lof V c) (Mof V c) n * hot (Lof V c n) (⟨(j 2).val, hj2⟩ : Fin 33))
    (⟨t.val / 16, by omega⟩ : Fin 2)
  unfold blockSum
  rw [Finset.sum_range]
  refine Finset.sum_congr rfl fun i _ => ?_
  have hi : i.val < 16 := i.isLt
  have hs : 16 * (t.val / 16) + i.val < 32 := by omega
  unfold blockTerm
  rw [dif_pos hs]
  have hp : (⟨16 * (t.val / 16) + i.val, hs⟩ : Fin 32) = pt (⟨t.val / 16, by omega⟩ : Fin 2) i :=
    Fin.ext (by show 16 * (t.val / 16) + i.val = t.val / 16 * 16 + i.val; omega)
  rw [hp]

/-- Every entry of the array is in the row some core's last point writes back. -/
theorem covered (c : Dev nD) (i : S2x1x33.Idx) :
    ∃ t : Fin cfg1.N, (cfg1.win 3).flush t = true ∧ i ∈ ((cfg1.win 3).blk t).view.set := by
  have hi0 : (i 0).val < 2 := (i 0).isLt
  have hi1 : (i 1).val < 1 := (i 1).isLt
  have hi2 : (i 2).val < 33 := (i 2).isLt
  have ht : 16 * (i 0).val + 15 < cfg1.N := lt_of_lt_of_eq (by omega : 16 * (i 0).val + 15 < 32) N_1.symm
  obtain ⟨e0, e1, e2⟩ := idx1_3 ⟨16 * (i 0).val + 15, ht⟩
  refine ⟨⟨16 * (i 0).val + 15, ht⟩, (flush1_3 _).mpr (by show (16 * (i 0).val + 15) % 16 = 15; omega), ?_⟩
  show i ∈ ((View.whole main_v31).slice (win1_3.rect ⟨16 * (i 0).val + 15, ht⟩)).set
  rw [View.set_slice_whole, Rect.mem_set_unit]
  intro a
  match a with
  | ⟨0, _⟩ =>
    show win1_3.index ⟨16 * (i 0).val + 15, ht⟩ 0 * 1 ≤ (i 0).val ∧ (i 0).val < win1_3.index ⟨16 * (i 0).val + 15, ht⟩ 0 * 1 + 1
    rw [e0]; show (16 * (i 0).val + 15) / 16 * 1 ≤ (i 0).val ∧ (i 0).val < (16 * (i 0).val + 15) / 16 * 1 + 1; omega
  | ⟨1, _⟩ =>
    show win1_3.index ⟨16 * (i 0).val + 15, ht⟩ 1 * 1 ≤ (i 1).val ∧ (i 1).val < win1_3.index ⟨16 * (i 0).val + 15, ht⟩ 1 * 1 + 1
    rw [e1]; omega
  | ⟨2, _⟩ =>
    show win1_3.index ⟨16 * (i 0).val + 15, ht⟩ 2 * 33 ≤ (i 2).val ∧ (i 2).val < win1_3.index ⟨16 * (i 0).val + 15, ht⟩ 2 * 33 + 33
    rw [e2]; omega

/-- So the result array ends as the specification has it. -/
theorem varsArr_eq (c : Dev nD) : varsArr V c = varsG V c :=
  (dat1 V c).arrAt_eq_of_cover 3 (varsG V c) (flushed_eq V c) (covered c)

end Result

end Reg1

variable (V : (c : Dev nD) → (b : Ref sig .tc) → Buf (Elt Ideal) ((c : Thread nD τ).loc b))

/-- Core `c'`'s variance sums: entry `(c', 0, k)` of the result array is the sum over the core's blocks of each
    point's variance contribution times the one-hot entry of class `k`. -/
theorem reg1_vars (c : Dev nD) (c' : Fin 2) (k : Fin 33) :
    varsArr V c (ix3 c' (0 : Fin 1) k)
      = blockSum (fun n => varOf (Xof V c) (Lof V c) (Mof V c) n * hot (Lof V c n) k) c' :=
  congrFun (Reg1.varsArr_eq V c) (ix3 c' (0 : Fin 1) k)

end Cert.KernelIdeal.KV

end
-- ==== Proof.KHostMid.lean ====
/-
  What each region finds at its entry: the features and labels as launched, reshaped, and for the second region the
  table of class means the host forms from the first region's results, its background column zeroed.
-/
import proofs.«422653_j65403761984267_3_alg».proof.Proof.KDefs
import Idealize.ShloMosaic.Lib.Pipeline.Value
import Idealize.ShloMosaic.PureOps.Ideal.Laws
import Idealize.ShloMosaic.Lib.ValueLayout
import Idealize.ShloMosaic.Lib.Tactic
import Idealize.ShloMosaic.Lib.StableHlo.Run

open scoped BigOperators

noncomputable section

namespace Cert.KernelIdeal.KV

open Cert.KernelIdeal Cert.KernelIdeal.Gen Cert.Proof.Spec
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

namespace Mid

/-! ## The host's layout operations at an index -/

section Layout
variable {α : Type}

/-- A rank-3 array cut to one slab along its first axis reads, at `(0, a, e)`, the source at `(q, a, e)`, `q` the slab. -/
theorem slice3_axis0_apply {n0 n1 n2 : Nat} (o : Nat) (X : (⟨3, ![n0, n1, n2]⟩ : Shape).Idx → α)
    (h : (⟨3, ![n0, n1, n2]⟩ : Shape).Slices ![o, 0, 0] ⟨3, ![1, n1, n2]⟩)
    (a : Fin n1) (e : Fin n2) (q : Fin n0) (hq : q.val = o) :
    extractStridedSlice ⟨3, ![1, n1, n2]⟩ ![o, 0, 0] X h (ix3 (0 : Fin 1) a e) = X (ix3 q a e) :=
  extractStridedSlice_apply _ _ _ _ _ (fun ax => by
    match ax with
    | ⟨0, _⟩ => exact hq.trans (Nat.add_zero _).symm
    | ⟨1, _⟩ => exact (Nat.zero_add _).symm
    | ⟨2, _⟩ => exact (Nat.zero_add _).symm)

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- A scalar broadcast over the classes reads the scalar at every class. -/
theorem bcast_scalar_classes (h : S_.BroadcastsInDim S33 (![] : Fin 0 → Fin S33.rank)) (y : S_.Idx → α) (k : Fin 33) :
    broadcastInDim S33 ![] h y (ix1 k) = y ix0 :=
  broadcastInDim_apply _ h y _ _ (fun a => a.elim0)

/-- A vector over the classes as the one row of a `[1, 33]` array. -/
theorem bcast_classes_row (h : S33.BroadcastsInDim S1x33 (![1] : Fin 1 → Fin S1x33.rank)) (y : S33.Idx → α) (u : Fin 1) (k : Fin 33) :
    broadcastInDim S1x33 ![1] h y (ix2 u k) = y (ix1 k) :=
  broadcastInDim_apply _ h y _ _ (fun a => match a with
    | ⟨0, _⟩ => by show k.val = if (33 : Nat) = 1 then 0 else k.val; rw [if_neg (by decide)])

/-- One row over the classes repeated for each of the five features. -/
theorem bcast_row_features (h : S1x33.BroadcastsInDim S5x33 (![0, 1] : Fin 2 → Fin S5x33.rank)) (y : S1x33.Idx → α) (f : Fin 5) (k : Fin 33) :
    broadcastInDim S5x33 ![0, 1] h y (ix2 f k) = y (ix2 (0 : Fin 1) k) :=
  broadcastInDim_apply _ h y _ _ (fun a => match a with
    | ⟨0, _⟩ => by show 0 = if (1 : Nat) = 1 then 0 else f.val; rw [if_pos rfl]
    | ⟨1, _⟩ => by show k.val = if (33 : Nat) = 1 then 0 else k.val; rw [if_neg (by decide)])

end Layout

/-! ## The host's values between the regions, as functions of the first region's two result arrays -/

section Between

/-- The class counts (over the classes): the two cores' rows of the counts array added. -/
def cntOf (C : S2x1x33.Idx → EReal) : S33.Idx → EReal :=
  addf (F := Ideal) (φ := .f32)
    (shapeCast S33 (extractStridedSlice S1x1x33 ![0, 0, 0] C slices_S2x1x33_S1x1x33_0_0_0) shapeCasts_S1x1x33_S33)
    (shapeCast S33 (extractStridedSlice S1x1x33 ![1, 0, 0] C slices_S2x1x33_S1x1x33_1_0_0) shapeCasts_S1x1x33_S33)
/-- The feature sums (feature, class): the two cores' slabs of the sums array added. -/
def smOf (S : S2x5x33.Idx → EReal) : S5x33.Idx → EReal :=
  addf (F := Ideal) (φ := .f32)
    (shapeCast S5x33 (extractStridedSlice S1x5x33 ![0, 0, 0] S slices_S2x5x33_S1x5x33_0_0_0) shapeCasts_S1x5x33_S5x33)
    (shapeCast S5x33 (extractStridedSlice S1x5x33 ![1, 0, 0] S slices_S2x5x33_S1x5x33_1_0_0) shapeCasts_S1x5x33_S5x33)
/-- The counts, at least one. -/
def safeOf (C : S2x1x33.Idx → EReal) : S33.Idx → EReal :=
  maximumf (F := Ideal) (φ := .f32) (cntOf C) (broadcastInDim S33 ![] bcast_S_S33 (constant (F := Ideal) S_ .f32 0x3F800000#32))
/-- The class means (feature, class). -/
def meanOf (C : S2x1x33.Idx → EReal) (S : S2x5x33.Idx → EReal) : S5x33.Idx → EReal :=
  Host.divf (F := Ideal) (φ := .f32) (smOf S)
    (broadcastInDim S5x33 ![0, 1] bcast_S1x33_S5x33_0_1 (broadcastInDim S1x33 ![1] bcast_S33_S1x33_1 (safeOf C)))
/-- Which classes have a point. -/
def presentOf (C : S2x1x33.Idx → EReal) : S33.Idx → BitVec 1 :=
  cmpf (F := Ideal) (φ := .f32) .ogt (cntOf C) (broadcastInDim S33 ![] bcast_S_S33 (constant (F := Ideal) S_ .f32 0x00000000#32))
/-- Which classes are not the background class. -/
def notBgVec : S33.Idx → BitVec 1 :=
  cmpi .ne (iotaInDim S33 32 0) (broadcastInDim S33 ![] bcast_S_S33 (constantI S_ 32 0#32))
/-- Which classes have a point and are not background. -/
def nzOf (C : S2x1x33.Idx → EReal) : S33.Idx → BitVec 1 := andi (presentOf C) notBgVec
/-- The class means with the background column zeroed by a 0/1 factor (feature, class). -/
def zmeanOf (C : S2x1x33.Idx → EReal) (S : S2x5x33.Idx → EReal) : S5x33.Idx → EReal :=
  mulf (F := Ideal) (φ := .f32) (meanOf C S)
    (broadcastInDim S5x33 ![0, 1] bcast_S1x33_S5x33_0_1 (broadcastInDim S1x33 ![1] bcast_S33_S1x33_1
      (uitofp (F := Ideal) .f32 notBgVec)))

variable (C : S2x1x33.Idx → EReal) (S : S2x5x33.Idx → EReal)

/-- The class count at a class: the two cores' entries added. -/
theorem cntOf_apply (k : Fin 33) :
    cntOf C (ix1 k) = C (ix3 (0 : Fin 2) (0 : Fin 1) k) + C (ix3 (1 : Fin 2) (0 : Fin 1) k) := by
  unfold cntOf
  rw [addf_apply, shapeCast_11a_a_apply, shapeCast_11a_a_apply,
    slice3_axis0_apply 0 C _ (0 : Fin 1) k (0 : Fin 2) rfl, slice3_axis0_apply 1 C _ (0 : Fin 1) k (1 : Fin 2) rfl]

/-- The feature sum at (feature, class): the two cores' entries added. -/
theorem smOf_apply (f : Fin 5) (k : Fin 33) :
    smOf S (ix2 f k) = S (ix3 (0 : Fin 2) f k) + S (ix3 (1 : Fin 2) f k) := by
  unfold smOf
  rw [addf_apply, shapeCast_1ab_ab_apply, shapeCast_1ab_ab_apply,
    slice3_axis0_apply 0 S _ f k (0 : Fin 2) rfl, slice3_axis0_apply 1 S _ f k (1 : Fin 2) rfl]

/-- At a class: the larger of its count and one. -/
theorem safeOf_apply (k : Fin 33) : safeOf C (ix1 k) = max (cntOf C (ix1 k)) oneF := by
  unfold safeOf
  rw [maximumf_apply, bcast_scalar_classes]
  rfl

/-- At (feature, class): the feature sum over the count, at least one. -/
theorem meanOf_apply (f : Fin 5) (k : Fin 33) :
    meanOf C S (ix2 f k) = Ideal.div (smOf S (ix2 f k)) (safeOf C (ix1 k)) := by
  unfold meanOf
  show Ideal.div (smOf S (ix2 f k)) _ = _
  rw [bcast_row_features, bcast_classes_row]

/-- At a class: its count exceeds zero. -/
theorem presentOf_apply (k : Fin 33) :
    presentOf C (ix1 k) = FloatOps.cmpf (F := Ideal) (φ := .f32) .ogt (cntOf C (ix1 k)) zeroF := by
  unfold presentOf
  rw [cmpf_apply, bcast_scalar_classes]
  rfl

/-- At a class: its word is not the background's. -/
theorem notBgVec_apply (k : Fin 33) : notBgVec (ix1 k) = notBg k := by
  unfold notBgVec notBg
  show IntOp.cmpi .ne (BitVec.ofNat 32 k.val) (broadcastInDim S33 ![] bcast_S_S33 (constantI S_ 32 0#32) (ix1 k)) = _
  rw [bcast_scalar_classes]
  rfl

/-- At a class: both. -/
theorem nzOf_apply (k : Fin 33) : nzOf C (ix1 k) = IntOp.andi (presentOf C (ix1 k)) (notBgVec (ix1 k)) := rfl

/-- At (feature, class): the mean times the 0/1 factor of the class. -/
theorem zmeanOf_apply (f : Fin 5) (k : Fin 33) :
    zmeanOf C S (ix2 f k) = meanOf C S (ix2 f k) * FloatOps.uitofp (F := Ideal) .f32 (notBgVec (ix1 k)) := by
  unfold zmeanOf
  rw [mulf_apply, bcast_row_features, bcast_classes_row]
  rfl

end Between
/-! ## The first region's arrays at its exit -/

/-- The features, an input of the first region, are at its exit what they were at its entry. -/
theorem W2_feats (c : Dev nD) : W2 m ρ c (Proc.devRef .tc main_v0) = V1 m ρ c main_v0 :=
  (W2_arr m ρ c 0).trans ((dat0 (V1 m ρ) c).arrAt_in 0 rfl _)
/-- So are the labels. -/
theorem W2_labels (c : Dev nD) : W2 m ρ c (Proc.devRef .tc main_v2) = V1 m ρ c main_v2 :=
  (W2_arr m ρ c 1).trans ((dat0 (V1 m ρ) c).arrAt_in 1 rfl _)
/-- The first region's first result buffer holds its sums array. -/
theorem W2_sums (c : Dev nD) : (W2 m ρ c (Proc.devRef .tc main_v3_0) : S2x5x33.Idx → EReal) = sumsArr (V1 m ρ) c :=
  W2_arr m ρ c 2
/-- Its second result buffer holds its counts array. -/
theorem W2_cnts (c : Dev nD) : (W2 m ρ c (Proc.devRef .tc main_v3_1) : S2x1x33.Idx → EReal) = cntsArr (V1 m ρ) c :=
  W2_arr m ρ c 3
/-! ## The host's buffers at the second region's entry, as those functions of the first region's arrays -/

/-- The counts, at least one. -/
theorem W3_safe (c : Dev nD) :
    (W3 m ρ c (Proc.devRef .tc main_v15) : S33.Idx → EReal) = safeOf (cntsArr (V1 m ρ) c) := by
  show StableHlo.after hostOps1 _ (Proc.devRef .tc main_v15) = _
  after_results_simp
  rw [W2_cnts]
  generalize cntsArr (V1 m ρ) c = C
  rfl
/-- The class means. -/
theorem W3_mean (c : Dev nD) :
    (W3 m ρ c (Proc.devRef .tc main_v18) : S5x33.Idx → EReal) = meanOf (cntsArr (V1 m ρ) c) (sumsArr (V1 m ρ) c) := by
  show StableHlo.after hostOps1 _ (Proc.devRef .tc main_v18) = _
  after_results_simp
  rw [W2_cnts, W2_sums]
  generalize cntsArr (V1 m ρ) c = C
  generalize sumsArr (V1 m ρ) c = S
  rfl
/-- Which classes have a point. -/
theorem W3_present (c : Dev nD) :
    (W3 m ρ c (Proc.devRef .tc main_v20) : S33.Idx → BitVec 1) = presentOf (cntsArr (V1 m ρ) c) := by
  show StableHlo.after hostOps1 _ (Proc.devRef .tc main_v20) = _
  after_results_simp
  rw [W2_cnts]
  generalize cntsArr (V1 m ρ) c = C
  rfl
/-- Which classes have a point and are not background. -/
theorem W3_nz (c : Dev nD) :
    (W3 m ρ c (Proc.devRef .tc main_v24) : S33.Idx → BitVec 1) = nzOf (cntsArr (V1 m ρ) c) := by
  show StableHlo.after hostOps1 _ (Proc.devRef .tc main_v24) = _
  after_results_simp
  rw [W2_cnts]
  generalize cntsArr (V1 m ρ) c = C
  rfl
/-- The class means, the background column zeroed. -/
theorem W3_zeroed (c : Dev nD) :
    (W3 m ρ c (Proc.devRef .tc main_v30) : S5x33.Idx → EReal) = zmeanOf (cntsArr (V1 m ρ) c) (sumsArr (V1 m ρ) c) := by
  show StableHlo.after hostOps1 _ (Proc.devRef .tc main_v30) = _
  after_results_simp
  rw [W2_cnts, W2_sums]
  generalize cntsArr (V1 m ρ) c = C
  generalize sumsArr (V1 m ρ) c = S
  rfl

/-- The host's counts and sums at a class are the aggregates the two cores' entries add to. -/
theorem cntOf_cnts (c : Dev nD) (k : Fin 33) : cntOf (cntsArr (V1 m ρ) c) (ix1 k) = cntK m ρ c k := cntOf_apply _ k
theorem smOf_sums (c : Dev nD) (f : Fin 5) (k : Fin 33) : smOf (sumsArr (V1 m ρ) c) (ix2 f k) = smK m ρ c k f := smOf_apply _ f k

end Mid

open Mid

/-! ## The first region's entry: the launch memory, reshaped -/

/-- The first region finds the features as launched, reshaped. -/
theorem entry0_X (c : Dev nD) (f : Fin 5) (n : Fin NPts) :
    Xof (V1 m ρ) c f n = (m ((c : Thread nD τ).loc main_arg0) : S1x5x4194304.Idx → EReal) (ix3 (0 : Fin 1) f n) := by
  have e : (V1 m ρ c main_v0 : S5x4194304.Idx → EReal)
      = shapeCast S5x4194304 (m ((c : Thread nD τ).loc main_arg0) : S1x5x4194304.Idx → EReal) shapeCasts_S1x5x4194304_S5x4194304 := by
    show StableHlo.after hostOps0 _ (Proc.devRef .tc main_v0) = _
    after_results
    rfl
  unfold Xof
  rw [e]
  exact shapeCast_1ab_ab_apply _ _ f n
/-- The first region finds the labels as launched, reshaped. -/
theorem entry0_L (c : Dev nD) (n : Fin NPts) :
    Lof (V1 m ρ) c n = (m ((c : Thread nD τ).loc main_arg1) : S1x4194304.Idx → BitVec 32) (ix2 (0 : Fin 1) n) := by
  have e : (V1 m ρ c main_v2 : S1x4194304.Idx → BitVec 32)
      = broadcastInDim S1x4194304 ![1] bcast_S4194304_S1x4194304_1
          (shapeCast S4194304 (m ((c : Thread nD τ).loc main_arg1) : S1x4194304.Idx → BitVec 32) shapeCasts_S1x4194304_S4194304) := by
    show StableHlo.after hostOps0 _ (Proc.devRef .tc main_v2) = _
    after_results
    rfl
  unfold Lof
  rw [e]
  generalize (m ((c : Thread nD τ).loc main_arg1) : S1x4194304.Idx → BitVec 32) = l
  refine (broadcastInDim_apply _ bcast_S4194304_S1x4194304_1 _ (ix2 (0 : Fin 1) n) (ix1 n) (fun a => match a with
    | ⟨0, _⟩ => by show n.val = if (4194304 : Nat) = 1 then 0 else n.val; rw [if_neg (by decide)])).trans ?_
  exact shapeCast_1a_a_apply l _ n

/-! ## The second region's entry -/

/-- The second region finds the same features … -/
theorem entry1_X (c : Dev nD) : Xof (V3 m ρ) c = Xof (V1 m ρ) c := by
  have e : V3 m ρ c main_v0 = V1 m ρ c main_v0 := by
    show StableHlo.after hostOps1 _ (Proc.devRef .tc main_v0) = _
    after_results
    exact W2_feats m ρ c
  funext f n
  unfold Xof
  rw [e]
/-- … the same labels … -/
theorem entry1_L (c : Dev nD) : Lof (V3 m ρ) c = Lof (V1 m ρ) c := by
  have e : V3 m ρ c main_v2 = V1 m ρ c main_v2 := by
    show StableHlo.after hostOps1 _ (Proc.devRef .tc main_v2) = _
    after_results
    exact W2_labels m ρ c
  funext n
  unfold Lof
  rw [e]

/-- … and the table of class means, the background column zeroed by a 0/1 factor. -/
theorem entry1_M (c : Dev nD) (f : Fin 5) (k : Fin 33) :
    Mof (V3 m ρ) c f k = mean (cntK m ρ c) (smK m ρ c) k f * FloatOps.uitofp (F := Ideal) .f32 (notBg k) := by
  unfold Mof
  show (W3 m ρ c (Proc.devRef .tc main_v30) : S5x33.Idx → EReal) (ix2 f k) = _
  rw [W3_zeroed, zmeanOf_apply, meanOf_apply, safeOf_apply, notBgVec_apply, cntOf_cnts, smOf_sums]
  rfl

/-! ## What the host operations between the regions leave for the operations after the second region -/

/-- The counts, at least one. -/
theorem mid_safe (c : Dev nD) (k : Fin 33) :
    (W3 m ρ c (Proc.devRef .tc main_v15) : S33.Idx → EReal) (ix1 k) = safe (cntK m ρ c) k := by
  rw [W3_safe, safeOf_apply, cntOf_cnts]
  rfl
/-- The class means (feature, class). -/
theorem mid_mean (c : Dev nD) (f : Fin 5) (k : Fin 33) :
    (W3 m ρ c (Proc.devRef .tc main_v18) : S5x33.Idx → EReal) (ix2 f k) = mean (cntK m ρ c) (smK m ρ c) k f := by
  rw [W3_mean, meanOf_apply, safeOf_apply, cntOf_cnts, smOf_sums]
  rfl
/-- Which classes have a point. -/
theorem mid_present (c : Dev nD) (k : Fin 33) :
    (W3 m ρ c (Proc.devRef .tc main_v20) : S33.Idx → BitVec 1) (ix1 k) = present (cntK m ρ c) k := by
  rw [W3_present, presentOf_apply, cntOf_cnts]
  rfl
/-- Which classes have a point and are not background. -/
theorem mid_nz (c : Dev nD) (k : Fin 33) :
    (W3 m ρ c (Proc.devRef .tc main_v24) : S33.Idx → BitVec 1) (ix1 k) = nz (cntK m ρ c) k := by
  rw [W3_nz, nzOf_apply, presentOf_apply, notBgVec_apply, cntOf_cnts]
  rfl

end Cert.KernelIdeal.KV

end
-- ==== Proof.KHostTail.lean ====
/-
  The kernel program's host operations after the second region, read at an index: the result is the loss of the
  three aggregates.
-/
import proofs.«422653_j65403761984267_3_alg».proof.Proof.KHostMid
import Idealize.ShloMosaic.Lib.Pipeline.Value
import Idealize.ShloMosaic.PureOps.Ideal.Laws
import Idealize.ShloMosaic.Lib.ValueLayout
import Idealize.ShloMosaic.Lib.Tactic
import Idealize.ShloMosaic.Lib.StableHlo.Run
import Idealize.ShloMosaic.Lib.IdealHost

open scoped BigOperators

noncomputable section

namespace Cert.KernelIdeal.KV

open Cert.KernelIdeal Cert.KernelIdeal.Gen Cert.Proof.Spec
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

namespace Tail

variable (V : Valuation τ sig (Elt Ideal))

/-- The variance sums: the two cores' rows of the second region's result, added. -/
def vsArr (vr : FVec Ideal S2x1x33 .f32) : FVec Ideal S33 .f32 :=
  addf (shapeCast S33 (extractStridedSlice S1x1x33 ![0, 0, 0] vr slices_S2x1x33_S1x1x33_0_0_0) shapeCasts_S1x1x33_S33)
    (shapeCast S33 (extractStridedSlice S1x1x33 ![1, 0, 0] vr slices_S2x1x33_S1x1x33_1_0_0) shapeCasts_S1x1x33_S33)

/-- The sum of a class-indexed array, from zero. -/
def sum33 (x : FVec Ideal S33 .f32) : FVec Ideal S_ .f32 :=
  Host.reduceAdd x (constant S_ .f32 0x00000000#32) reducesTo_S33_S_d0 h_S_

/-- The class means zeroed outside the present non-background classes by a 0/1 factor (feature, class). -/
def msArr (mn : FVec Ideal S5x33 .f32) (nzv : IVec S33 1) : FVec Ideal S5x33 .f32 :=
  mulf mn (broadcastInDim S5x33 ![0, 1] bcast_S1x33_S5x33_0_1
    (uitofp .f32 (broadcastInDim S1x33 ![1] bcast_S33_S1x33_1 nzv)))

/-- The L1 distances of the zeroed means of every ordered pair of classes. -/
def distArr (ms : FVec Ideal S5x33 .f32) : FVec Ideal S33x33 .f32 :=
  Host.reduceAdd
    (Host.absf (subf
      (broadcastInDim S5x33x33 ![0, 1, 2] bcast_S5x33x1_S5x33x33_0_1_2 (broadcastInDim S5x33x1 ![0, 1] bcast_S5x33_S5x33x1_0_1 ms))
      (broadcastInDim S5x33x33 ![0, 1, 2] bcast_S5x1x33_S5x33x33_0_1_2 (broadcastInDim S5x1x33 ![0, 2] bcast_S5x33_S5x1x33_0_2 ms))))
    (constant S_ .f32 0x00000000#32) reducesTo_S5x33x33_S33x33_d0 h_S_

/-- The ordered pairs of distinct present non-background classes. -/
def pairMaskArr (nzv : IVec S33 1) : IVec S33x33 1 :=
  andi
    (andi (broadcastInDim S33x33 ![0, 1] bcast_S33x1_S33x33_0_1 (broadcastInDim S33x1 ![0] bcast_S33_S33x1_0 nzv))
      (broadcastInDim S33x33 ![0, 1] bcast_S1x33_S33x33_0_1 (broadcastInDim S1x33 ![1] bcast_S33_S1x33_1 nzv)))
    (noti (cmpi .eq (addi (iotaInDim S33x33 32 0) (broadcastInDim S33x33 ![] bcast_S_S33x33 (constantI S_ 32 0#32)))
      (iotaInDim S33x33 32 1)))

/-- The squared hinge of three less a distance. -/
def hingeArr (d : FVec Ideal S33x33 .f32) : FVec Ideal S33x33 .f32 :=
  mulf
    (maximumf (subf (broadcastInDim S33x33 ![] bcast_S_S33x33 (constant S_ .f32 0x40400000#32)) d)
      (broadcastInDim S33x33 ![] bcast_S_S33x33 (constant S_ .f32 0x00000000#32)))
    (maximumf (subf (broadcastInDim S33x33 ![] bcast_S_S33x33 (constant S_ .f32 0x40400000#32)) d)
      (broadcastInDim S33x33 ![] bcast_S_S33x33 (constant S_ .f32 0x00000000#32)))

/-- The sum of an array over ordered pairs of classes, from zero. -/
def sum33x33 (x : FVec Ideal S33x33 .f32) : FVec Ideal S_ .f32 :=
  Host.reduceAdd x (constant S_ .f32 0x00000000#32) reducesTo_S33x33_S_d0_1 h_S_

/-- The L1 norm of each class's row of a (feature, class) table, from zero. -/
def l1Arr (ms : FVec Ideal S5x33 .f32) : FVec Ideal S33 .f32 :=
  Host.reduceAdd (Host.absf ms) (constant S_ .f32 0x00000000#32) reducesTo_S5x33_S33_d0 h_S_

/-! ## Each stretch of host operations after the second region, at the buffers the later ones read

  Seven stretches follow the second region. From contents `V` at a stretch's entry, each lemma gives one buffer after
  the stretch: an array the stretch forms (the class variances, the number of present classes, the zeroed means, the
  pair mask, the hinge, the three terms, the loss), or an array of an earlier stretch that it leaves as it was. -/

theorem after0_cvar : StableHlo.after hostOps2 V (Proc.devRef .tc main_v37)
    = Host.divf (vsArr (V (Proc.devRef .tc main_v31))) (V (Proc.devRef .tc main_v15)) := by
  after_results_simp; rfl
theorem after0_nUnique : StableHlo.after hostOps2 V (Proc.devRef .tc main_v39)
    = sum33 (uitofp .f32 (V (Proc.devRef .tc main_v20))) := by
  after_results_simp; rfl
theorem after0_zero : (StableHlo.after hostOps2 V (Proc.devRef .tc main_cst_3) : FVec Ideal S_ .f32)
    = constant (F := Ideal) S_ .f32 0x00000000#32 := by
  after_results_simp
theorem after0_nz : StableHlo.after hostOps2 V (Proc.devRef .tc main_v24) = V (Proc.devRef .tc main_v24) := by
  after_results_simp
theorem after0_mean : StableHlo.after hostOps2 V (Proc.devRef .tc main_v18) = V (Proc.devRef .tc main_v18) := by
  after_results_simp

theorem after1_cvarSel : StableHlo.after hostOps2_1 V (Proc.devRef .tc main_v40)
    = select (V (Proc.devRef .tc main_v24)) (V (Proc.devRef .tc main_v37))
        (broadcastInDim S33 ![] bcast_S_S33 (id (V (Proc.devRef .tc main_cst_3)))) := by
  after_results_simp; rfl
theorem after1_nz : StableHlo.after hostOps2_1 V (Proc.devRef .tc main_v24) = V (Proc.devRef .tc main_v24) := by
  after_results_simp
theorem after1_mean : StableHlo.after hostOps2_1 V (Proc.devRef .tc main_v18) = V (Proc.devRef .tc main_v18) := by
  after_results_simp
theorem after1_nUnique : StableHlo.after hostOps2_1 V (Proc.devRef .tc main_v39) = V (Proc.devRef .tc main_v39) := by
  after_results_simp

theorem after2_varTerm : StableHlo.after hostOps2_2 V (Proc.devRef .tc main_v42)
    = Host.divf (sum33 (V (Proc.devRef .tc main_v40))) (V (Proc.devRef .tc main_v39)) := by
  after_results_simp; rfl
theorem after2_ms : StableHlo.after hostOps2_2 V (Proc.devRef .tc main_v46)
    = msArr (V (Proc.devRef .tc main_v18)) (V (Proc.devRef .tc main_v24)) := by
  after_results_simp; rfl
theorem after2_pairMask : StableHlo.after hostOps2_2 V (Proc.devRef .tc main_v65)
    = pairMaskArr (V (Proc.devRef .tc main_v24)) := by
  after_results_simp; rfl
theorem after2_hinge : StableHlo.after hostOps2_2 V (Proc.devRef .tc main_v70)
    = hingeArr (distArr (msArr (V (Proc.devRef .tc main_v18)) (V (Proc.devRef .tc main_v24)))) := by
  after_results_simp; rfl
theorem after2_nC : StableHlo.after hostOps2_2 V (Proc.devRef .tc main_v72)
    = sum33 (uitofp .f32 (V (Proc.devRef .tc main_v24))) := by
  after_results_simp; rfl
theorem after2_zero : (StableHlo.after hostOps2_2 V (Proc.devRef .tc main_cst_10) : FVec Ideal S_ .f32)
    = constant (F := Ideal) S_ .f32 0x00000000#32 := by
  after_results_simp
theorem after2_nz : StableHlo.after hostOps2_2 V (Proc.devRef .tc main_v24) = V (Proc.devRef .tc main_v24) := by
  after_results_simp

theorem after3_hingeSel : StableHlo.after hostOps2_3 V (Proc.devRef .tc main_v73)
    = select (V (Proc.devRef .tc main_v65)) (V (Proc.devRef .tc main_v70))
        (broadcastInDim S33x33 ![] bcast_S_S33x33 (id (V (Proc.devRef .tc main_cst_10)))) := by
  after_results_simp; rfl
theorem after3_nz : StableHlo.after hostOps2_3 V (Proc.devRef .tc main_v24) = V (Proc.devRef .tc main_v24) := by
  after_results_simp
theorem after3_varTerm : StableHlo.after hostOps2_3 V (Proc.devRef .tc main_v42) = V (Proc.devRef .tc main_v42) := by
  after_results_simp
theorem after3_ms : StableHlo.after hostOps2_3 V (Proc.devRef .tc main_v46) = V (Proc.devRef .tc main_v46) := by
  after_results_simp
theorem after3_nC : StableHlo.after hostOps2_3 V (Proc.devRef .tc main_v72) = V (Proc.devRef .tc main_v72) := by
  after_results_simp

theorem after4_distTerm : StableHlo.after hostOps2_4 V (Proc.devRef .tc main_v77)
    = Host.divf (sum33x33 (V (Proc.devRef .tc main_v73)))
        (mulf (V (Proc.devRef .tc main_v72)) (subf (V (Proc.devRef .tc main_v72)) (constant S_ .f32 0x3F800000#32))) := by
  after_results_simp; rfl
theorem after4_l1 : StableHlo.after hostOps2_4 V (Proc.devRef .tc main_v79)
    = l1Arr (V (Proc.devRef .tc main_v46)) := by
  after_results_simp; rfl
theorem after4_zero : (StableHlo.after hostOps2_4 V (Proc.devRef .tc main_cst_14) : FVec Ideal S_ .f32)
    = constant (F := Ideal) S_ .f32 0x00000000#32 := by
  after_results_simp
theorem after4_nz : StableHlo.after hostOps2_4 V (Proc.devRef .tc main_v24) = V (Proc.devRef .tc main_v24) := by
  after_results_simp
theorem after4_varTerm : StableHlo.after hostOps2_4 V (Proc.devRef .tc main_v42) = V (Proc.devRef .tc main_v42) := by
  after_results_simp
theorem after4_nC : StableHlo.after hostOps2_4 V (Proc.devRef .tc main_v72) = V (Proc.devRef .tc main_v72) := by
  after_results_simp

theorem after5_l1Sel : StableHlo.after hostOps2_5 V (Proc.devRef .tc main_v80)
    = select (V (Proc.devRef .tc main_v24)) (V (Proc.devRef .tc main_v79))
        (broadcastInDim S33 ![] bcast_S_S33 (id (V (Proc.devRef .tc main_cst_14)))) := by
  after_results_simp; rfl
theorem after5_varTerm : StableHlo.after hostOps2_5 V (Proc.devRef .tc main_v42) = V (Proc.devRef .tc main_v42) := by
  after_results_simp
theorem after5_nC : StableHlo.after hostOps2_5 V (Proc.devRef .tc main_v72) = V (Proc.devRef .tc main_v72) := by
  after_results_simp
theorem after5_distTerm : StableHlo.after hostOps2_5 V (Proc.devRef .tc main_v77) = V (Proc.devRef .tc main_v77) := by
  after_results_simp

theorem after6_loss : StableHlo.after hostOps2_6 V (Proc.devRef .tc main_v88)
    = addf
        (addf (mulf (constant S_ .f32 0x3F800000#32) (V (Proc.devRef .tc main_v42)))
          (mulf (constant S_ .f32 0x3F800000#32) (V (Proc.devRef .tc main_v77))))
        (mulf (constant S_ .f32 0x3A83126F#32)
          (Host.divf (Host.divf (sum33 (V (Proc.devRef .tc main_v80))) (V (Proc.devRef .tc main_v72)))
            (V (Proc.devRef .tc main_v72)))) := by
  after_results_simp; rfl

/-! ## Sums over a rank-1 index set as sums over the coordinate -/

/-- A rank-1 index set is its coordinate's range … -/
def idxEquiv1 {n : Nat} : (⟨1, ![n]⟩ : Shape).Idx ≃ Fin n where
  toFun i := i 0
  invFun := ix1
  left_inv i := (eq_ix1 i).symm
  right_inv _ := rfl
/-- … so a sum over it is the sum over the coordinate. -/
theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The arrays read at an index -/

/-- The variance sum of class `k`: the two cores' entries added. -/
theorem vsArr_apply (vr : FVec Ideal S2x1x33 .f32) (k : Fin 33) :
    vsArr vr (ix1 k) = vr (ix3 (0 : Fin 2) (0 : Fin 1) k) + vr (ix3 (1 : Fin 2) (0 : Fin 1) k) := by
  unfold vsArr
  rw [addf_apply]
  rw [shapeCast_apply _ shapeCasts_S1x1x33_S33 (ix1 k) (ix3 (0 : Fin 1) (0 : Fin 1) k)
      (by rewrite [Shape.rowMajor_val_three, Shape.rowMajor_val_one]; show (0 * 1 + 0) * 33 + k.val = k.val; omega),
    shapeCast_apply _ shapeCasts_S1x1x33_S33 (ix1 k) (ix3 (0 : Fin 1) (0 : Fin 1) k)
      (by rewrite [Shape.rowMajor_val_three, Shape.rowMajor_val_one]; show (0 * 1 + 0) * 33 + k.val = k.val; omega)]
  rw [extractStridedSlice_apply ![0, 0, 0] vr slices_S2x1x33_S1x1x33_0_0_0 _ (ix3 (0 : Fin 2) (0 : Fin 1) k)
      (fun a => match a with
        | ⟨0, _⟩ => rfl
        | ⟨1, _⟩ => rfl
        | ⟨2, _⟩ => by show k.val = 0 + k.val; omega),
    extractStridedSlice_apply ![1, 0, 0] vr slices_S2x1x33_S1x1x33_1_0_0 _ (ix3 (1 : Fin 2) (0 : Fin 1) k)
      (fun a => match a with
        | ⟨0, _⟩ => rfl
        | ⟨1, _⟩ => rfl
        | ⟨2, _⟩ => by show k.val = 0 + k.val; omega)]

/-- The sum of a class-indexed array is zero plus the sum over the classes. -/
theorem sum33_apply (x : FVec Ideal S33 .f32) (i : S_.Idx) : sum33 x i = zeroF + ∑ k : Fin 33, x (ix1 k) := by
  unfold sum33
  rw [hostReduceAdd_apply, Ideal.hostReduceAdd_total reducesTo_S33_S_d0 (fun b => b.elim0), sum_idx1]
  rfl

/-- The sum over ordered pairs of classes is zero plus the double sum. -/
theorem sum33x33_apply (x : FVec Ideal S33x33 .f32) (i : S_.Idx) :
    sum33x33 x i = zeroF + ∑ a : Fin 33, ∑ b : Fin 33, x (ix2 a b) := by
  unfold sum33x33
  rw [hostReduceAdd_apply, Ideal.hostReduceAdd_total reducesTo_S33x33_S_d0_1 (fun b => b.elim0), sum_idx2]
  rfl

/-- A select against a broadcast scalar, at a class. -/
theorem where33_apply (c : IVec S33 1) (x : FVec Ideal S33 .f32) (z : FVec Ideal S_ .f32) (k : Fin 33) :
    select c x (broadcastInDim S33 ![] bcast_S_S33 (id z)) (ix1 k) = Scalar.select (c (ix1 k)) (x (ix1 k)) (z ix0) := by
  rw [select_apply, broadcastInDim_scalar_apply]
  rfl

/-- A select against a broadcast scalar, at an ordered pair of classes. -/
theorem where33x33_apply (c : IVec S33x33 1) (x : FVec Ideal S33x33 .f32) (z : FVec Ideal S_ .f32) (i j : Fin 33) :
    select c x (broadcastInDim S33x33 ![] bcast_S_S33x33 (id z)) (ix2 i j)
      = Scalar.select (c (ix2 i j)) (x (ix2 i j)) (z ix0) := by
  rw [select_apply, broadcastInDim_scalar_apply]
  rfl

/-! ## Elementwise operations read at an index -/

theorem andi_apply {s : Shape} {w : Nat} (x y : IVec s w) (i : s.Idx) : andi x y i = IntOp.andi (x i) (y i) := rfl
theorem noti_apply {s : Shape} {w : Nat} (x : IVec s w) (i : s.Idx) : noti x i = ~~~(x i) := rfl
theorem cmpi_apply {s : Shape} {w : Nat} (p : CmpIPredicate) (x y : IVec s w) (i : s.Idx) :
    cmpi p x y i = IntOp.cmpi p (x i) (y i) := rfl
theorem addi_apply {s : Shape} {w : Nat} (x y : IVec s w) (i : s.Idx) : addi x y i = IntOp.addi (x i) (y i) := rfl
theorem uitofp_apply {s : Shape} {w : Nat} (φ : FTy) (x : IVec s w) (i : s.Idx) :
    (uitofp φ x : FVec Ideal s φ) i = FloatOps.uitofp (F := Ideal) φ (x i) := rfl
theorem hostAbsf_apply {s : Shape} {φ : FTy} (x : FVec Ideal s φ) (i : s.Idx) :
    Host.absf x i = FloatOps.absf (F := Ideal) (x i) := rfl

/-! ## Broadcasts read at an index -/

section Broadcasts
variable {α : Type}

theorem bc_33_1x33 (x : S33.Idx → α) (z : Fin 1) (k : Fin 33) :
    broadcastInDim S1x33 ![1] bcast_S33_S1x33_1 x (ix2 z k) = x (ix1 k) :=
  broadcastInDim_apply _ bcast_S33_S1x33_1 x (ix2 z k) (ix1 k) (fun a => match a with
    | ⟨0, _⟩ => by show k.val = if (33 : Nat) = 1 then 0 else k.val; rw [if_neg (by decide)])
theorem bc_1x33_5x33 (x : S1x33.Idx → α) (f : Fin 5) (k : Fin 33) :
    broadcastInDim S5x33 ![0, 1] bcast_S1x33_S5x33_0_1 x (ix2 f k) = x (ix2 (0 : Fin 1) k) :=
  broadcastInDim_apply _ bcast_S1x33_S5x33_0_1 x (ix2 f k) (ix2 (0 : Fin 1) k) (fun a => match a with
    | ⟨0, _⟩ => by show 0 = if (1 : Nat) = 1 then 0 else f.val; rw [if_pos rfl]
    | ⟨1, _⟩ => by show k.val = if (33 : Nat) = 1 then 0 else k.val; rw [if_neg (by decide)])
theorem bc_5x33_5x33x1 (x : S5x33.Idx → α) (f : Fin 5) (i : Fin 33) (z : Fin 1) :
    broadcastInDim S5x33x1 ![0, 1] bcast_S5x33_S5x33x1_0_1 x (ix3 f i z) = x (ix2 f i) :=
  broadcastInDim_apply _ bcast_S5x33_S5x33x1_0_1 x (ix3 f i z) (ix2 f i) (fun a => match a with
    | ⟨0, _⟩ => by show f.val = if (5 : Nat) = 1 then 0 else f.val; rw [if_neg (by decide)]
    | ⟨1, _⟩ => by show i.val = if (33 : Nat) = 1 then 0 else i.val; rw [if_neg (by decide)])
theorem bc_5x33_5x1x33 (x : S5x33.Idx → α) (f : Fin 5) (z : Fin 1) (j : Fin 33) :
    broadcastInDim S5x1x33 ![0, 2] bcast_S5x33_S5x1x33_0_2 x (ix3 f z j) = x (ix2 f j) :=
  broadcastInDim_apply _ bcast_S5x33_S5x1x33_0_2 x (ix3 f z j) (ix2 f j) (fun a => match a with
    | ⟨0, _⟩ => by show f.val = if (5 : Nat) = 1 then 0 else f.val; rw [if_neg (by decide)]
    | ⟨1, _⟩ => by show j.val = if (33 : Nat) = 1 then 0 else j.val; rw [if_neg (by decide)])
theorem bc_5x33x1_5x33x33 (x : S5x33x1.Idx → α) (f : Fin 5) (i j : Fin 33) :
    broadcastInDim S5x33x33 ![0, 1, 2] bcast_S5x33x1_S5x33x33_0_1_2 x (ix3 f i j) = x (ix3 f i (0 : Fin 1)) :=
  broadcastInDim_apply _ bcast_S5x33x1_S5x33x33_0_1_2 x (ix3 f i j) (ix3 f i (0 : Fin 1)) (fun a => match a with
    | ⟨0, _⟩ => by show f.val = if (5 : Nat) = 1 then 0 else f.val; rw [if_neg (by decide)]
    | ⟨1, _⟩ => by show i.val = if (33 : Nat) = 1 then 0 else i.val; rw [if_neg (by decide)]
    | ⟨2, _⟩ => by show 0 = if (1 : Nat) = 1 then 0 else j.val; rw [if_pos rfl])
theorem bc_5x1x33_5x33x33 (x : S5x1x33.Idx → α) (f : Fin 5) (i j : Fin 33) :
    broadcastInDim S5x33x33 ![0, 1, 2] bcast_S5x1x33_S5x33x33_0_1_2 x (ix3 f i j) = x (ix3 f (0 : Fin 1) j) :=
  broadcastInDim_apply _ bcast_S5x1x33_S5x33x33_0_1_2 x (ix3 f i j) (ix3 f (0 : Fin 1) j) (fun a => match a with
    | ⟨0, _⟩ => by show f.val = if (5 : Nat) = 1 then 0 else f.val; rw [if_neg (by decide)]
    | ⟨1, _⟩ => by show 0 = if (1 : Nat) = 1 then 0 else i.val; rw [if_pos rfl]
    | ⟨2, _⟩ => by show j.val = if (33 : Nat) = 1 then 0 else j.val; rw [if_neg (by decide)])
theorem bc_33_33x1 (x : S33.Idx → α) (i : Fin 33) (z : Fin 1) :
    broadcastInDim S33x1 ![0] bcast_S33_S33x1_0 x (ix2 i z) = x (ix1 i) :=
  broadcastInDim_apply _ bcast_S33_S33x1_0 x (ix2 i z) (ix1 i) (fun a => match a with
    | ⟨0, _⟩ => by show i.val = if (33 : Nat) = 1 then 0 else i.val; rw [if_neg (by decide)])
theorem bc_33x1_33x33 (x : S33x1.Idx → α) (i j : Fin 33) :
    broadcastInDim S33x33 ![0, 1] bcast_S33x1_S33x33_0_1 x (ix2 i j) = x (ix2 i (0 : Fin 1)) :=
  broadcastInDim_apply _ bcast_S33x1_S33x33_0_1 x (ix2 i j) (ix2 i (0 : Fin 1)) (fun a => match a with
    | ⟨0, _⟩ => by show i.val = if (33 : Nat) = 1 then 0 else i.val; rw [if_neg (by decide)]
    | ⟨1, _⟩ => by show 0 = if (1 : Nat) = 1 then 0 else j.val; rw [if_pos rfl])
theorem bc_1x33_33x33 (x : S1x33.Idx → α) (i j : Fin 33) :
    broadcastInDim S33x33 ![0, 1] bcast_S1x33_S33x33_0_1 x (ix2 i j) = x (ix2 (0 : Fin 1) j) :=
  broadcastInDim_apply _ bcast_S1x33_S33x33_0_1 x (ix2 i j) (ix2 (0 : Fin 1) j) (fun a => match a with
    | ⟨0, _⟩ => by show 0 = if (1 : Nat) = 1 then 0 else i.val; rw [if_pos rfl]
    | ⟨1, _⟩ => by show j.val = if (33 : Nat) = 1 then 0 else j.val; rw [if_neg (by decide)])

end Broadcasts

/-- The zeroed mean of class `k`, feature `f`: the mean times the class's 0/1 factor. -/
theorem msArr_apply (mn : FVec Ideal S5x33 .f32) (nzv : IVec S33 1) (f : Fin 5) (k : Fin 33) :
    msArr mn nzv (ix2 f k) = mn (ix2 f k) * FloatOps.uitofp (F := Ideal) .f32 (nzv (ix1 k)) := by
  unfold msArr
  rw [mulf_apply, bc_1x33_5x33, uitofp_apply, bc_33_1x33]

/-- The L1 distance of classes `i` and `j`: zero plus the sum over the features. -/
theorem distArr_apply (ms : FVec Ideal S5x33 .f32) (i j : Fin 33) :
    distArr ms (ix2 i j)
      = zeroF + ∑ f : Fin 5, FloatOps.absf (F := Ideal) (φ := .f32) (ms (ix2 f i) - ms (ix2 f j)) := by
  unfold distArr
  have hR : S5x33x33.Reduces [0] S33x33 := by decide
  rw [hostReduceAdd_apply, Ideal.hostReduceAdd_single reducesTo_S5x33x33_S33x33_d0 hR]
  refine congrArg (_ + ·) (Finset.sum_congr rfl fun (f : Fin 5) _ => ?_)
  rw [show hR.lift (ix2 i j) f = ix3 f i j from funext fun a => Fin.ext (by
    match a with | ⟨0, _⟩ => rfl | ⟨1, _⟩ => rfl | ⟨2, _⟩ => rfl)]
  rw [hostAbsf_apply, subf_apply, bc_5x33x1_5x33x33, bc_5x33_5x33x1, bc_5x1x33_5x33x33, bc_5x33_5x1x33]

/-- The L1 norm of class `k`'s row: zero plus the sum over the features. -/
theorem l1Arr_apply (ms : FVec Ideal S5x33 .f32) (k : Fin 33) :
    l1Arr ms (ix1 k) = zeroF + ∑ f : Fin 5, FloatOps.absf (F := Ideal) (φ := .f32) (ms (ix2 f k)) := by
  unfold l1Arr
  have hR : S5x33.Reduces [0] S33 := by decide
  rw [hostReduceAdd_apply, Ideal.hostReduceAdd_single reducesTo_S5x33_S33_d0 hR]
  refine congrArg (_ + ·) (Finset.sum_congr rfl fun (f : Fin 5) _ => ?_)
  rw [show hR.lift (ix1 k) f = ix2 f k from funext fun a => Fin.ext (by
    match a with | ⟨0, _⟩ => rfl | ⟨1, _⟩ => rfl)]
  rw [hostAbsf_apply]

/-- The pair mask at `(i, j)`: both classes selected, and the two class words different. -/
theorem pairMaskArr_apply (nzv : IVec S33 1) (i j : Fin 33) :
    pairMaskArr nzv (ix2 i j)
      = IntOp.andi (IntOp.andi (nzv (ix1 i)) (nzv (ix1 j))) (~~~(IntOp.cmpi .eq (IntOp.addi (cls i) 0#32) (cls j))) := by
  unfold pairMaskArr
  rw [andi_apply, andi_apply, noti_apply, cmpi_apply, addi_apply, iotaInDim_apply, iotaInDim_apply,
    bc_33x1_33x33, bc_33_33x1, bc_1x33_33x33, bc_33_1x33, broadcastInDim_scalar_apply]
  rfl

/-- The squared hinge at `(i, j)`. -/
theorem hingeArr_apply (d : FVec Ideal S33x33 .f32) (i j : Fin 33) :
    hingeArr d (ix2 i j) = max (threeF - d (ix2 i j)) zeroF * max (threeF - d (ix2 i j)) zeroF := by
  unfold hingeArr
  rw [mulf_apply, maximumf_apply, subf_apply, broadcastInDim_scalar_apply, broadcastInDim_scalar_apply]
  rfl

/-! ## The loss of the arrays is the loss of the aggregates -/

theorem zeroF_eq : zeroF = 0 := Ideal.ofBits_zero_f32

/-- A 0/1 factor made from a bit is a select against zero: `x · 1 = x` and `x · 0 = 0` for every extended real. -/
theorem mul_uitofp_bit (x : EReal) (b : BitVec 1) :
    x * FloatOps.uitofp (F := Ideal) .f32 b = Scalar.select b x zeroF := by
  by_cases h : b = 1#1
  · subst h
    rw [select_one]
    show x * (((1#1 : BitVec 1).toNat : ℝ) : EReal) = x
    simp
  · have h0 := eq_zero_of_ne_one h
    subst h0
    rw [select_zero, zeroF_eq]
    show x * (((0#1 : BitVec 1).toNat : ℝ) : EReal) = 0
    simp

/-- The variance term, the pairwise term and the regularizer of the arrays, and the loss. -/
def varTermArr (vr : FVec Ideal S2x1x33 .f32) (sf : FVec Ideal S33 .f32) (pr nzv : IVec S33 1) : FVec Ideal S_ .f32 :=
  Host.divf
    (sum33 (select nzv (Host.divf (vsArr vr) sf)
      (broadcastInDim S33 ![] bcast_S_S33 (id (constant (F := Ideal) S_ .f32 0x00000000#32)))))
    (sum33 (uitofp .f32 pr))
def distTermArr (mn : FVec Ideal S5x33 .f32) (nzv : IVec S33 1) : FVec Ideal S_ .f32 :=
  Host.divf
    (sum33x33 (select (pairMaskArr nzv) (hingeArr (distArr (msArr mn nzv)))
      (broadcastInDim S33x33 ![] bcast_S_S33x33 (id (constant (F := Ideal) S_ .f32 0x00000000#32)))))
    (mulf (sum33 (uitofp .f32 nzv)) (subf (sum33 (uitofp .f32 nzv)) (constant S_ .f32 0x3F800000#32)))
def regTermArr (mn : FVec Ideal S5x33 .f32) (nzv : IVec S33 1) : FVec Ideal S_ .f32 :=
  Host.divf
    (Host.divf
      (sum33 (select nzv (l1Arr (msArr mn nzv))
        (broadcastInDim S33 ![] bcast_S_S33 (id (constant (F := Ideal) S_ .f32 0x00000000#32)))))
      (sum33 (uitofp .f32 nzv)))
    (sum33 (uitofp .f32 nzv))
def lossArr (vr : FVec Ideal S2x1x33 .f32) (sf : FVec Ideal S33 .f32) (mn : FVec Ideal S5x33 .f32) (pr nzv : IVec S33 1) :
    FVec Ideal S_ .f32 :=
  addf
    (addf (mulf (constant S_ .f32 0x3F800000#32) (varTermArr vr sf pr nzv))
      (mulf (constant S_ .f32 0x3F800000#32) (distTermArr mn nzv)))
    (mulf (constant S_ .f32 0x3A83126F#32) (regTermArr mn nzv))

section Loss

variable (vr : FVec Ideal S2x1x33 .f32) (sf : FVec Ideal S33 .f32) (mn : FVec Ideal S5x33 .f32) (pr nzv : IVec S33 1)
  (cnt : Fin 33 → EReal) (sm : Fin 33 → Fin 5 → EReal) (vs : Fin 33 → EReal)
  (hvs : ∀ k, vr (ix3 (0 : Fin 2) (0 : Fin 1) k) + vr (ix3 (1 : Fin 2) (0 : Fin 1) k) = vs k)
  (hsf : ∀ k, sf (ix1 k) = safe cnt k) (hmn : ∀ f k, mn (ix2 f k) = mean cnt sm k f)
  (hpr : ∀ k, pr (ix1 k) = present cnt k) (hnz : ∀ k, nzv (ix1 k) = nz cnt k)

include hpr in
theorem nUnique_eq (i : S_.Idx) : sum33 (uitofp .f32 pr) i = nUnique cnt := by
  rw [sum33_apply]
  unfold nUnique
  refine congrArg (_ + ·) (Finset.sum_congr rfl fun k _ => ?_)
  rw [uitofp_apply, hpr]

include hnz in
theorem nC_eq (i : S_.Idx) : sum33 (uitofp .f32 nzv) i = nC cnt := by
  rw [sum33_apply]
  unfold nC
  refine congrArg (_ + ·) (Finset.sum_congr rfl fun k _ => ?_)
  rw [uitofp_apply, hnz]

include hmn hnz in
theorem ms_eq (f : Fin 5) (k : Fin 33) : msArr mn nzv (ix2 f k) = ms cnt sm k f := by
  rw [msArr_apply, hmn, hnz, mul_uitofp_bit]
  rfl

include hvs hsf hpr hnz in
theorem varTerm_eq : varTermArr vr sf pr nzv ix0 = varTerm cnt vs := by
  unfold varTermArr varTerm
  rw [hostDivf_apply, nUnique_eq pr cnt hpr, sum33_apply]
  refine congrArg (fun t => Ideal.div (zeroF + t) _) (Finset.sum_congr rfl fun k _ => ?_)
  rw [where33_apply, hostDivf_apply, vsArr_apply, hvs, hsf, hnz]
  rfl

include hmn hnz in
theorem dist_eq (i j : Fin 33) : distArr (msArr mn nzv) (ix2 i j) = Proof.Spec.dist cnt sm i j := by
  rw [distArr_apply]
  unfold Proof.Spec.dist
  refine congrArg (_ + ·) (Finset.sum_congr rfl fun f _ => ?_)
  rw [ms_eq mn nzv cnt sm hmn hnz, ms_eq mn nzv cnt sm hmn hnz]

include hnz in
theorem pairMask_eq (i j : Fin 33) : pairMaskArr nzv (ix2 i j) = pairMask cnt i j := by
  rw [pairMaskArr_apply, hnz, hnz]
  rfl

include hmn hnz in
theorem hinge_eq (i j : Fin 33) : hingeArr (distArr (msArr mn nzv)) (ix2 i j) = hinge cnt sm i j := by
  rw [hingeArr_apply, dist_eq mn nzv cnt sm hmn hnz]
  rfl

include hmn hnz in
theorem distTerm_eq : distTermArr mn nzv ix0 = distTerm cnt sm := by
  unfold distTermArr distTerm
  rw [hostDivf_apply, mulf_apply, subf_apply, nC_eq nzv cnt hnz, sum33x33_apply]
  refine congrArg (fun t => Ideal.div (zeroF + t) _)
    (Finset.sum_congr rfl fun i _ => Finset.sum_congr rfl fun j _ => ?_)
  rw [where33x33_apply, pairMask_eq nzv cnt hnz, hinge_eq mn nzv cnt sm hmn hnz]
  rfl

include hmn hnz in
theorem regTerm_eq : regTermArr mn nzv ix0 = regTerm cnt sm := by
  unfold regTermArr regTerm
  rw [hostDivf_apply, hostDivf_apply, nC_eq nzv cnt hnz, sum33_apply]
  refine congrArg (fun t => Ideal.div (Ideal.div (zeroF + t) _) _) (Finset.sum_congr rfl fun k _ => ?_)
  rw [where33_apply, hnz, l1Arr_apply]
  refine congrArg (fun t => Scalar.select _ (zeroF + t) _) (Finset.sum_congr rfl fun f _ => ?_)
  rw [ms_eq mn nzv cnt sm hmn hnz]

include hvs hsf hmn hpr hnz in
/-- The loss of the arrays is the loss of the aggregates they hold. -/
theorem lossArr_eq : lossArr vr sf mn pr nzv ix0 = loss cnt sm vs := by
  unfold lossArr loss
  rw [addf_apply, addf_apply, mulf_apply, mulf_apply, mulf_apply,
    varTerm_eq vr sf pr nzv cnt vs hvs hsf hpr hnz, distTerm_eq mn nzv cnt sm hmn hnz,
    regTerm_eq mn nzv cnt sm hmn hnz]
  rfl

end Loss

/-! ## The result buffer after the seven stretches -/

/-- The result buffer after the seven stretches, from the contents `V` the second region leaves: the loss of the
    arrays `V` holds (the variance sums, the counts at least one, the means, and the two class masks). -/
theorem tail_loss :
    (StableHlo.after hostOps2_6 (StableHlo.after hostOps2_5 (StableHlo.after hostOps2_4 (StableHlo.after hostOps2_3
      (StableHlo.after hostOps2_2 (StableHlo.after hostOps2_1 (StableHlo.after hostOps2 V))))))
        (Proc.devRef .tc main_v88) : FVec Ideal S_ .f32)
      = lossArr (V (Proc.devRef .tc main_v31)) (V (Proc.devRef .tc main_v15)) (V (Proc.devRef .tc main_v18))
          (V (Proc.devRef .tc main_v20)) (V (Proc.devRef .tc main_v24)) := by
  rw [after6_loss]
  rw [after5_varTerm, after5_distTerm, after5_nC, after5_l1Sel]
  rw [after4_varTerm, after4_distTerm, after4_nC, after4_nz, after4_l1, after4_zero]
  rw [after3_varTerm, after3_nC, after3_nz, after3_ms, after3_hingeSel]
  rw [after2_varTerm, after2_nC, after2_nz, after2_ms, after2_pairMask, after2_hinge, after2_zero]
  rw [after1_cvarSel, after1_nUnique, after1_nz, after1_mean]
  rw [after0_cvar, after0_nUnique, after0_nz, after0_mean, after0_zero]
  rfl

end Tail

/-- The result buffer after the last host operation holds the loss of the three aggregates. -/
theorem result_eq (c : Dev nD) : resVal m ρ c ix0 = loss (cntK m ρ c) (smK m ρ c) (vsK m ρ c) := by
  have e : resVal m ρ c
      = Tail.lossArr (W4 m ρ c (Proc.devRef .tc main_v31)) (W4 m ρ c (Proc.devRef .tc main_v15))
          (W4 m ρ c (Proc.devRef .tc main_v18)) (W4 m ρ c (Proc.devRef .tc main_v20))
          (W4 m ρ c (Proc.devRef .tc main_v24)) := Tail.tail_loss (W4 m ρ c)
  rw [e]
  refine Tail.lossArr_eq _ _ _ _ _ (cntK m ρ c) (smK m ρ c) (vsK m ρ c)
    (fun k => ?_) (fun k => ?_) (fun f k => ?_) (fun k => ?_) (fun k => ?_)
  · have e31 : (W4 m ρ c (Proc.devRef .tc main_v31) : S2x1x33.Idx → EReal) = varsArr (V3 m ρ) c :=
      W4_arr m ρ c (3 : Fin cfg1.W)
    rw [e31]
    rfl
  · rw [W4_of_ne m ρ c main_v15 (by decide)]
    exact mid_safe m ρ c k
  · rw [W4_of_ne m ρ c main_v18 (by decide)]
    exact mid_mean m ρ c f k
  · rw [W4_of_ne m ρ c main_v20 (by decide)]
    exact mid_present m ρ c k
  · rw [W4_of_ne m ρ c main_v24 (by decide)]
    exact mid_nz m ρ c k

end Cert.KernelIdeal.KV

end
-- ==== Proof.Math.lean ====
/-
  The arithmetic that joins the two programs: a one-hot entry is 0 or 1, a sum against a one-hot row is the sum
  over the class's points, the two cores' block sums add up to the sum over all points, and a point's own-class mean
  picked by its one-hot row is the row a gather reads for its label.
-/
import proofs.«422653_j65403761984267_3_alg».proof.Proof.Spec

open scoped BigOperators

noncomputable section

namespace Cert.Proof.Spec

open Idealize.ShloMosaic

theorem zeroF_eq : zeroF = 0 := by
  show Ideal.ofBits .f32 0x00000000#32 = 0
  simp [Ideal.ofBits, Ideal.ieee]
theorem oneF_eq : oneF = 1 := by
  show Ideal.ofBits .f32 0x3F800000#32 = 1
  simp [Ideal.ofBits, Ideal.ieee, -EReal.coe_mul]; norm_num
theorem oneB_eq : oneB = 1 := by
  show Ideal.ofBits .bf16 0x3F80#16 = 1
  simp [Ideal.ofBits, Ideal.ieee, -EReal.coe_mul]; norm_num

/-- A class word read signed is the class. -/
theorem cls_toInt (k : Fin 33) : (cls k).toInt = (k.val : Int) := by
  have hk := k.isLt
  show (BitVec.ofNat 32 k.val).toInt = (k.val : Int)
  rw [BitVec.toInt_eq_toNat_cond, BitVec.toNat_ofNat]
  have : k.val % 2 ^ 32 = k.val := Nat.mod_eq_of_lt (by omega)
  rw [this]
  split <;> omega

/-- A one-hot entry is `1` when the label read signed is the class, else `0`. -/
theorem hot_eq (l : BitVec 32) (k : Fin 33) : hot l k = if l.toInt = (k.val : Int) then 1 else 0 := by
  have h1 : ((BitVec.ofBool true).setWidth 32).toInt = 1 := by decide
  have h0 : ((BitVec.ofBool false).setWidth 32).toInt = 0 := by decide
  show (((((BitVec.ofBool (decide ((((cls k).toInt : ℝ) : EReal) = ((l.toInt : ℝ) : EReal)))).setWidth 32).toInt : ℝ)) : EReal) = _
  rw [cls_toInt]
  by_cases h : l.toInt = (k.val : Int)
  · rw [if_pos h, h, decide_eq_true rfl, h1]
    simp
  · rw [if_neg h]
    have hne : ¬ ((((k.val : Int) : ℝ)) : EReal) = ((l.toInt : ℝ) : EReal) := by
      intro he
      exact h (by exact_mod_cast (EReal.coe_eq_coe_iff.mp he).symm)
    rw [decide_eq_false hne, h0]
    simp

/-- A sum over `a * b` indices, taken in `a` blocks of `b`. -/
theorem sum_in_blocks {M : Type} [AddCommMonoid M] (a b : Nat) (f : Fin (a * b) → M) :
    ∑ n : Fin (a * b), f n
      = ∑ i : Fin a, ∑ j : Fin b, f ⟨i.val * b + j.val, by
          have hi := i.isLt; have hj := j.isLt
          calc i.val * b + j.val < i.val * b + b := by omega
            _ = (i.val + 1) * b := by ring
            _ ≤ a * b := Nat.mul_le_mul_right b hi⟩ := by
  rw [← (finProdFinEquiv (m := a) (n := b)).sum_comp, Fintype.sum_prod_type]
  refine Finset.sum_congr rfl fun i _ => Finset.sum_congr rfl fun j _ => ?_
  congr 1
  apply Fin.ext
  show j.val + b * i.val = i.val * b + j.val
  rw [Nat.mul_comm, Nat.add_comm]

/-- The two cores' partial sums add up to the sum over all points. -/
theorem blockSum_total (g : Fin NPts → EReal) : blockSum g 0 + blockSum g 1 = ∑ n : Fin NPts, g n := by
  have hpts : (∑ n : Fin NPts, g n) = ∑ t : Fin 32, ∑ n : Fin 131072, g (gidx t n) :=
    sum_in_blocks 32 131072 g
  have hblk : (∑ t : Fin 32, ∑ n : Fin 131072, g (gidx t n))
      = ∑ c' : Fin 2, ∑ i : Fin 16, ∑ n : Fin 131072, g (gidx (pt c' i) n) :=
    sum_in_blocks 2 16 fun t : Fin 32 => ∑ n : Fin 131072, g (gidx t n)
  rw [hpts, hblk, Fin.sum_univ_two]
  rfl

/-- A label that reads signed as class `k` is the class word of `k`. -/
theorem eq_cls_of_toInt {l : BitVec 32} {k : Fin 33} (h : l.toInt = (k.val : Int)) : l = cls k :=
  BitVec.eq_of_toInt_eq (h.trans (cls_toInt k).symm)

/-- The gather reads row `k` for the class word of `k`: the word is not negative, so it is neither wrapped nor clamped. -/
theorem rowOf_cls (k : Fin 33) : rowOf (cls k) = k := by
  have hk := k.isLt
  have hslt : IntOp.cmpi .slt (cls k) 0#32 = 0#1 := by
    show BitVec.ofBool ((cls k).slt 0#32) = 0#1
    have : (cls k).slt 0#32 = false := by
      rw [BitVec.slt_eq_decide, cls_toInt, BitVec.toInt_zero]
      exact decide_eq_false (by omega)
    rw [this]; rfl
  apply Fin.ext
  show min (wrapIdx (cls k)).toInt.toNat 32 = k.val
  unfold wrapIdx
  rw [hslt, ValueIdx.select_zero, cls_toInt, Int.toNat_natCast]
  exact Nat.min_eq_left (by omega)

/-- Against the one-hot row of the class word of `k`, a sum over the classes picks the entry at `k`. -/
theorem sum_mul_hot_cls (a : Fin 33 → EReal) (k : Fin 33) : ∑ k' : Fin 33, a k' * hot (cls k) k' = a k := by
  rw [Finset.sum_eq_single k]
  · rw [hot_eq, if_pos (cls_toInt k), mul_one]
  · intro k' _ hne
    rw [hot_eq, if_neg, mul_zero]
    intro h
    rw [cls_toInt] at h
    exact hne (Fin.ext (by exact_mod_cast h.symm))
  · intro h
    exact absurd (Finset.mem_univ k) h

/-- Selecting a value or zero on a bit is multiplying the value by the bit read as a number. -/
theorem select_zeroF_eq_mul (b : BitVec 1) (x : EReal) :
    Scalar.select b x zeroF = x * FloatOps.uitofp (F := Ideal) .f32 b := by
  by_cases hb : b = 1#1
  · subst hb
    rw [ValueIdx.select_one]
    show x = x * (((1#1 : BitVec 1).toNat : ℝ) : EReal)
    simp
  · have hb0 := ValueIdx.eq_zero_of_ne_one hb
    subst hb0
    rw [ValueIdx.select_zero, zeroF_eq]
    show (0 : EReal) = x * (((0#1 : BitVec 1).toNat : ℝ) : EReal)
    simp

variable (X : Fin 5 → Fin NPts → EReal) (L : Fin NPts → BitVec 32)

theorem cntR_eq (k : Fin 33) : cntR L k = cntS L k := by
  unfold cntR cntS members
  rw [zeroF_eq, zero_add, oneF_eq, Finset.sum_filter]
  exact Finset.sum_congr rfl fun n _ => (hot_eq (L n) k).symm

theorem smR_eq (k : Fin 33) (f : Fin 5) : smR X L k f = smS X L k f := by
  unfold smR smS members
  rw [zeroF_eq, zero_add, Finset.sum_filter]
  refine Finset.sum_congr rfl fun n _ => ?_
  rw [hot_eq, mul_ite, mul_one, mul_zero]

/-- On a point of class `k` the variance contribution from the gathered row of class means is the one from the
    one-hot pick of the zeroed means. -/
theorem varR_eq_varOf (k : Fin 33) (n : Fin NPts) (hn : (L n).toInt = (k.val : Int)) :
    varR X L (mean (cntS L) (smS X L)) n = varOf X L (mmS X L) n := by
  have hterm : ∀ f : Fin 5,
      Scalar.select (IntOp.cmpi .ne (L n) 0#32) (mean (cntS L) (smS X L) (rowOf (L n)) f) zeroF
        = ∑ k' : Fin 33, mmS X L f k' * hot (L n) k' := by
    intro f
    rw [eq_cls_of_toInt hn, rowOf_cls, sum_mul_hot_cls (fun k' => mmS X L f k') k, select_zeroF_eq_mul]
    rfl
  unfold varR varOf
  simp only [hterm]
  rw [zeroF_eq, zero_add]

theorem vsR_eq (k : Fin 33) : vsR X L k = vsS X L k := by
  have hc : cntR L = cntS L := funext fun k' => cntR_eq L k'
  have hs : smR X L = smS X L := funext fun k' => funext fun f => smR_eq X L k' f
  unfold vsR vsS
  rw [hc, hs]
  unfold members
  rw [zeroF_eq, zero_add, Finset.sum_filter]
  refine Finset.sum_congr rfl fun n _ => ?_
  rw [hot_eq, mul_ite, mul_one, mul_zero]
  by_cases hn : (L n).toInt = (k.val : Int)
  · rw [if_pos hn, if_pos hn, varR_eq_varOf X L k n hn]
  · rw [if_neg hn, if_neg hn]

/-- The loss from the scattered aggregates is the loss from the one-hot sums. -/
theorem lossR_eq : lossR X L = lossS X L := by
  have hc : cntR L = cntS L := funext fun k => cntR_eq L k
  have hs : smR X L = smS X L := funext fun k => funext fun f => smR_eq X L k f
  have hv : vsR X L = vsS X L := funext fun k => vsR_eq X L k
  unfold lossR lossS
  rw [hc, hs, hv]

end Cert.Proof.Spec

end
-- ==== Proof.KValue.lean ====
/-
  The kernel program's result: the loss of the launch memory's points. The two cores' block sums of the first region
  add up to the counts and feature sums over all points; the host forms the class means from them; the second region's
  block sums, taken with that table of means, add up to the variance sums over all points; the host's last operations
  form the loss.
-/
import proofs.«422653_j65403761984267_3_alg».proof.Proof.KReg0
import proofs.«422653_j65403761984267_3_alg».proof.Proof.KReg1
import proofs.«422653_j65403761984267_3_alg».proof.Proof.KHostMid
import proofs.«422653_j65403761984267_3_alg».proof.Proof.KHostTail
import proofs.«422653_j65403761984267_3_alg».proof.Proof.KRun
import proofs.«422653_j65403761984267_3_alg».proof.Proof.Math

open scoped BigOperators

noncomputable section

namespace Cert.KernelIdeal.KV

open Cert.KernelIdeal Cert.KernelIdeal.Gen Cert.Proof.Spec
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- Feature `f` of point `n` in the launch memory. -/
def Xm (c : Dev nD) (f : Fin 5) (n : Fin NPts) : EReal :=
  (m ((c : Thread nD τ).loc main_arg0) : S1x5x4194304.Idx → EReal) (ix3 (0 : Fin 1) f n)
/-- The label word of point `n` in the launch memory. -/
def Lm (c : Dev nD) (n : Fin NPts) : BitVec 32 :=
  (m ((c : Thread nD τ).loc main_arg1) : S1x4194304.Idx → BitVec 32) (ix2 (0 : Fin 1) n)

theorem X1_eq (c : Dev nD) : Xof (V1 m ρ) c = Xm m c := funext fun f => funext fun n => entry0_X m ρ c f n
theorem L1_eq (c : Dev nD) : Lof (V1 m ρ) c = Lm m c := funext fun n => entry0_L m ρ c n

/-- The counts: the two cores' block sums of the one-hot entries are the sum over all points. -/
theorem cntK_eq (c : Dev nD) : cntK m ρ c = cntS (Lm m c) := by
  funext k
  unfold cntK cntS
  rw [reg0_counts, reg0_counts, blockSum_total, L1_eq]
  refine Finset.sum_congr rfl fun n _ => ?_
  rw [oneB_eq, one_mul]

/-- The feature sums likewise. -/
theorem smK_eq (c : Dev nD) : smK m ρ c = smS (Xm m c) (Lm m c) := by
  funext k f
  unfold smK smS
  rw [reg0_sums, reg0_sums, blockSum_total, X1_eq, L1_eq]

/-- The table the second region reads is the table of class means with the background column zeroed. -/
theorem M3_eq (c : Dev nD) : Mof (V3 m ρ) c = mmS (Xm m c) (Lm m c) := by
  funext f k
  rw [entry1_M, cntK_eq, smK_eq]
  rfl

/-- The variance sums: the two cores' block sums of the points' contributions are the sum over all points. -/
theorem vsK_eq (c : Dev nD) : vsK m ρ c = vsS (Xm m c) (Lm m c) := by
  funext k
  unfold vsK vsS
  rw [reg1_vars, reg1_vars, blockSum_total, entry1_X, entry1_L, X1_eq, L1_eq, M3_eq]

/-- The result buffer holds the loss of the launch memory's points. -/
theorem value_eq (c : Dev nD) : resVal m ρ c = fun _ => lossS (Xm m c) (Lm m c) := by
  funext i
  rw [eq_ix0 i, result_eq, cntK_eq, smK_eq, vsK_eq]
  rfl

/-- The kernel program's run, read: every weakly fair execution terminates, nothing faulting, with the result at the loss
    of the launch memory's points and the argument arrays unchanged. -/
theorem run : θ_run defs (onTc (τ := τ) (main (F := Ideal))) ⟨m, fun _ => 0, ρ⟩ (fun r => ∀ c : Dev nD,
      r.2.mem ((c.tc : Thread nD τ).loc main_v88) = (fun _ => lossS (Xm m c) (Lm m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (value_eq m ρ c), (h c).2⟩) (run_value (F := Ideal) m ρ)

end Cert.KernelIdeal.KV

end
-- ==== Proof.RefDefs.lean ====
/-
  The reference's two argument arrays read as the mathematics' tables: the features and the labels of the points.
-/
import proofs.«422653_j65403761984267_3_alg».proof.Proof.RefRead
import proofs.«422653_j65403761984267_3_alg».proof.Proof.Spec
import Idealize.ShloMosaic.Lib.ValueIdx

open scoped BigOperators

noncomputable section

namespace Cert.ReferenceIdeal.RefValue

open Cert.ReferenceIdeal Cert.ReferenceIdeal.Gen Cert.ReferenceIdeal.ReadP Cert.Proof.Spec
open Idealize.ShloMosaic Idealize.ShloMosaic.ValueIdx Idealize.ShloMosaic.TcCoe Idealize.SL.Sem

/-- Feature `f` of point `n` of a feature array `[1, 5, 4194304]`. -/
def Xx (x0 : S1x5x4194304.Idx → EReal) (f : Fin 5) (n : Fin NPts) : EReal := x0 (ix3 (0 : Fin 1) f n)
/-- The label word of point `n` of a label array `[1, 4194304]`. -/
def Lx (x1 : S1x4194304.Idx → BitVec 32) (n : Fin NPts) : BitVec 32 := x1 (ix2 (0 : Fin 1) n)

end Cert.ReferenceIdeal.RefValue

end
-- ==== Proof.LibGatherScatter.lean ====
/-
  The three index operations of one graph-convolution layer, READ AT AN INDEX, over generic extents: `N` rows (nodes),
  `E` start indices (edges), rows of width `D`.

  * the row gather `[N, D] → [E, D]` at a column `[E, 1]` of start indices (`gathD`): result `(e, q)` is the
    operand at `(row (idx (e, 0)), q)`;
  * the entry gather `[N] → [E]` at the same column (`gath1`): result `e` is the operand at `row (idx (e, 0))`;
    `row` is ONE function of the index word for both: the word read signed and clamped into `[0, N − 1]`;
  * the accumulating scatter `[E, D] → [N, D]` (`scatD`) and `[E] → [N]` (`scat1`) at a column of scatter indices:
    update `(e, q')` lands on `(i, q)` exactly when `q' = q` and the index word of `e`, read signed and NOT clamped,
    is `i`; hence at the ideal instance the scatter's value at `(i, q)` is the operand's plus the sum, over the edges
    `e` whose word is `i`, of the updates `(e, q)`.

  The dimension-number records are written out here with their well-formedness as an argument, so that a program's own
  record of the same fields is one of these by unfolding.
-/
import Idealize.ShloMosaic.PureOps.Ideal
import Idealize.ShloMosaic.Lib.ValueIdx

open scoped BigOperators

namespace Cert.Proof.GS

open Idealize.ShloMosaic Idealize.ShloMosaic.ValueIdx

/-! ## The records -/

/-- Row gather: operand `[N, D]`, start indices `[E, 1]`, result `[E, D]`; axis 0 collapsed and start-indexed, axis 1
    an offset axis of full width. -/
abbrev gathD (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry gather: operand `[N]`, start indices `[E, 1]`, result `[E]`; the one axis collapsed and start-indexed. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter: operand `[N, D]`, scatter indices `[E, 1]`, updates `[E, D]`; axis 0 inserted and scatter-indexed,
    axis 1 the window. -/
abbrev scatD (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Entry scatter: operand `[N]`, scatter indices `[E, 1]`, updates `[E]`; no window. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gathers at an index -/

/-- The row a gather reads for an index word: the word as a signed integer, clamped into `[0, N − 1]` (a negative
    word reads row 0, a word past the end the last row). -/
def row {N : Nat} (hN : 0 < N) {w : Nat} (b : BitVec w) : Fin N := ⟨min b.toInt.toNat (N - 1), by omega⟩

/-- A word whose signed value is a row number is sent to that row: the clamp leaves it alone. -/
theorem row_of_toInt {N : Nat} (hN : 0 < N) {w : Nat} (b : BitVec w) (i : Fin N) (h : b.toInt = (i.val : Int)) :
    row hN b = i := by
  refine Fin.ext ?_
  show min b.toInt.toNat (N - 1) = i.val
  rw [h, Int.toNat_natCast]
  have := i.isLt
  omega

variable {α : Type}

/-- THE ROW GATHER AT `(e, q)`: the operand at row `row (idx (e, 0))`, column `q`. On axis 0 (collapsed, no batching)
    the operand coordinate is the clamped start; on axis 1 (not start-indexed) it is the offset coordinate `q`. -/
theorem gather_gathD_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (gathD N E D wf) x idx (ix2 e q) = x (ix2 (row hN (idx (ix2 e (0 : Fin 1)))) q) := by
  unfold Host.gather
  congr 1
  funext a
  refine Fin.ext ?_
  match a with
  | ⟨0, _⟩ =>
    show (gathD N E D wf).start (ix2 e q) idx 0 + (gathD N E D wf).batchCoord (ix2 e q) 0
      + (gathD N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gathD N E D wf).startIndexMap from List.mem_singleton.mpr rfl)]
    show min (idx _).toInt.toNat (N - 1) = min (idx (ix2 e (0 : Fin 1))).toInt.toNat (N - 1)
    congr 3
    congr 1
    funext b
    refine Fin.ext ?_
    match b with
    | ⟨0, _⟩ => rfl
    | ⟨1, _⟩ => rfl
  | ⟨1, _⟩ =>
    show (gathD N E D wf).start (ix2 e q) idx 1 + (gathD N E D wf).batchCoord (ix2 e q) 1
      + (gathD N E D wf).offCoord (ix2 e q) 1 = q.val
    rw [GatherDims.batchCoord_eq_zero _ _ _ List.not_mem_nil]
    have h1 : (1 : Fin 2) ∉ (gathD N E D wf).startIndexMap :=
      show (1 : Fin 2) ∉ ([0] : List (Fin 2)) by decide
    have hk : (1 : Fin 2) ∈ (gathD N E D wf).sKept :=
      (GatherDims.mem_sKept _ _).mpr ⟨show (1 : Fin 2) ∉ ([0] : List (Fin 2)) by decide, List.not_mem_nil⟩
    unfold GatherDims.start GatherDims.offCoord
    rw [dif_neg h1, dif_pos hk]
    simp only [Nat.zero_add]
    rfl

/-- THE ENTRY GATHER AT `e`: the operand at `row (idx (e, 0))`, the same row the row gather reads for that edge. -/
theorem gather_gath1_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (gath1 N E wf) v idx (ix1 e) = v (ix1 (row hN (idx (ix2 e (0 : Fin 1))))) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ (gath1 N E wf).startIndexMap from List.mem_singleton.mpr rfl)]
  show min (idx _).toInt.toNat (N - 1) = min (idx (ix2 e (0 : Fin 1))).toInt.toNat (N - 1)
  congr 3
  congr 1
  funext b
  refine Fin.ext ?_
  match b with
  | ⟨0, _⟩ => rfl
  | ⟨1, _⟩ => rfl

/-! ## Where a scattered update lands -/

/-- For any scatter: an update lands on operand index `r` exactly when, on every axis, its signed start plus its
    window coordinate is `r`'s coordinate (if the sum leaves the operand on some axis the update is dropped, and no
    `r` has that coordinate). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro hh a
      have := congrFun (Option.some.inj hh) a
      rw [← this]
      exact (Int.toNat_of_nonneg (h a).1).symm
    · intro hall
      congr 1
      funext a
      refine Fin.ext ?_
      show (d.start j idx a + (d.window j a : Int)).toNat = (r a).val
      rw [hall a]; exact Int.toNat_natCast _
  · next h =>
    constructor
    · intro hh; cases hh
    · intro hall
      exfalso; apply h; intro a
      rw [hall a]
      exact ⟨Int.natCast_nonneg _, by exact_mod_cast (r a).isLt⟩

section ScatD
variable {N E D w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

/-- Row scatter, axis 0: the start is the edge's index word read signed … -/
theorem scatD_start0 : (scatD N E D wf).start (ix2 e q') idx 0 = (idx (ix2 e (0 : Fin 1))).toInt := by
  unfold ScatterDims.start
  rw [dif_pos (show (0 : Fin 2) ∈ (scatD N E D wf).scatterDimsToOperandDims from List.mem_singleton.mpr rfl)]
  congr 2
  funext b
  refine Fin.ext ?_
  match b with
  | ⟨0, _⟩ => rfl
  | ⟨1, _⟩ => rfl

/-- … and there is no window coordinate (the axis is inserted). -/
theorem scatD_window0 : (scatD N E D wf).window (ix2 e q') 0 = 0 := by
  unfold ScatterDims.window
  rw [dif_neg]
  intro h
  have : (0 : Fin 2) ∉ ([0] : List (Fin 2)) := by
    simpa [ScatterDims.sKept, Shape.kept, List.mem_filter] using h
  exact this (List.mem_singleton.mpr rfl)

/-- Row scatter, axis 1: not scatter-indexed, start 0 … -/
theorem scatD_start1 : (scatD N E D wf).start (ix2 e q') idx 1 = 0 := by
  unfold ScatterDims.start
  rw [dif_neg (show (1 : Fin 2) ∉ ([0] : List (Fin 2)) by decide)]

/-- … and the window coordinate is the update's column. -/
theorem scatD_window1 : (scatD N E D wf).window (ix2 e q') 1 = q'.val := by
  unfold ScatterDims.window
  have hk : (1 : Fin 2) ∈ (scatD N E D wf).sKept := by
    simp [ScatterDims.sKept, Shape.kept, List.mem_filter]
  rw [dif_pos hk]
  rfl

/-- WHERE A ROW UPDATE LANDS: update `(e, q')` lands on `(i, q)` iff `q' = q` and the edge's index word, read signed,
    is `i`. -/
theorem scatD_resultIdx?_iff (i : Fin N) (q : Fin D) :
    (scatD N E D wf).resultIdx? (ix2 e q') idx = some (ix2 i q)
      ↔ q' = q ∧ (idx (ix2 e (0 : Fin 1))).toInt = (i.val : Int) := by
  rw [resultIdx?_eq_some_iff]
  constructor
  · intro h
    have h0 : (scatD N E D wf).start (ix2 e q') idx 0 + ((scatD N E D wf).window (ix2 e q') 0 : Int) = (i.val : Int) :=
      h 0
    have h1 : (scatD N E D wf).start (ix2 e q') idx 1 + ((scatD N E D wf).window (ix2 e q') 1 : Int) = (q.val : Int) :=
      h 1
    rw [scatD_start0, scatD_window0] at h0
    rw [scatD_start1, scatD_window1] at h1
    refine ⟨Fin.ext ?_, ?_⟩
    · have : ((q'.val : Int)) = (q.val : Int) := by simpa using h1
      exact_mod_cast this
    · simpa using h0
  · rintro ⟨rfl, ht⟩ a
    match a with
    | ⟨0, _⟩ =>
      show (scatD N E D wf).start (ix2 e q') idx 0 + ((scatD N E D wf).window (ix2 e q') 0 : Int) = (i.val : Int)
      rw [scatD_start0, scatD_window0, ht]; simp
    | ⟨1, _⟩ =>
      show (scatD N E D wf).start (ix2 e q') idx 1 + ((scatD N E D wf).window (ix2 e q') 1 : Int) = (q'.val : Int)
      rw [scatD_start1, scatD_window1]; simp

end ScatD

section Scat1
variable {N E w : Nat} (wf : ScatterDims.WF ⟨1, ![N]⟩ ⟨2, ![E, 1]⟩ ⟨1, ![E]⟩ [] [0] [0] 1)
  (idx : IVec ⟨2, ![E, 1]⟩ w) (e : Fin E)

/-- Entry scatter: the start is the edge's index word read signed … -/
theorem scat1_start0 : (scat1 N E wf).start (ix1 e) idx 0 = (idx (ix2 e (0 : Fin 1))).toInt := by
  unfold ScatterDims.start
  rw [dif_pos (show (0 : Fin 1) ∈ (scat1 N E wf).scatterDimsToOperandDims from List.mem_singleton.mpr rfl)]
  congr 2
  funext b
  refine Fin.ext ?_
  match b with
  | ⟨0, _⟩ => rfl
  | ⟨1, _⟩ => rfl

/-- … and there is no window. -/
theorem scat1_window0 : (scat1 N E wf).window (ix1 e) 0 = 0 := by
  unfold ScatterDims.window
  rw [dif_neg]
  intro h
  have : (0 : Fin 1) ∉ ([0] : List (Fin 1)) := by
    simpa [ScatterDims.sKept, Shape.kept, List.mem_filter] using h
  exact this (List.mem_singleton.mpr rfl)

/-- WHERE AN ENTRY UPDATE LANDS: update `e` lands on `i` iff the edge's index word, read signed, is `i`. -/
theorem scat1_resultIdx?_iff (i : Fin N) :
    (scat1 N E wf).resultIdx? (ix1 e) idx = some (ix1 i) ↔ (idx (ix2 e (0 : Fin 1))).toInt = (i.val : Int) := by
  rw [resultIdx?_eq_some_iff]
  constructor
  · intro h
    have h0 : (scat1 N E wf).start (ix1 e) idx 0 + ((scat1 N E wf).window (ix1 e) 0 : Int) = (i.val : Int) := h 0
    rw [scat1_start0, scat1_window0] at h0
    simpa using h0
  · intro ht a
    obtain rfl : a = 0 := Subsingleton.elim _ _
    show (scat1 N E wf).start (ix1 e) idx 0 + ((scat1 N E wf).window (ix1 e) 0 : Int) = (i.val : Int)
    rw [scat1_start0, scat1_window0, ht]; simp

end Scat1

/-! ## The accumulating scatter at an index, at the ideal instance -/

section ScatterAddAt
open Finset

/-- THE ROW SCATTER-ADD AT `(i, q)`: the operand's entry plus the sum, over the edges `e` whose index word read signed
    is `i`, of the update entries `(e, q)`. The updates that land on `(i, q)` are the `(e, q')` with `q' = q` and word
    `i`: the sum over the pairs collapses to the sum over the edges. -/
theorem scatterAdd_scatD_apply {N E D w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (i : Fin N) (q : Fin D) :
    Host.scatterAdd (scatD N E D wf) x idx upd (ix2 i q)
      = x (ix2 i q) + ∑ e ∈ univ.filter (fun e : Fin E => (idx (ix2 e (0 : Fin 1))).toInt = (i.val : Int)), upd (ix2 e q) := by
  classical
  show x (ix2 i q) + ∑ j ∈ univ.filter (fun j => (scatD N E D wf).resultIdx? j idx = some (ix2 i q)), upd j = _
  congr 1
  rw [Finset.sum_filter, sum_idx2, Finset.sum_filter]
  refine Finset.sum_congr rfl fun e _ => ?_
  simp only [scatD_resultIdx?_iff]
  by_cases ht : (idx (ix2 e (0 : Fin 1))).toInt = (i.val : Int)
  · simp [ht]
  · simp [ht]

/-- THE ENTRY SCATTER-ADD AT `i`: the operand's entry plus the sum, over the edges whose index word read signed is
    `i`, of their updates. -/
theorem scatterAdd_scat1_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (scat1 N E wf) x idx upd (ix1 i)
      = x (ix1 i) + ∑ e ∈ univ.filter (fun e : Fin E => (idx (ix2 e (0 : Fin 1))).toInt = (i.val : Int)), upd (ix1 e) := by
  classical
  show x (ix1 i) + ∑ j ∈ univ.filter (fun j => (scat1 N E wf).resultIdx? j idx = some (ix1 i)), upd j = _
  congr 1
  refine Finset.sum_bij' (fun j _ => (j 0 : Fin E)) (fun e _ => ix1 e) ?_ ?_ ?_ ?_ ?_
  · intro j hj
    have h2 := (Finset.mem_filter.mp hj).2
    rw [eq_ix1 j] at h2
    exact Finset.mem_filter.mpr ⟨Finset.mem_univ _, (scat1_resultIdx?_iff wf idx _ i).mp h2⟩
  · intro e he
    exact Finset.mem_filter.mpr ⟨Finset.mem_univ _, (scat1_resultIdx?_iff wf idx e i).mpr (Finset.mem_filter.mp he).2⟩
  · intro j _; exact (eq_ix1 j).symm
  · intro e _; rfl
  · intro j _; exact congrArg upd (eq_ix1 j)

end ScatterAddAt

end Cert.Proof.GS
-- ==== Proof.RefAgg.lean ====
/-
  The reference's three scatter-adds read at an index: the counts, the feature sums and the variance sums of each
  class, each the sum over the class's points.
-/
import proofs.«422653_j65403761984267_3_alg».proof.Proof.RefDefs
import proofs.«422653_j65403761984267_3_alg».proof.Proof.LibGatherScatter
import Idealize.ShloMosaic.PureOps.Ideal.Laws

open scoped BigOperators

noncomputable section

namespace Cert.ReferenceIdeal.RefValue

open Cert.ReferenceIdeal Cert.ReferenceIdeal.Gen Cert.ReferenceIdeal.ReadP Cert.Proof.Spec
open Idealize.ShloMosaic Idealize.ShloMosaic.ValueIdx Idealize.ShloMosaic.TcCoe Idealize.SL.Sem

variable (x0 : S1x5x4194304.Idx → EReal) (x1 : S1x4194304.Idx → BitVec 32)

namespace Agg

/-! ## The dimension-number records are the generic ones -/

/-- The entry scatter into 33 slots by a column of 4194304 labels. -/
theorem entryScatter_eq : scatter_S33_S4194304x1_S4194304_n_0_0_1
    = Cert.Proof.GS.scat1 33 4194304 Facts₀.scatter_S33_S4194304x1_S4194304_n_0_0_1_wf := rfl

/-- The row scatter into a 33 × 5 table by the same column. -/
theorem rowScatter_eq : scatter_S33x5_S4194304x1_S4194304x5_1_0_0_1
    = Cert.Proof.GS.scatD 33 4194304 5 Facts₀.scatter_S33x5_S4194304x1_S4194304x5_1_0_0_1_wf := rfl

/-- The row gather out of a 33 × 5 table by a column of 4194304 indices. -/
theorem rowGather_eq : gather_S33x5_S4194304x1_S4194304x5_1_0_n_n_0_1_15
    = Cert.Proof.GS.gathD 33 4194304 5 Facts₀.gather_S33x5_S4194304x1_S4194304x5_1_0_n_n_0_1_15_wf := rfl

/-! ## The labels and the features, point by point -/

/-- The flattened labels at point `e`. -/
theorem label_apply (e : Fin NPts) : val_main_v1 (F := Ideal) x1 (ix1 e) = Lx x1 e := by
  rw [val_main_v1_apply]
  unfold Lx
  congr 1
  funext a
  refine Fin.ext ?_
  match a with
  | ⟨0, _⟩ => rfl
  | ⟨1, _⟩ => exact Nat.mod_eq_of_lt e.isLt

/-- The labels as a column (the first scatter's indices) at point `e`. -/
theorem labelColumn_apply (e : Fin NPts) : val_main_v4 (F := Ideal) x1 (ix2 e (0 : Fin 1)) = Lx x1 e := by
  rw [val_main_v4_apply, ← label_apply]
  congr 1
  funext a
  refine Fin.ext ?_
  match a with
  | ⟨0, _⟩ => rfl

/-- The same column as the second scatter reads it … -/
theorem labelColumn2_apply (e : Fin NPts) : val_main_v8 (F := Ideal) x1 (ix2 e (0 : Fin 1)) = Lx x1 e :=
  labelColumn_apply x1 e

/-- … and as the third does. -/
theorem labelColumn3_apply (e : Fin NPts) : val_main_v42 (F := Ideal) x1 (ix2 e (0 : Fin 1)) = Lx x1 e :=
  labelColumn_apply x1 e

/-- The features as a table (feature, point): position `f · 4194304 + e` of the flat array is `(0, f, e)`. -/
theorem features_apply (f : Fin 5) (e : Fin NPts) : val_main_v0 (F := Ideal) x0 (ix2 f e) = Xx x0 f e := by
  rw [val_main_v0_apply]
  unfold Xx
  congr 1
  funext a
  refine Fin.ext ?_
  have hf := f.isLt
  have he : e.val < 4194304 := e.isLt
  match a with
  | ⟨0, _⟩ => rfl
  | ⟨1, _⟩ => show (f.val * 4194304 + e.val) / 4194304 % 5 = f.val; omega
  | ⟨2, _⟩ => show (f.val * 4194304 + e.val) % 4194304 = e.val; omega

/-- The features transposed (point, feature): the second scatter's updates. -/
theorem featuresT_apply (e : Fin NPts) (f : Fin 5) : val_main_v6 (F := Ideal) x0 (ix2 e f) = Xx x0 f e := by
  rw [val_main_v6_apply, ← features_apply]
  congr 1
  funext a
  refine Fin.ext ?_
  match a with
  | ⟨0, _⟩ => rfl
  | ⟨1, _⟩ => rfl

end Agg

open Agg

/-- The first scatter-add: class `k`'s count. -/
theorem counts_apply (k : Fin 33) : val_main_v5 (F := Ideal) x1 (ix1 k) = cntR (Lx x1) k := by
  unfold val_main_v5
  rw [entryScatter_eq, Cert.Proof.GS.scatterAdd_scat1_apply]
  simp only [labelColumn_apply, val_main_v3_apply, val_main_cst_0_apply, val_main_v2_apply, val_main_cst_apply]
  rfl

/-- The second scatter-add: class `k`'s sum of feature `f`. -/
theorem sums_apply (k : Fin 33) (f : Fin 5) : val_main_v9 (F := Ideal) x0 x1 (ix2 k f) = smR (Xx x0) (Lx x1) k f := by
  unfold val_main_v9
  rw [rowScatter_eq, Cert.Proof.GS.scatterAdd_scatD_apply]
  simp only [labelColumn2_apply, featuresT_apply, val_main_v7_apply, val_main_cst_1_apply]
  rfl

namespace Agg

/-! ## The table of class means -/

/-- The count, at least one. -/
theorem safeCount_apply (k : Fin 33) : val_main_v11 (F := Ideal) x1 (ix1 k) = safe (cntR (Lx x1)) k := by
  rw [val_main_v11_apply, counts_apply, val_main_v10_apply, val_main_cst_2_apply]
  rfl

/-- The same, repeated along the five features. -/
theorem safeCountRow_apply (k : Fin 33) (f : Fin 5) :
    val_main_v13 (F := Ideal) x1 (ix2 k f) = safe (cntR (Lx x1)) k := by
  rw [val_main_v13_apply, val_main_v12_apply, ← safeCount_apply]
  congr 1
  funext a
  refine Fin.ext ?_
  match a with
  | ⟨0, _⟩ => rfl

/-- The table of class means (class, feature): the feature sum over the count, at least one. -/
theorem meanTable_apply (k : Fin 33) (f : Fin 5) :
    val_main_v14 (F := Ideal) x0 x1 (ix2 k f) = mean (cntR (Lx x1)) (smR (Xx x0) (Lx x1)) k f := by
  rw [val_main_v14_apply, sums_apply, safeCountRow_apply]
  rfl

/-! ## A point's own class mean -/

/-- The label as the gather's index: a negative one wrapped by 33. -/
theorem wrapped_apply (e : Fin NPts) : val_main_v28 (F := Ideal) x1 (ix1 e) = wrapIdx (Lx x1 e) := by
  rw [val_main_v28_apply, val_main_v25_apply, val_main_v27_apply, label_apply, val_main_v24_apply,
    val_main_c_5_apply, val_main_v26_apply, val_main_c_6_apply]
  rfl

/-- The wrapped labels as a column. -/
theorem wrappedColumn_apply (e : Fin NPts) :
    val_main_v29 (F := Ideal) x1 (ix2 e (0 : Fin 1)) = wrapIdx (Lx x1 e) := by
  rw [val_main_v29_apply, ← wrapped_apply]
  congr 1
  funext a
  refine Fin.ext ?_
  match a with
  | ⟨0, _⟩ => rfl

/-- The gathered row: the mean table's row for the point's label, the wrapped index clamped into 0 … 32. -/
theorem gatheredRow_apply (e : Fin NPts) (f : Fin 5) :
    val_main_v30 (F := Ideal) x0 x1 (ix2 e f)
      = mean (cntR (Lx x1)) (smR (Xx x0) (Lx x1)) (rowOf (Lx x1 e)) f := by
  unfold val_main_v30
  rw [rowGather_eq, Cert.Proof.GS.gather_gathD_apply (by decide : 0 < 33), meanTable_apply, wrappedColumn_apply]
  rfl

/-- The point is not a background point. -/
theorem notBackground_apply (e : Fin NPts) :
    val_main_v22 (F := Ideal) x1 (ix1 e) = IntOp.cmpi .ne (Lx x1 e) 0#32 := by
  rw [val_main_v22_apply, label_apply, val_main_v21_apply, val_main_c_4_apply]

/-- The same, as a column repeated along the five features. -/
theorem notBackgroundRow_apply (e : Fin NPts) (f : Fin 5) :
    val_main_call0_v1 (F := Ideal) x1 (ix2 e f) = IntOp.cmpi .ne (Lx x1 e) 0#32 := by
  rw [val_main_call0_v1_apply, val_main_v23_apply, ← notBackground_apply]
  congr 1
  funext a
  refine Fin.ext ?_
  match a with
  | ⟨0, _⟩ => rfl

/-- The gathered row zeroed at a background point (point, feature). -/
theorem ownMean_apply (e : Fin NPts) (f : Fin 5) :
    val_main_v31 (F := Ideal) x0 x1 (ix2 e f)
      = Scalar.select (IntOp.cmpi .ne (Lx x1 e) 0#32)
          (mean (cntR (Lx x1)) (smR (Xx x0) (Lx x1)) (rowOf (Lx x1 e)) f) zeroF := by
  rw [val_main_v31_apply, notBackgroundRow_apply, gatheredRow_apply, val_main_call0_v2_apply,
    val_main_call0_v0_apply, val_main_cst_7_apply]
  rfl

/-- The same, transposed (feature, point). -/
theorem ownMeanT_apply (f : Fin 5) (e : Fin NPts) :
    val_main_v32 (F := Ideal) x0 x1 (ix2 f e)
      = Scalar.select (IntOp.cmpi .ne (Lx x1 e) 0#32)
          (mean (cntR (Lx x1)) (smR (Xx x0) (Lx x1)) (rowOf (Lx x1 e)) f) zeroF := by
  rw [val_main_v32_apply, ← ownMean_apply]
  congr 1
  funext a
  refine Fin.ext ?_
  match a with
  | ⟨0, _⟩ => rfl
  | ⟨1, _⟩ => rfl

/-! ## A point's variance contribution -/

/-- The absolute deviation of feature `f` of point `e` from its own class mean. -/
theorem absDev_apply (f : Fin 5) (e : Fin NPts) :
    val_main_v34 (F := Ideal) x0 x1 (ix2 f e)
      = FloatOps.absf (F := Ideal) (φ := .f32) (Xx x0 f e - Scalar.select (IntOp.cmpi .ne (Lx x1 e) 0#32)
          (mean (cntR (Lx x1)) (smR (Xx x0) (Lx x1)) (rowOf (Lx x1 e)) f) zeroF) := by
  rw [val_main_v34_apply, val_main_v33_apply, features_apply, ownMeanT_apply]
  rfl

/-- The L1 distance of point `e` from its own class mean: the sum of the five absolute deviations. -/
theorem l1Dev_apply (e : Fin NPts) :
    val_main_v35 (F := Ideal) x0 x1 (ix1 e)
      = zeroF + ∑ f : Fin 5, FloatOps.absf (F := Ideal) (φ := .f32) (Xx x0 f e
          - Scalar.select (IntOp.cmpi .ne (Lx x1 e) 0#32)
              (mean (cntR (Lx x1)) (smR (Xx x0) (Lx x1)) (rowOf (Lx x1 e)) f) zeroF) := by
  rw [val_main_v35_apply]
  refine congrArg₂ (· + ·) rfl (Finset.sum_congr rfl fun f _ => ?_)
  have h : idx_main_v35 (ix1 e) f = ix2 f e :=
    funext fun a => Fin.ext (by match a with | ⟨0, _⟩ => rfl | ⟨1, _⟩ => rfl)
  rw [h, absDev_apply]

/-- The third scatter's update at point `e`: the hinge `max(distance − 0.5, 0)` squared. -/
theorem varUpdate_apply (e : Fin NPts) :
    val_main_v40 (F := Ideal) x0 x1 (ix1 e)
      = varR (Xx x0) (Lx x1) (mean (cntR (Lx x1)) (smR (Xx x0) (Lx x1))) e := by
  rw [val_main_v40_apply, val_main_v39_apply, val_main_v37_apply, l1Dev_apply, val_main_v36_apply,
    val_main_cst_9_apply, val_main_v38_apply, val_main_cst_10_apply]
  rfl

end Agg

/-- The third scatter-add: class `k`'s variance sum. -/
theorem vars_apply (k : Fin 33) : val_main_v43 (F := Ideal) x0 x1 (ix1 k) = vsR (Xx x0) (Lx x1) k := by
  unfold val_main_v43
  rw [entryScatter_eq, Cert.Proof.GS.scatterAdd_scat1_apply]
  simp only [labelColumn3_apply, varUpdate_apply, val_main_v41_apply, val_main_cst_11_apply]
  rfl

end Cert.ReferenceIdeal.RefValue

end
-- ==== Proof.RefTail.lean ====
/-
  The reference's operations after its scatter-adds, read at an index: the result is the loss of the three
  aggregates.

  Every operation between the scatter-adds and the result acts elementwise, broadcasts, or sums over classes or
  features. Each named quantity of the loss (the safe count, the class mean, presence, the variance of a class, the
  zeroed mean, the L1 distance of two classes, the pair mask, the hinge, the three terms) is read here at explicit
  class and feature coordinates, with the three scatter-add results left as they are, and the readings are chained from
  the result down.
-/
import proofs.«422653_j65403761984267_3_alg».proof.Proof.RefDefs
import Idealize.ShloMosaic.PureOps.Ideal.Laws

open scoped BigOperators

noncomputable section

namespace Cert.ReferenceIdeal.RefValue

open Cert.ReferenceIdeal Cert.ReferenceIdeal.Gen Cert.ReferenceIdeal.ReadP Cert.Proof.Spec
open Idealize.ShloMosaic Idealize.ShloMosaic.ValueIdx Idealize.ShloMosaic.TcCoe Idealize.SL.Sem

variable (x0 : S1x5x4194304.Idx → EReal) (x1 : S1x4194304.Idx → BitVec 32)

namespace Tail

/-! ## Sums over a rank-one index set -/

/-- A rank-one index set of extent `n` is `Fin n`. -/
def idxEquiv1 {n : Nat} : (⟨1, ![n]⟩ : Shape).Idx ≃ Fin n where
  toFun i := i 0
  invFun k := ix1 k
  left_inv i := (eq_ix1 i).symm
  right_inv _ := rfl

/-- A sum over a rank-one index set is the sum over its coordinate. -/
theorem sum_idx1 {M : Type*} [AddCommMonoid M] {n : Nat} (g : (⟨1, ![n]⟩ : Shape).Idx → M) :
    ∑ i, g i = ∑ k : Fin n, g (ix1 k) :=
  (Equiv.sum_comp (idxEquiv1 (n := n)).symm g).symm

/-! ## One class -/

/-- The count, at least one. -/
theorem safe_apply (k : Fin 33) :
    val_main_v11 (F := Ideal) x1 (ix1 k) = safe (fun k => val_main_v5 (F := Ideal) x1 (ix1 k)) k := by
  rw [val_main_v11_apply, val_main_v10_apply, val_main_cst_2_apply]
  generalize val_main_v5 (F := Ideal) x1 = c
  rfl

/-- The class has a point. -/
theorem present_apply (k : Fin 33) :
    val_main_v16 (F := Ideal) x1 (ix1 k) = present (fun k => val_main_v5 (F := Ideal) x1 (ix1 k)) k := by
  rw [val_main_v16_apply, val_main_v15_apply, val_main_cst_3_apply]
  generalize val_main_v5 (F := Ideal) x1 = c
  rfl

/-- The class is not the background: its number, as a word, is not zero. -/
theorem notBg_apply (k : Fin 33) : val_main_v19 (F := Ideal) (ix1 k) = notBg k := by
  rw [val_main_v19_apply, val_main_v17_apply, val_main_v18_apply, val_main_c_apply]
  rfl

/-- Present and not background. -/
theorem nz_apply (k : Fin 33) :
    val_main_v20 (F := Ideal) x1 (ix1 k) = nz (fun k => val_main_v5 (F := Ideal) x1 (ix1 k)) k := by
  rw [val_main_v20_apply, present_apply, notBg_apply]
  generalize val_main_v5 (F := Ideal) x1 = c
  rfl

/-- The class mean of a feature: the feature sum over the safe count, the count broadcast along the features. -/
theorem mean_apply (k : Fin 33) (f : Fin 5) :
    val_main_v14 (F := Ideal) x0 x1 (ix2 k f) = mean (fun k => val_main_v5 (F := Ideal) x1 (ix1 k)) (fun k f => val_main_v9 (F := Ideal) x0 x1 (ix2 k f)) k f := by
  rw [val_main_v14_apply, val_main_v13_apply, val_main_v12_apply]
  have hi : idx_main_v12 (idx_main_v13 (ix2 k f)) = ix1 k :=
    funext fun a => Fin.ext (by match a with | ⟨0, _⟩ => rfl)
  rw [hi, safe_apply]
  generalize val_main_v5 (F := Ideal) x1 = c
  generalize val_main_v9 (F := Ideal) x0 x1 = s
  rfl

/-- The class variance: the variance sum over the safe count. -/
theorem cvar_apply (k : Fin 33) :
    val_main_v44 (F := Ideal) x0 x1 (ix1 k) = cvar (fun k => val_main_v5 (F := Ideal) x1 (ix1 k)) (fun k => val_main_v43 (F := Ideal) x0 x1 (ix1 k)) k := by
  rw [val_main_v44_apply, safe_apply]
  generalize val_main_v5 (F := Ideal) x1 = c
  generalize val_main_v43 (F := Ideal) x0 x1 = v
  rfl

/-- The mean, zeroed outside the present non-background classes: the class's bit broadcast along the features. -/
theorem ms_apply (k : Fin 33) (f : Fin 5) :
    val_main_v51 (F := Ideal) x0 x1 (ix2 k f) = ms (fun k => val_main_v5 (F := Ideal) x1 (ix1 k)) (fun k f => val_main_v9 (F := Ideal) x0 x1 (ix2 k f)) k f := by
  rw [val_main_v51_apply, val_main_call2_v1_apply, val_main_v50_apply, val_main_call2_v2_apply,
    val_main_call2_v0_apply, val_main_cst_15_apply]
  have hi : idx_main_v50 (idx_main_call2_v1 (ix2 k f)) = ix1 k :=
    funext fun a => Fin.ext (by match a with | ⟨0, _⟩ => rfl)
  rw [hi, nz_apply, mean_apply]
  generalize val_main_v5 (F := Ideal) x1 = c
  generalize val_main_v9 (F := Ideal) x0 x1 = s
  rfl

/-! ## The numbers of classes and the variance term -/

/-- A present class counts one. -/
theorem presentF_apply (k : Fin 33) :
    val_main_v45 (F := Ideal) x1 (ix1 k) = FloatOps.uitofp (F := Ideal) .f32 (present (fun k => val_main_v5 (F := Ideal) x1 (ix1 k)) k) := by
  rw [val_main_v45_apply, present_apply]

/-- A present non-background class counts one. -/
theorem nzF_apply (k : Fin 33) :
    val_main_v76 (F := Ideal) x1 (ix1 k) = FloatOps.uitofp (F := Ideal) .f32 (nz (fun k => val_main_v5 (F := Ideal) x1 (ix1 k)) k) := by
  rw [val_main_v76_apply, nz_apply]

/-- The number of present classes. -/
theorem nUnique_apply :
    val_main_v46 (F := Ideal) x1 ix0 = nUnique (fun k => val_main_v5 (F := Ideal) x1 (ix1 k)) := by
  rw [val_main_v46_apply, val_main_cst_12_apply, sum_idx1]
  simp only [presentF_apply]
  generalize val_main_v5 (F := Ideal) x1 = c
  rfl

/-- The number of present non-background classes. -/
theorem nC_apply :
    val_main_v77 (F := Ideal) x1 ix0 = nC (fun k => val_main_v5 (F := Ideal) x1 (ix1 k)) := by
  rw [val_main_v77_apply, val_main_cst_20_apply, sum_idx1]
  simp only [nzF_apply]
  generalize val_main_v5 (F := Ideal) x1 = c
  rfl

/-- A class's share of the variance term: its variance where it is present and not background, else zero. -/
theorem varSummand_apply (k : Fin 33) :
    val_main_v47 (F := Ideal) x0 x1 (ix1 k)
      = Scalar.select (nz (fun k => val_main_v5 (F := Ideal) x1 (ix1 k)) k) (cvar (fun k => val_main_v5 (F := Ideal) x1 (ix1 k)) (fun k => val_main_v43 (F := Ideal) x0 x1 (ix1 k)) k) zeroF := by
  rw [val_main_v47_apply, nz_apply, cvar_apply, val_main_call1_v1_apply, val_main_call1_v0_apply,
    val_main_cst_13_apply]
  generalize val_main_v5 (F := Ideal) x1 = c
  generalize val_main_v43 (F := Ideal) x0 x1 = v
  rfl

/-- The variance term. -/
theorem varTerm_apply :
    val_main_v49 (F := Ideal) x0 x1 ix0 = varTerm (fun k => val_main_v5 (F := Ideal) x1 (ix1 k)) (fun k => val_main_v43 (F := Ideal) x0 x1 (ix1 k)) := by
  rw [val_main_v49_apply, nUnique_apply, val_main_v48_apply, val_main_cst_14_apply, sum_idx1]
  simp only [varSummand_apply]
  generalize val_main_v5 (F := Ideal) x1 = c
  generalize val_main_v43 (F := Ideal) x0 x1 = v
  rfl

/-! ## Two classes -/

/-- One feature's share of the distance of two classes: the first class's zeroed mean broadcast along the second
    class, the second's along the first, their difference's absolute value. -/
theorem absDiff_apply (i j : Fin 33) (f : Fin 5) :
    val_main_v57 (F := Ideal) x0 x1 (ix3 i j f)
      = FloatOps.absf (F := Ideal) (φ := .f32) (ms (fun k => val_main_v5 (F := Ideal) x1 (ix1 k)) (fun k f => val_main_v9 (F := Ideal) x0 x1 (ix2 k f)) i f - ms (fun k => val_main_v5 (F := Ideal) x1 (ix1 k)) (fun k f => val_main_v9 (F := Ideal) x0 x1 (ix2 k f)) j f) := by
  rw [val_main_v57_apply, val_main_v56_apply, val_main_v54_apply, val_main_v52_apply, val_main_v55_apply,
    val_main_v53_apply]
  have hl : idx_main_v52 (idx_main_v54 (ix3 i j f)) = ix2 i f :=
    funext fun a => Fin.ext (by match a with | ⟨0, _⟩ => rfl | ⟨1, _⟩ => rfl)
  have hr : idx_main_v53 (idx_main_v55 (ix3 i j f)) = ix2 j f :=
    funext fun a => Fin.ext (by match a with | ⟨0, _⟩ => rfl | ⟨1, _⟩ => rfl)
  rw [hl, hr, ms_apply, ms_apply]
  generalize val_main_v5 (F := Ideal) x1 = c
  generalize val_main_v9 (F := Ideal) x0 x1 = s
  rfl

/-- The L1 distance of two classes' zeroed means: the sum over the features. -/
theorem dist_apply (i j : Fin 33) :
    val_main_v58 (F := Ideal) x0 x1 (ix2 i j) = Cert.Proof.Spec.dist (fun k => val_main_v5 (F := Ideal) x1 (ix1 k)) (fun k f => val_main_v9 (F := Ideal) x0 x1 (ix2 k f)) i j := by
  have hi : ∀ f : Fin 5, idx_main_v58 (ix2 i j) f = ix3 i j f := fun f =>
    funext fun a => Fin.ext (by match a with | ⟨0, _⟩ => rfl | ⟨1, _⟩ => rfl | ⟨2, _⟩ => rfl)
  have hsum : ∀ f : Fin 5, val_main_v57 (F := Ideal) x0 x1 (idx_main_v58 (ix2 i j) f)
      = FloatOps.absf (F := Ideal) (φ := .f32) (ms (fun k => val_main_v5 (F := Ideal) x1 (ix1 k)) (fun k f => val_main_v9 (F := Ideal) x0 x1 (ix2 k f)) i f - ms (fun k => val_main_v5 (F := Ideal) x1 (ix1 k)) (fun k f => val_main_v9 (F := Ideal) x0 x1 (ix2 k f)) j f) := fun f =>
    (congrArg (val_main_v57 (F := Ideal) x0 x1) (hi f)).trans (absDiff_apply x0 x1 i j f)
  rw [val_main_v58_apply, val_main_cst_16_apply]
  simp only [hsum]
  generalize val_main_v5 (F := Ideal) x1 = c
  generalize val_main_v9 (F := Ideal) x0 x1 = s
  rfl

/-- Both classes present and not background, and the two distinct: the first's bit broadcast along the second, the
    second's along the first, and the row number compared with the column number. -/
theorem pairMask_apply (i j : Fin 33) :
    val_main_v70 (F := Ideal) x1 (ix2 i j) = pairMask (fun k => val_main_v5 (F := Ideal) x1 (ix1 k)) i j := by
  rw [val_main_v70_apply, val_main_v63_apply, val_main_v61_apply, val_main_v59_apply, val_main_v62_apply,
    val_main_v60_apply, val_main_v69_apply, val_main_v68_apply, val_main_v67_apply, val_main_v64_apply,
    val_main_v65_apply, val_main_v66_apply, val_main_c_17_apply]
  have hl : idx_main_v59 (idx_main_v61 (ix2 i j)) = ix1 i :=
    funext fun a => Fin.ext (by match a with | ⟨0, _⟩ => rfl)
  have hr : idx_main_v60 (idx_main_v62 (ix2 i j)) = ix1 j :=
    funext fun a => Fin.ext (by match a with | ⟨0, _⟩ => rfl)
  rw [hl, hr, nz_apply, nz_apply]
  generalize val_main_v5 (F := Ideal) x1 = c
  rfl

/-- The squared hinge of three minus the distance. -/
theorem hinge_apply (i j : Fin 33) :
    val_main_v75 (F := Ideal) x0 x1 (ix2 i j) = hinge (fun k => val_main_v5 (F := Ideal) x1 (ix1 k)) (fun k f => val_main_v9 (F := Ideal) x0 x1 (ix2 k f)) i j := by
  rw [val_main_v75_apply, val_main_v74_apply, val_main_v72_apply, val_main_v71_apply, val_main_cst_18_apply,
    val_main_v73_apply, val_main_cst_19_apply, dist_apply]
  generalize val_main_v5 (F := Ideal) x1 = c
  generalize val_main_v9 (F := Ideal) x0 x1 = s
  rfl

/-- A pair's share of the distance term: its hinge under the pair mask, else zero. -/
theorem pairSummand_apply (i j : Fin 33) :
    val_main_v78 (F := Ideal) x0 x1 (ix2 i j)
      = Scalar.select (pairMask (fun k => val_main_v5 (F := Ideal) x1 (ix1 k)) i j) (hinge (fun k => val_main_v5 (F := Ideal) x1 (ix1 k)) (fun k f => val_main_v9 (F := Ideal) x0 x1 (ix2 k f)) i j) zeroF := by
  rw [val_main_v78_apply, pairMask_apply, hinge_apply, val_main_call3_v1_apply, val_main_call3_v0_apply,
    val_main_cst_21_apply]
  generalize val_main_v5 (F := Ideal) x1 = c
  generalize val_main_v9 (F := Ideal) x0 x1 = s
  rfl

/-- The distance term: the sum over ordered pairs, over the number of classes times that number less one. -/
theorem distTerm_apply :
    val_main_v82 (F := Ideal) x0 x1 ix0 = distTerm (fun k => val_main_v5 (F := Ideal) x1 (ix1 k)) (fun k f => val_main_v9 (F := Ideal) x0 x1 (ix2 k f)) := by
  rw [val_main_v82_apply, val_main_v81_apply, val_main_v80_apply, val_main_cst_23_apply, nC_apply,
    val_main_v79_apply, val_main_cst_22_apply, sum_idx2]
  simp only [pairSummand_apply]
  generalize val_main_v5 (F := Ideal) x1 = c
  generalize val_main_v9 (F := Ideal) x0 x1 = s
  rfl

/-! ## The norms of the means -/

/-- One feature's share of a class's norm. -/
theorem absMs_apply (k : Fin 33) (f : Fin 5) :
    val_main_v83 (F := Ideal) x0 x1 (ix2 k f) = FloatOps.absf (F := Ideal) (φ := .f32) (ms (fun k => val_main_v5 (F := Ideal) x1 (ix1 k)) (fun k f => val_main_v9 (F := Ideal) x0 x1 (ix2 k f)) k f) := by
  rw [val_main_v83_apply, ms_apply]
  generalize val_main_v5 (F := Ideal) x1 = c
  generalize val_main_v9 (F := Ideal) x0 x1 = s
  rfl

/-- The L1 norm of a class's zeroed mean: the sum over the features. -/
theorem l1_apply (k : Fin 33) :
    val_main_v84 (F := Ideal) x0 x1 (ix1 k)
      = zeroF + ∑ f : Fin 5, FloatOps.absf (F := Ideal) (φ := .f32) (ms (fun k => val_main_v5 (F := Ideal) x1 (ix1 k)) (fun k f => val_main_v9 (F := Ideal) x0 x1 (ix2 k f)) k f) := by
  have hi : ∀ f : Fin 5, idx_main_v84 (ix1 k) f = ix2 k f := fun f =>
    funext fun a => Fin.ext (by match a with | ⟨0, _⟩ => rfl | ⟨1, _⟩ => rfl)
  have hsum : ∀ f : Fin 5, val_main_v83 (F := Ideal) x0 x1 (idx_main_v84 (ix1 k) f)
      = FloatOps.absf (F := Ideal) (φ := .f32) (ms (fun k => val_main_v5 (F := Ideal) x1 (ix1 k)) (fun k f => val_main_v9 (F := Ideal) x0 x1 (ix2 k f)) k f) := fun f =>
    (congrArg (val_main_v83 (F := Ideal) x0 x1) (hi f)).trans (absMs_apply x0 x1 k f)
  rw [val_main_v84_apply, val_main_cst_24_apply]
  simp only [hsum]
  generalize val_main_v5 (F := Ideal) x1 = c
  generalize val_main_v9 (F := Ideal) x0 x1 = s
  rfl

/-- A class's share of the regularisation term: its norm where it is present and not background, else zero. -/
theorem regSummand_apply (k : Fin 33) :
    val_main_v85 (F := Ideal) x0 x1 (ix1 k)
      = Scalar.select (nz (fun k => val_main_v5 (F := Ideal) x1 (ix1 k)) k)
          (zeroF + ∑ f : Fin 5, FloatOps.absf (F := Ideal) (φ := .f32) (ms (fun k => val_main_v5 (F := Ideal) x1 (ix1 k)) (fun k f => val_main_v9 (F := Ideal) x0 x1 (ix2 k f)) k f)) zeroF := by
  rw [val_main_v85_apply, nz_apply, l1_apply, val_main_call4_v1_apply, val_main_call4_v0_apply,
    val_main_cst_25_apply]
  generalize val_main_v5 (F := Ideal) x1 = c
  generalize val_main_v9 (F := Ideal) x0 x1 = s
  rfl

/-- The regularisation term: the sum of the norms, divided twice by the number of classes. -/
theorem regTerm_apply :
    val_main_v88 (F := Ideal) x0 x1 ix0 = regTerm (fun k => val_main_v5 (F := Ideal) x1 (ix1 k)) (fun k f => val_main_v9 (F := Ideal) x0 x1 (ix2 k f)) := by
  rw [val_main_v88_apply, val_main_v87_apply, nC_apply, val_main_v86_apply, val_main_cst_26_apply, sum_idx1]
  simp only [regSummand_apply]
  generalize val_main_v5 (F := Ideal) x1 = c
  generalize val_main_v9 (F := Ideal) x0 x1 = s
  rfl

end Tail

/-! ## The result -/

open Tail in
/-- The result is the loss of the counts, the feature sums and the variance sums the scatter-adds left. -/
theorem tail_apply :
    val_main_v93 (F := Ideal) x0 x1 ix0
      = loss (fun k => val_main_v5 (F := Ideal) x1 (ix1 k)) (fun k f => val_main_v9 (F := Ideal) x0 x1 (ix2 k f))
          (fun k => val_main_v43 (F := Ideal) x0 x1 (ix1 k)) := by
  rw [val_main_v93_apply, val_main_v91_apply, val_main_v89_apply, val_main_v90_apply, val_main_v92_apply,
    val_main_cst_27_apply, val_main_cst_28_apply, val_main_cst_29_apply, varTerm_apply, distTerm_apply, regTerm_apply]
  generalize val_main_v5 (F := Ideal) x1 = c
  generalize val_main_v9 (F := Ideal) x0 x1 = s
  generalize val_main_v43 (F := Ideal) x0 x1 = v
  rfl

end Cert.ReferenceIdeal.RefValue

end
-- ==== Proof.RefValue.lean ====
/-
  The reference's result read back at the ideal instance: the loss of the aggregates its three scatter-adds form
  from the launch memory's points.
-/
import proofs.«422653_j65403761984267_3_alg».proof.Proof.RefAgg
import proofs.«422653_j65403761984267_3_alg».proof.Proof.RefTail

open scoped BigOperators

noncomputable section

namespace Cert.ReferenceIdeal.RefValue

open Cert.ReferenceIdeal Cert.ReferenceIdeal.Gen Cert.ReferenceIdeal.ReadP Cert.Proof.Spec
open Idealize.ShloMosaic Idealize.ShloMosaic.ValueIdx Idealize.ShloMosaic.TcCoe Idealize.SL.Sem

variable (m : (ℓ : Loc nD τ sig) → Buf (Elt Ideal) ℓ)

/-- The features in the launch memory. -/
def Xr (c : Dev nD) : Fin 5 → Fin NPts → EReal := Xx (m ((c.tc : Thread nD τ).loc main_arg0))
/-- The labels in the launch memory. -/
def Lr (c : Dev nD) : Fin NPts → BitVec 32 := Lx (m ((c.tc : Thread nD τ).loc main_arg1))

/-- The reference's result is the loss of the scattered aggregates of the launch memory's points. -/
theorem result_eq (c : Dev nD) :
    (Cert.ReferenceIdeal.ValueP.res_main_v93 (F := Ideal) m c : S_.Idx → EReal) ix0 = lossR (Xr m c) (Lr m c) := by
  refine (congrFun (val_main_v93_eq (F := Ideal) m c) ix0).trans ((tail_apply _ _).trans ?_)
  have h1 : (fun k => val_main_v5 (F := Ideal) (m ((c.tc : Thread nD τ).loc main_arg1)) (ix1 k)) = cntR (Lr m c) :=
    funext fun k => counts_apply _ k
  have h2 : (fun k f => val_main_v9 (F := Ideal) (m ((c.tc : Thread nD τ).loc main_arg0))
      (m ((c.tc : Thread nD τ).loc main_arg1)) (ix2 k f)) = smR (Xr m c) (Lr m c) :=
    funext fun k => funext fun f => sums_apply _ _ k f
  have h3 : (fun k => val_main_v43 (F := Ideal) (m ((c.tc : Thread nD τ).loc main_arg0))
      (m ((c.tc : Thread nD τ).loc main_arg1)) (ix1 k)) = vsR (Xr m c) (Lr m c) :=
    funext fun k => vars_apply _ _ k
  rw [h1, h2, h3]
  rfl

end Cert.ReferenceIdeal.RefValue

end
-- ==== Proof.lean ====
/-
  The certificate's five claims.

  The two programs compute one function of the launch memory's points: the loss `1 · var + 1 · dist + 0.001 · reg` of the
  per-class counts, feature sums and variance sums (Proof/Spec.lean). The kernel forms each aggregate as a sum over all
  points against a one-hot row, block by block on two cores, the partial sums added on the host; the reference forms it
  as a scatter-add over the class's points. A one-hot entry is 0 or 1, and `x · 0 = 0`, `x · 1 = x` hold for every
  extended real, so the two sums agree term by term, for every label word: a label outside 0 … 32 matches no class on
  the kernel's side and lands outside the 33 slots on the reference's. The point's own-class mean, picked by the one-hot
  row in the kernel and gathered by the label in the reference, is the same table entry for every point that a class
  counts. The operations after the aggregates are the same on both sides up to the layout of the tables.
  The frames of the two kernel programs are the generated frame certificates; the reference's is its run with the result
  dropped; no operation was rewritten by the idealization.
-/
import proofs.«422653_j65403761984267_3_alg».proof.Defs
import proofs.«422653_j65403761984267_3_alg».proof.Proof.Gen.Kernel
import proofs.«422653_j65403761984267_3_alg».proof.Proof.Gen.Kernel.Frame
import proofs.«422653_j65403761984267_3_alg».proof.Proof.Gen.KernelIdeal
import proofs.«422653_j65403761984267_3_alg».proof.Proof.Gen.KernelIdeal.Frame
import proofs.«422653_j65403761984267_3_alg».proof.Proof.Gen.ReferenceIdeal
import proofs.«422653_j65403761984267_3_alg».proof.Proof.Gen.Pre_finite_inputs
import proofs.«422653_j65403761984267_3_alg».proof.Proof.KValue
import proofs.«422653_j65403761984267_3_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem Cert.Proof.Spec

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end at the loss of the launch memory's points: the kernel's by its run read through the two regions,
    the reference's by its scattered aggregates, equal to the one-hot sums; the memories agree on the points. -/
theorem algebraic : Cert.algebraic_KernelIdeal_ReferenceIdeal := by
  intro m ρ m' ρ' _ hagree
  refine ⟨fun c => (fun _ => lossS (Cert.KernelIdeal.KV.Xm m c) (Cert.KernelIdeal.KV.Lm m c)),
    Cert.KernelIdeal.KV.run m ρ, ?_⟩
  refine (θ_run Cert.ReferenceIdeal.defs _ _).mono (fun _ h c => ⟨(h c).1.trans ?_, (h c).2⟩)
    (Cert.ReferenceIdeal.ValueP.run (F := Ideal) m' ρ')
  funext i
  rw [eq_ix0 i, Cert.ReferenceIdeal.RefValue.result_eq, lossR_eq]
  unfold Cert.ReferenceIdeal.RefValue.Xr Cert.ReferenceIdeal.RefValue.Lr Cert.ReferenceIdeal.RefValue.Xx
    Cert.ReferenceIdeal.RefValue.Lx Cert.KernelIdeal.KV.Xm Cert.KernelIdeal.KV.Lm
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
